-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  IdealRules.truncf_extf.Statement Cert.KernelIdeal.S128x1024 .f32 .bf16
  ∧ IdealRules.truncf_extf.Statement Cert.KernelIdeal.S128x1024 .f32 .bf16
  ∧ IdealRules.truncf_extf.Statement Cert.KernelIdeal.S128x1024 .f32 .bf16
  ∧ IdealRules.truncf_extf.Statement Cert.KernelIdeal.S128x1024 .f32 .bf16
  ∧ IdealRules.truncf_extf.Statement Cert.KernelIdeal.S128x1024 .f32 .bf16
  ∧ IdealRules.truncf_extf.Statement Cert.KernelIdeal.S128x1024 .f32 .bf16
  ∧ IdealRules.truncf_extf.Statement Cert.KernelIdeal.S128x1024 .f32 .bf16
  ∧ IdealRules.truncf_extf.Statement Cert.KernelIdeal.S128x1024 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x512 : Shape := ⟨2, ![262144, 512]⟩
abbrev S262144 : Shape := ⟨1, ![262144]⟩
abbrev S100x512 : Shape := ⟨2, ![100, 512]⟩
abbrev S20x512 : Shape := ⟨2, ![20, 512]⟩
abbrev S20x20 : Shape := ⟨2, ![20, 20]⟩
abbrev S_ : Shape := ⟨0, ![]⟩

class Facts : Prop where
  bcast_S_S262144x512 : S_.BroadcastsInDim S262144x512 (![] : Fin 0 → Fin S262144x512.rank)
  reducesTo_S262144x512_S_d0_1 : S262144x512.ReducesTo [0, 1] S_
  h_S_ : 0 < S_.numel
  bcast_S_S100x512 : S_.BroadcastsInDim S100x512 (![] : Fin 0 → Fin S100x512.rank)
  reducesTo_S100x512_S_d0_1 : S100x512.ReducesTo [0, 1] S_
  bcast_S_S20x512 : S_.BroadcastsInDim S20x512 (![] : Fin 0 → Fin S20x512.rank)
  reducesTo_S20x512_S_d0_1 : S20x512.ReducesTo [0, 1] S_
  bcast_S_S20x20 : S_.BroadcastsInDim S20x20 (![] : Fin 0 → Fin S20x20.rank)
  reducesTo_S20x20_S_d0_1 : S20x20.ReducesTo [0, 1] S_

variable [Facts]

def fn_part1 {F : FTy → Type} [FloatOps F] (main_v13 : IVec S_ 1) (main_v16 : IVec S20x20 1) : IVec S_ 1 :=
  let main_c_5 : IVec S_ 1 := constantI S_ 1 1#1
  let main_v17 : IVec S_ 1 := (fun x v => Host.reduce IntOp.andi x v reducesTo_S20x20_S_d0_1 h_S_) main_v16 main_c_5
  let main_v18 : IVec S_ 1 := andi main_v13 main_v17
  main_v18

def fn {F : FTy → Type} [FloatOps F] (main_arg0 : FVec F S262144x512 .f32) (main_arg1 : IVec S262144 32) (main_arg2 : FVec F S100x512 .f32) (main_arg3 : FVec F S20x512 .f32) (main_arg4 : FVec F S20x20 .f32) : IVec S_ 1 :=
  let main_v0 : FVec F S262144x512 .f32 := Host.absf main_arg0
  let main_cst : FVec F S_ .f32 := constant S_ .f32 0x7F800000#32
  let main_v1 : FVec F S262144x512 .f32 := broadcastInDim S262144x512 ![] bcast_S_S262144x512 main_cst
  let main_v2 : IVec S262144x512 1 := cmpf .olt main_v0 main_v1
  let main_c : IVec S_ 1 := constantI S_ 1 1#1
  let main_v3 : IVec S_ 1 := (fun x v => Host.reduce IntOp.andi x v reducesTo_S262144x512_S_d0_1 h_S_) main_v2 main_c
  let main_v4 : FVec F S100x512 .f32 := Host.absf main_arg2
  let main_cst_0 : FVec F S_ .f32 := constant S_ .f32 0x7F800000#32
  let main_v5 : FVec F S100x512 .f32 := broadcastInDim S100x512 ![] bcast_S_S100x512 main_cst_0
  let main_v6 : IVec S100x512 1 := cmpf .olt main_v4 main_v5
  let main_c_1 : IVec S_ 1 := constantI S_ 1 1#1
  let main_v7 : IVec S_ 1 := (fun x v => Host.reduce IntOp.andi x v reducesTo_S100x512_S_d0_1 h_S_) main_v6 main_c_1
  let main_v8 : IVec S_ 1 := andi main_v3 main_v7
  let main_v9 : FVec F S20x512 .f32 := Host.absf main_arg3
  let main_cst_2 : FVec F S_ .f32 := constant S_ .f32 0x7F800000#32
  let main_v10 : FVec F S20x512 .f32 := broadcastInDim S20x512 ![] bcast_S_S20x512 main_cst_2
  let main_v11 : IVec S20x512 1 := cmpf .olt main_v9 main_v10
  let main_c_3 : IVec S_ 1 := constantI S_ 1 1#1
  let main_v12 : IVec S_ 1 := (fun x v => Host.reduce IntOp.andi x v reducesTo_S20x512_S_d0_1 h_S_) main_v11 main_c_3
  let main_v13 : IVec S_ 1 := andi main_v8 main_v12
  let main_v14 : FVec F S20x20 .f32 := Host.absf main_arg4
  let main_cst_4 : FVec F S_ .f32 := constant S_ .f32 0x7F800000#32
  let main_v15 : FVec F S20x20 .f32 := broadcastInDim S20x20 ![] bcast_S_S20x20 main_cst_4
  let main_v16 : IVec S20x20 1 := cmpf .olt main_v14 main_v15
  fn_part1 (F := F) main_v13 main_v16
-- ==== Kernel.lean ====
abbrev S262144x512 : Shape := ⟨2, ![262144, 512]⟩
abbrev S262144 : Shape := ⟨1, ![262144]⟩
abbrev S100x512 : Shape := ⟨2, ![100, 512]⟩
abbrev S20x512 : Shape := ⟨2, ![20, 512]⟩
abbrev S20x20 : Shape := ⟨2, ![20, 20]⟩
abbrev S1x262144 : Shape := ⟨2, ![1, 262144]⟩
abbrev S2x128x512 : Shape := ⟨3, ![2, 128, 512]⟩
abbrev S2x128x1 : Shape := ⟨3, ![2, 128, 1]⟩
abbrev S8192x512 : Shape := ⟨2, ![8192, 512]⟩
abbrev S1x8192 : Shape := ⟨2, ![1, 8192]⟩
abbrev S1x128x512 : Shape := ⟨3, ![1, 128, 512]⟩
abbrev S1x128x1 : Shape := ⟨3, ![1, 128, 1]⟩
abbrev S128x512 : Shape := ⟨2, ![128, 512]⟩
abbrev S128x1 : Shape := ⟨2, ![128, 1]⟩
abbrev S1024x512 : Shape := ⟨2, ![1024, 512]⟩
abbrev S1x1024 : Shape := ⟨2, ![1, 1024]⟩
abbrev S128x1024 : Shape := ⟨2, ![128, 1024]⟩
abbrev S128 : Shape := ⟨1, ![128]⟩
abbrev S_ : Shape := ⟨0, ![]⟩
abbrev S100 : Shape := ⟨1, ![100]⟩
abbrev S100x1 : Shape := ⟨2, ![100, 1]⟩
abbrev S20x5x512 : Shape := ⟨3, ![20, 5, 512]⟩
abbrev S20x5 : Shape := ⟨2, ![20, 5]⟩
abbrev S20 : Shape := ⟨1, ![20]⟩
abbrev S20x1 : Shape := ⟨2, ![20, 1]⟩
abbrev S20x1x512 : Shape := ⟨3, ![20, 1, 512]⟩
abbrev S1x20x512 : Shape := ⟨3, ![1, 20, 512]⟩
abbrev S20x20x512 : Shape := ⟨3, ![20, 20, 512]⟩
abbrev S1x20 : Shape := ⟨2, ![1, 20]⟩

abbrev nBuf : Space → Nat
  | .hbm => 108
  | .vmem => 8
  | .smem => 0
  | _ => 0

abbrev bufTy : (tb : Table) → Fin (tcTables nBuf tb) → BufTy
  | .hbm, ⟨0, _⟩ => ⟨S262144x512, .f32⟩
  | .hbm, ⟨1, _⟩ => ⟨S262144, .i32⟩
  | .hbm, ⟨2, _⟩ => ⟨S100x512, .f32⟩
  | .hbm, ⟨3, _⟩ => ⟨S20x512, .f32⟩
  | .hbm, ⟨4, _⟩ => ⟨S20x20, .f32⟩
  | .hbm, ⟨5, _⟩ => ⟨S1x262144, .i32⟩
  | .hbm, ⟨6, _⟩ => ⟨S2x128x512, .f32⟩
  | .hbm, ⟨7, _⟩ => ⟨S2x128x1, .f32⟩
  | .hbm, ⟨8, _⟩ => ⟨S_, .f32⟩
  | .hbm, ⟨9, _⟩ => ⟨S128x512, .f32⟩
  | .hbm, ⟨10, _⟩ => ⟨S_, .f32⟩
  | .hbm, ⟨11, _⟩ => ⟨S128x1, .f32⟩
  | .hbm, ⟨12, _⟩ => ⟨S128, .f32⟩
  | .hbm, ⟨13, _⟩ => ⟨S100x512, .f32⟩
  | .hbm, ⟨14, _⟩ => ⟨S100, .f32⟩
  | .hbm, ⟨15, _⟩ => ⟨S_, .f32⟩
  | .hbm, ⟨16, _⟩ => ⟨S100, .f32⟩
  | .hbm, ⟨17, _⟩ => ⟨S100, .i1⟩
  | .hbm, ⟨18, _⟩ => ⟨S_, .f32⟩
  | .hbm, ⟨19, _⟩ => ⟨S100, .f32⟩
  | .hbm, ⟨20, _⟩ => ⟨S100, .f32⟩
  | .hbm, ⟨21, _⟩ => ⟨S100x1, .f32⟩
  | .hbm, ⟨22, _⟩ => ⟨S100x512, .f32⟩
  | .hbm, ⟨23, _⟩ => ⟨S100x512, .f32⟩
  | .hbm, ⟨24, _⟩ => ⟨S100x512, .f32⟩
  | .hbm, ⟨25, _⟩ => ⟨S100x512, .f32⟩
  | .hbm, ⟨26, _⟩ => ⟨S_, .f32⟩
  | .hbm, ⟨27, _⟩ => ⟨S100, .f32⟩
  | .hbm, ⟨28, _⟩ => ⟨S_, .f32⟩
  | .hbm, ⟨29, _⟩ => ⟨S100, .f32⟩
  | .hbm, ⟨30, _⟩ => ⟨S100, .f32⟩
  | .hbm, ⟨31, _⟩ => ⟨S_, .f32⟩
  | .hbm, ⟨32, _⟩ => ⟨S100, .f32⟩
  | .hbm, ⟨33, _⟩ => ⟨S100, .f32⟩
  | .hbm, ⟨34, _⟩ => ⟨S_, .f32⟩
  | .hbm, ⟨35, _⟩ => ⟨S_, .f32⟩
  | .hbm, ⟨36, _⟩ => ⟨S20x5x512, .f32⟩
  | .hbm, ⟨37, _⟩ => ⟨S_, .f32⟩
  | .hbm, ⟨38, _⟩ => ⟨S20x512, .f32⟩
  | .hbm, ⟨39, _⟩ => ⟨S20x5, .f32⟩
  | .hbm, ⟨40, _⟩ => ⟨S_, .f32⟩
  | .hbm, ⟨41, _⟩ => ⟨S20, .f32⟩
  | .hbm, ⟨42, _⟩ => ⟨S_, .f32⟩
  | .hbm, ⟨43, _⟩ => ⟨S20, .f32⟩
  | .hbm, ⟨44, _⟩ => ⟨S20, .i1⟩
  | .hbm, ⟨45, _⟩ => ⟨S_, .f32⟩
  | .hbm, ⟨46, _⟩ => ⟨S20, .f32⟩
  | .hbm, ⟨47, _⟩ => ⟨S20, .f32⟩
  | .hbm, ⟨48, _⟩ => ⟨S20x1, .f32⟩
  | .hbm, ⟨49, _⟩ => ⟨S20x512, .f32⟩
  | .hbm, ⟨50, _⟩ => ⟨S20x512, .f32⟩
  | .hbm, ⟨51, _⟩ => ⟨S20x512, .f32⟩
  | .hbm, ⟨52, _⟩ => ⟨S20x512, .f32⟩
  | .hbm, ⟨53, _⟩ => ⟨S_, .f32⟩
  | .hbm, ⟨54, _⟩ => ⟨S20, .f32⟩
  | .hbm, ⟨55, _⟩ => ⟨S_, .f32⟩
  | .hbm, ⟨56, _⟩ => ⟨S20, .f32⟩
  | .hbm, ⟨57, _⟩ => ⟨S20, .f32⟩
  | .hbm, ⟨58, _⟩ => ⟨S_, .f32⟩
  | .hbm, ⟨59, _⟩ => ⟨S20, .f32⟩
  | .hbm, ⟨60, _⟩ => ⟨S20, .f32⟩
  | .hbm, ⟨61, _⟩ => ⟨S_, .f32⟩
  | .hbm, ⟨62, _⟩ => ⟨S_, .f32⟩
  | .hbm, ⟨63, _⟩ => ⟨S20x1x512, .f32⟩
  | .hbm, ⟨64, _⟩ => ⟨S1x20x512, .f32⟩
  | .hbm, ⟨65, _⟩ => ⟨S20x20x512, .f32⟩
  | .hbm, ⟨66, _⟩ => ⟨S20x20x512, .f32⟩
  | .hbm, ⟨67, _⟩ => ⟨S20x20x512, .f32⟩
  | .hbm, ⟨68, _⟩ => ⟨S20x20x512, .f32⟩
  | .hbm, ⟨69, _⟩ => ⟨S_, .f32⟩
  | .hbm, ⟨70, _⟩ => ⟨S20x20, .f32⟩
  | .hbm, ⟨71, _⟩ => ⟨S_, .i1⟩
  | .hbm, ⟨72, _⟩ => ⟨S20x20, .i1⟩
  | .hbm, ⟨73, _⟩ => ⟨S20x20, .i32⟩
  | .hbm, ⟨74, _⟩ => ⟨S_, .i32⟩
  | .hbm, ⟨75, _⟩ => ⟨S20x20, .i32⟩
  | .hbm, ⟨76, _⟩ => ⟨S20x20, .i32⟩
  | .hbm, ⟨77, _⟩ => ⟨S20x20, .i32⟩
  | .hbm, ⟨78, _⟩ => ⟨S20x20, .i1⟩
  | .hbm, ⟨79, _⟩ => ⟨S_, .i1⟩
  | .hbm, ⟨80, _⟩ => ⟨S20x20, .i1⟩
  | .hbm, ⟨81, _⟩ => ⟨S20x20, .i1⟩
  | .hbm, ⟨82, _⟩ => ⟨S20x1, .i1⟩
  | .hbm, ⟨83, _⟩ => ⟨S20x20, .i1⟩
  | .hbm, ⟨84, _⟩ => ⟨S20x20, .i1⟩
  | .hbm, ⟨85, _⟩ => ⟨S1x20, .i1⟩
  | .hbm, ⟨86, _⟩ => ⟨S20x20, .i1⟩
  | .hbm, ⟨87, _⟩ => ⟨S20x20, .i1⟩
  | .hbm, ⟨88, _⟩ => ⟨S_, .f32⟩
  | .hbm, ⟨89, _⟩ => ⟨S_, .f32⟩
  | .hbm, ⟨90, _⟩ => ⟨S20x20, .f32⟩
  | .hbm, ⟨91, _⟩ => ⟨S20x20, .f32⟩
  | .hbm, ⟨92, _⟩ => ⟨S20x20, .f32⟩
  | .hbm, ⟨93, _⟩ => ⟨S20x20, .f32⟩
  | .hbm, ⟨94, _⟩ => ⟨S20x20, .f32⟩
  | .hbm, ⟨95, _⟩ => ⟨S_, .f32⟩
  | .hbm, ⟨96, _⟩ => ⟨S20x20, .f32⟩
  | .hbm, ⟨97, _⟩ => ⟨S20x20, .f32⟩
  | .hbm, ⟨98, _⟩ => ⟨S_, .f32⟩
  | .hbm, ⟨99, _⟩ => ⟨S_, .f32⟩
  | .hbm, ⟨100, _⟩ => ⟨S_, .f32⟩
  | .hbm, ⟨101, _⟩ => ⟨S_, .f32⟩
  | .hbm, ⟨102, _⟩ => ⟨S_, .f32⟩
  | .hbm, ⟨103, _⟩ => ⟨S_, .f32⟩
  | .hbm, ⟨104, _⟩ => ⟨S_, .f32⟩
  | .hbm, ⟨105, _⟩ => ⟨S_, .f32⟩
  | .hbm, ⟨106, _⟩ => ⟨S_, .f32⟩
  | .hbm, ⟨107, _⟩ => ⟨S_, .f32⟩
  | .local _ .vmem, ⟨0, _⟩ => ⟨S8192x512, .f32⟩
  | .local _ .vmem, ⟨1, _⟩ => ⟨S8192x512, .f32⟩
  | .local _ .vmem, ⟨2, _⟩ => ⟨S1x8192, .i32⟩
  | .local _ .vmem, ⟨3, _⟩ => ⟨S1x8192, .i32⟩
  | .local _ .vmem, ⟨4, _⟩ => ⟨S1x128x512, .f32⟩
  | .local _ .vmem, ⟨5, _⟩ => ⟨S1x128x512, .f32⟩
  | .local _ .vmem, ⟨6, _⟩ => ⟨S1x128x1, .f32⟩
  | .local _ .vmem, ⟨7, _⟩ => ⟨S1x128x1, .f32⟩
  | _, _ => ⟨S262144x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_cst : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_cst_4 : Ref sig .tc := ⟨.hbm, 28, rfl⟩
abbrev main_v17 : Ref sig .tc := ⟨.hbm, 29, rfl⟩
abbrev main_v18 : Ref sig .tc := ⟨.hbm, 30, rfl⟩
abbrev main_cst_5 : Ref sig .tc := ⟨.hbm, 31, rfl⟩
abbrev main_call0_v0 : Ref sig .tc := ⟨.hbm, 32, rfl⟩
abbrev main_v19 : Ref sig .tc := ⟨.hbm, 33, rfl⟩
abbrev main_cst_6 : Ref sig .tc := ⟨.hbm, 34, rfl⟩
abbrev main_v20 : Ref sig .tc := ⟨.hbm, 35, rfl⟩
abbrev main_v21 : Ref sig .tc := ⟨.hbm, 36, rfl⟩
abbrev main_cst_7 : Ref sig .tc := ⟨.hbm, 37, rfl⟩
abbrev main_v22 : Ref sig .tc := ⟨.hbm, 38, rfl⟩
abbrev main_v23 : Ref sig .tc := ⟨.hbm, 39, rfl⟩
abbrev main_cst_8 : Ref sig .tc := ⟨.hbm, 40, rfl⟩
abbrev main_v24 : Ref sig .tc := ⟨.hbm, 41, rfl⟩
abbrev main_cst_9 : Ref sig .tc := ⟨.hbm, 42, rfl⟩
abbrev main_v25 : Ref sig .tc := ⟨.hbm, 43, rfl⟩
abbrev main_v26 : Ref sig .tc := ⟨.hbm, 44, rfl⟩
abbrev main_cst_10 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_11 : Ref sig .tc := ⟨.hbm, 53, rfl⟩
abbrev main_v34 : Ref sig .tc := ⟨.hbm, 54, rfl⟩
abbrev main_cst_12 : Ref sig .tc := ⟨.hbm, 55, rfl⟩
abbrev main_v35 : Ref sig .tc := ⟨.hbm, 56, rfl⟩
abbrev main_v36 : Ref sig .tc := ⟨.hbm, 57, rfl⟩
abbrev main_cst_13 : Ref sig .tc := ⟨.hbm, 58, rfl⟩
abbrev main_call1_v0 : Ref sig .tc := ⟨.hbm, 59, rfl⟩
abbrev main_v37 : Ref sig .tc := ⟨.hbm, 60, rfl⟩
abbrev main_cst_14 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst_15 : Ref sig .tc := ⟨.hbm, 69, rfl⟩
abbrev main_v45 : Ref sig .tc := ⟨.hbm, 70, rfl⟩
abbrev main_c : Ref sig .tc := ⟨.hbm, 71, rfl⟩
abbrev main_v46 : Ref sig .tc := ⟨.hbm, 72, rfl⟩
abbrev main_call2_v0 : Ref sig .tc := ⟨.hbm, 73, rfl⟩
abbrev main_call2_c : Ref sig .tc := ⟨.hbm, 74, rfl⟩
abbrev main_call2_v1 : Ref sig .tc := ⟨.hbm, 75, rfl⟩
abbrev main_call2_v2 : Ref sig .tc := ⟨.hbm, 76, rfl⟩
abbrev main_call2_v3 : Ref sig .tc := ⟨.hbm, 77, rfl⟩
abbrev main_call2_v4 : Ref sig .tc := ⟨.hbm, 78, rfl⟩
abbrev main_call2_c_0 : Ref sig .tc := ⟨.hbm, 79, rfl⟩
abbrev main_call2_v5 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_cst_16 : Ref sig .tc := ⟨.hbm, 88, rfl⟩
abbrev main_call3_v0 : Ref sig .tc := ⟨.hbm, 89, rfl⟩
abbrev main_call3_v1 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_cst_17 : Ref sig .tc := ⟨.hbm, 95, rfl⟩
abbrev main_call4_v0 : Ref sig .tc := ⟨.hbm, 96, rfl⟩
abbrev main_v58 : Ref sig .tc := ⟨.hbm, 97, rfl⟩
abbrev main_cst_18 : Ref sig .tc := ⟨.hbm, 98, rfl⟩
abbrev main_v59 : Ref sig .tc := ⟨.hbm, 99, rfl⟩
abbrev main_cst_19 : Ref sig .tc := ⟨.hbm, 100, rfl⟩
abbrev main_v60 : Ref sig .tc := ⟨.hbm, 101, rfl⟩
abbrev main_cst_20 : Ref sig .tc := ⟨.hbm, 102, rfl⟩
abbrev main_v61 : Ref sig .tc := ⟨.hbm, 103, rfl⟩
abbrev main_v62 : Ref sig .tc := ⟨.hbm, 104, rfl⟩
abbrev main_cst_21 : Ref sig .tc := ⟨.hbm, 105, rfl⟩
abbrev main_v63 : Ref sig .tc := ⟨.hbm, 106, rfl⟩
abbrev main_v64 : Ref sig .tc := ⟨.hbm, 107, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 16], ![false, false]⟩

def k0_mult1 : BitVec 32 :=
  let c0_i32_2 : BitVec 32 := 0#32
  let c1024_i32 : BitVec 32 := 1024#32
  let v6 : BitVec 32 := Scalar.muli c0_i32_2 c1024_i32
  v6
def k0_off1 (c0_i32_2 : BitVec 32) : Fin 2 → Nat :=
  let c1024_i32 : BitVec 32 := 1024#32
  let v6 : BitVec 32 := Scalar.muli c0_i32_2 c1024_i32
  let v7 : BitVec 32 := v6
  let v8 : Index := Scalar.indexCast v7
  let c0 : Index := 0#32
  ![v8.toNat, 0]
def k0_off2 (c0_i32_2 : BitVec 32) : Fin 2 → Nat :=
  let c0_3 : Index := 0#32
  let c1024_i32 : BitVec 32 := 1024#32
  let v6 : BitVec 32 := Scalar.muli c0_i32_2 c1024_i32
  let v7 : BitVec 32 := v6
  let v10 : Index := Scalar.indexCast v7
  ![0, v10.toNat]
def k0_mult2 : BitVec 32 :=
  let c1_i32 : BitVec 32 := 1#32
  let c1024_i32_6 : BitVec 32 := 1024#32
  let v26 : BitVec 32 := Scalar.muli c1_i32 c1024_i32_6
  v26
def k0_mult3 : BitVec 32 :=
  let c2_i32 : BitVec 32 := 2#32
  let c1024_i32_11 : BitVec 32 := 1024#32
  let v46 : BitVec 32 := Scalar.muli c2_i32 c1024_i32_11
  v46
def k0_mult4 : BitVec 32 :=
  let c3_i32 : BitVec 32 := 3#32
  let c1024_i32_16 : BitVec 32 := 1024#32
  let v66 : BitVec 32 := Scalar.muli c3_i32 c1024_i32_16
  v66
def k0_mult5 : BitVec 32 :=
  let c4_i32 : BitVec 32 := 4#32
  let c1024_i32_21 : BitVec 32 := 1024#32
  let v86 : BitVec 32 := Scalar.muli c4_i32 c1024_i32_21
  v86
def k0_mult6 : BitVec 32 :=
  let c5_i32 : BitVec 32 := 5#32
  let c1024_i32_26 : BitVec 32 := 1024#32
  let v106 : BitVec 32 := Scalar.muli c5_i32 c1024_i32_26
  v106
def k0_mult7 : BitVec 32 :=
  let c6_i32 : BitVec 32 := 6#32
  let c1024_i32_31 : BitVec 32 := 1024#32
  let v126 : BitVec 32 := Scalar.muli c6_i32 c1024_i32_31
  v126
def k0_mult8 : BitVec 32 :=
  let c7_i32 : BitVec 32 := 7#32
  let c1024_i32_36 : BitVec 32 := 1024#32
  let v146 : BitVec 32 := Scalar.muli c7_i32 c1024_i32_36
  v146
def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![c0_i32.toNat, v1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8192x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8192 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x128x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S262144_S1x262144 : S262144.ShapeCasts S1x262144
  inb_S1x128x512_S1x128x512_0_0_0 : ∀ a, (![0, 0, 0] : Fin 3 → Nat) a + S1x128x512.size a ≤ S1x128x512.size a
  h_S1x128x512 : 0 < S1x128x512.numel
  shapeCasts_S1x128x512_S128x512 : S1x128x512.ShapeCasts S128x512
  shapeCasts_S128x512_S1x128x512 : S128x512.ShapeCasts S1x128x512
  inb_S1x128x1_S1x128x1_0_0_0 : ∀ a, (![0, 0, 0] : Fin 3 → Nat) a + S1x128x1.size a ≤ S1x128x1.size a
  h_S1x128x1 : 0 < S1x128x1.numel
  shapeCasts_S1x128x1_S128x1 : S1x128x1.ShapeCasts S128x1
  shapeCasts_S128x1_S1x128x1 : S128x1.ShapeCasts S1x128x1
  iota_S128x1_d0_w32 : S128x1.Iotas .tc 32 [0]
  h_S1024x512 : 0 < S1024x512.numel
  h_S1x1024 : 0 < S1x1024.numel
  shapeCasts_S1x1024_S1x1024 : S1x1024.ShapeCasts S1x1024
  broadcasts_S128x1_S128x1024 : S128x1.Broadcasts S128x1024
  broadcasts_S1x1024_S128x1024 : S1x1024.Broadcasts S128x1024
  natLt_1_32 : 1 < 32
  bitsLt_bf16_f32 : FTy.bits .bf16 < FTy.bits .f32
  reduces_S128x1024_S128 : S128x1024.Reduces [1] S128
  shapeCasts_S128_S128x1 : S128.ShapeCasts S128x1
  reducesTo_S2x128x512_S128x512_d0 : S2x128x512.ReducesTo [0] S128x512
  h_S_ : 0 < S_.numel
  reducesTo_S2x128x1_S128x1_d0 : S2x128x1.ReducesTo [0] S128x1
  shapeCasts_S128x1_S128 : S128x1.ShapeCasts S128
  slices_S128x512_S100x512_0_0 : S128x512.Slices ![0, 0] S100x512
  slices_S128_S100_0 : S128.Slices ![0] S100
  bcast_S_S100 : S_.BroadcastsInDim S100 (![] : Fin 0 → Fin S100.rank)
  bcast_S100_S100x1_0 : S100.BroadcastsInDim S100x1 (![0] : Fin 1 → Fin S100x1.rank)
  bcast_S100x1_S100x512_0_1 : S100x1.BroadcastsInDim S100x512 (![0, 1] : Fin 2 → Fin S100x512.rank)
  reducesTo_S100x512_S100_d1 : S100x512.ReducesTo [1] S100
  reducesTo_S100_S_d0 : S100.ReducesTo [0] S_
  shapeCasts_S100x512_S20x5x512 : S100x512.ShapeCasts S20x5x512
  reducesTo_S20x5x512_S20x512_d1 : S20x5x512.ReducesTo [1] S20x512
  shapeCasts_S100_S20x5 : S100.ShapeCasts S20x5
  reducesTo_S20x5_S20_d1 : S20x5.ReducesTo [1] S20
  bcast_S_S20 : S_.BroadcastsInDim S20 (![] : Fin 0 → Fin S20.rank)
  bcast_S20_S20x1_0 : S20.BroadcastsInDim S20x1 (![0] : Fin 1 → Fin S20x1.rank)
  bcast_S20x1_S20x512_0_1 : S20x1.BroadcastsInDim S20x512 (![0, 1] : Fin 2 → Fin S20x512.rank)
  reducesTo_S20x512_S20_d1 : S20x512.ReducesTo [1] S20
  reducesTo_S20_S_d0 : S20.ReducesTo [0] S_
  bcast_S20x512_S20x1x512_0_2 : S20x512.BroadcastsInDim S20x1x512 (![0, 2] : Fin 2 → Fin S20x1x512.rank)
  bcast_S20x512_S1x20x512_1_2 : S20x512.BroadcastsInDim S1x20x512 (![1, 2] : Fin 2 → Fin S1x20x512.rank)
  bcast_S20x1x512_S20x20x512_0_1_2 : S20x1x512.BroadcastsInDim S20x20x512 (![0, 1, 2] : Fin 3 → Fin S20x20x512.rank)
  bcast_S1x20x512_S20x20x512_0_1_2 : S1x20x512.BroadcastsInDim S20x20x512 (![0, 1, 2] : Fin 3 → Fin S20x20x512.rank)
  reducesTo_S20x20x512_S20x20_d2 : S20x20x512.ReducesTo [2] S20x20
  bcast_S_S20x20 : S_.BroadcastsInDim S20x20 (![] : Fin 0 → Fin S20x20.rank)
  bcast_S20x1_S20x20_0_1 : S20x1.BroadcastsInDim S20x20 (![0, 1] : Fin 2 → Fin S20x20.rank)
  bcast_S20_S1x20_1 : S20.BroadcastsInDim S1x20 (![1] : Fin 1 → Fin S1x20.rank)
  bcast_S1x20_S20x20_0_1 : S1x20.BroadcastsInDim S20x20 (![0, 1] : Fin 2 → Fin S20x20.rank)
  reducesTo_S20x20_S_d0_1 : S20x20.ReducesTo [0, 1] S_
  dot_S128x1024_S1024x512_S128x512_1_0_0_1_n_n_wf : DotDims.WF S128x1024 S1024x512 S128x512 [1] [0] [0] [1] [] []
  hrank0 : 0 < grid0.rank
  k0_mult1_dvd : 1024 ∣ k0_mult1.toNat
  k0_off1_inb : ∀ (r : Fin 8), ∀ a, (k0_off1 (BitVec.ofNat 32 r.val)) a + S1024x512.size a ≤ S8192x512.size a
  k0_off2_inb : ∀ (r : Fin 8), ∀ a, (k0_off2 (BitVec.ofNat 32 r.val)) a + S1x1024.size a ≤ S1x8192.size a
  k0_mult2_dvd : 1024 ∣ k0_mult2.toNat
  k0_mult3_dvd : 1024 ∣ k0_mult3.toNat
  k0_mult4_dvd : 1024 ∣ k0_mult4.toNat
  k0_mult5_dvd : 1024 ∣ k0_mult5.toNat
  k0_mult6_dvd : 1024 ∣ k0_mult6.toNat
  k0_mult7_dvd : 1024 ∣ k0_mult7.toNat
  k0_mult8_dvd : 1024 ∣ k0_mult8.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x512.size a ≤ S262144x512.size a
  hwx0_0 : ∀ i : grid0.Coords, EltTy.bits .f32 = 32 ∨ (Rect.block (s := S262144x512) S8192x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8192.size a ≤ S1x262144.size a
  hwx0_1 : ∀ i : grid0.Coords, EltTy.bits .i32 = 32 ∨ (Rect.block (s := S1x262144) S1x8192.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x512.size a ≤ S2x128x512.size a
  hwx0_2 : ∀ i : grid0.Coords, EltTy.bits .f32 = 32 ∨ (Rect.block (s := S2x128x512) S1x128x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128x1.size a ≤ S2x128x1.size a
  hwx0_3 : ∀ i : grid0.Coords, EltTy.bits .f32 = 32 ∨ (Rect.block (s := S2x128x1) S1x128x1.size (cc0_transform_3 i) (hinb0_3 i)).WholeWords (EltTy.packing .f32)

variable [Facts₀]

def dot_S128x1024_S1024x512_S128x512_1_0_0_1_n_n : DotDims S128x1024 S1024x512 S128x512 where
  lhsContracting := [1]
  rhsContracting := [0]
  lhsNonContracting := [0]
  rhsNonContracting := [1]
  lhsBatch := []
  rhsBatch := []
  wf := dot_S128x1024_S1024x512_S128x512_1_0_0_1_n_n_wf

abbrev win0_0 : Pipeline.Window sig grid0 :=
  Pipeline.Window.ofSpec (Memref.whole main_arg0) S8192x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S1x128x512.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1x128x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S262144x512 : Shape := ⟨2, ![262144, 512]⟩
abbrev S262144 : Shape := ⟨1, ![262144]⟩
abbrev S100x512 : Shape := ⟨2, ![100, 512]⟩
abbrev S20x512 : Shape := ⟨2, ![20, 512]⟩
abbrev S20x20 : Shape := ⟨2, ![20, 20]⟩
abbrev S100 : Shape := ⟨1, ![100]⟩
abbrev S_ : Shape := ⟨0, ![]⟩
abbrev S262144x1 : Shape := ⟨2, ![262144, 1]⟩
abbrev S100x1 : Shape := ⟨2, ![100, 1]⟩
abbrev S20 : Shape := ⟨1, ![20]⟩
abbrev S20x1 : Shape := ⟨2, ![20, 1]⟩
abbrev S20x1x512 : Shape := ⟨3, ![20, 1, 512]⟩
abbrev S1x20x512 : Shape := ⟨3, ![1, 20, 512]⟩
abbrev S20x20x512 : Shape := ⟨3, ![20, 20, 512]⟩
abbrev S1x20 : Shape := ⟨2, ![1, 20]⟩

abbrev nBuf : Space → Nat
  | .hbm => 111
  | .vmem => 0
  | .smem => 0
  | _ => 0

abbrev bufTy : (tb : Table) → Fin (tcTables nBuf tb) → BufTy
  | .hbm, ⟨0, _⟩ => ⟨S262144x512, .f32⟩
  | .hbm, ⟨1, _⟩ => ⟨S262144, .i32⟩
  | .hbm, ⟨2, _⟩ => ⟨S100x512, .f32⟩
  | .hbm, ⟨3, _⟩ => ⟨S20x512, .f32⟩
  | .hbm, ⟨4, _⟩ => ⟨S20x20, .f32⟩
  | .hbm, ⟨5, _⟩ => ⟨S100, .i32⟩
  | .hbm, ⟨6, _⟩ => ⟨S_, .f32⟩
  | .hbm, ⟨7, _⟩ => ⟨S262144, .f32⟩
  | .hbm, ⟨8, _⟩ => ⟨S_, .f32⟩
  | .hbm, ⟨9, _⟩ => ⟨S100x512, .f32⟩
  | .hbm, ⟨10, _⟩ => ⟨S262144x1, .i32⟩
  | .hbm, ⟨11, _⟩ => ⟨S100x512, .f32⟩
  | .hbm, ⟨12, _⟩ => ⟨S_, .f32⟩
  | .hbm, ⟨13, _⟩ => ⟨S100, .f32⟩
  | .hbm, ⟨14, _⟩ => ⟨S262144x1, .i32⟩
  | .hbm, ⟨15, _⟩ => ⟨S100, .f32⟩
  | .hbm, ⟨16, _⟩ => ⟨S_, .f32⟩
  | .hbm, ⟨17, _⟩ => ⟨S100, .f32⟩
  | .hbm, ⟨18, _⟩ => ⟨S100, .i1⟩
  | .hbm, ⟨19, _⟩ => ⟨S_, .f32⟩
  | .hbm, ⟨20, _⟩ => ⟨S100, .f32⟩
  | .hbm, ⟨21, _⟩ => ⟨S100, .f32⟩
  | .hbm, ⟨22, _⟩ => ⟨S100x1, .f32⟩
  | .hbm, ⟨23, _⟩ => ⟨S100x512, .f32⟩
  | .hbm, ⟨24, _⟩ => ⟨S100x512, .f32⟩
  | .hbm, ⟨25, _⟩ => ⟨S100x512, .f32⟩
  | .hbm, ⟨26, _⟩ => ⟨S100x512, .f32⟩
  | .hbm, ⟨27, _⟩ => ⟨S_, .f32⟩
  | .hbm, ⟨28, _⟩ => ⟨S100, .f32⟩
  | .hbm, ⟨29, _⟩ => ⟨S_, .f32⟩
  | .hbm, ⟨30, _⟩ => ⟨S100, .f32⟩
  | .hbm, ⟨31, _⟩ => ⟨S100, .f32⟩
  | .hbm, ⟨32, _⟩ => ⟨S_, .f32⟩
  | .hbm, ⟨33, _⟩ => ⟨S100, .f32⟩
  | .hbm, ⟨34, _⟩ => ⟨S100, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S20x512, .f32⟩
  | .hbm, ⟨39, _⟩ => ⟨S100x1, .i32⟩
  | .hbm, ⟨40, _⟩ => ⟨S20x512, .f32⟩
  | .hbm, ⟨41, _⟩ => ⟨S_, .f32⟩
  | .hbm, ⟨42, _⟩ => ⟨S20, .f32⟩
  | .hbm, ⟨43, _⟩ => ⟨S100x1, .i32⟩
  | .hbm, ⟨44, _⟩ => ⟨S20, .f32⟩
  | .hbm, ⟨45, _⟩ => ⟨S_, .f32⟩
  | .hbm, ⟨46, _⟩ => ⟨S20, .f32⟩
  | .hbm, ⟨47, _⟩ => ⟨S20, .i1⟩
  | .hbm, ⟨48, _⟩ => ⟨S_, .f32⟩
  | .hbm, ⟨49, _⟩ => ⟨S20, .f32⟩
  | .hbm, ⟨50, _⟩ => ⟨S20, .f32⟩
  | .hbm, ⟨51, _⟩ => ⟨S20x1, .f32⟩
  | .hbm, ⟨52, _⟩ => ⟨S20x512, .f32⟩
  | .hbm, ⟨53, _⟩ => ⟨S20x512, .f32⟩
  | .hbm, ⟨54, _⟩ => ⟨S20x512, .f32⟩
  | .hbm, ⟨55, _⟩ => ⟨S20x512, .f32⟩
  | .hbm, ⟨56, _⟩ => ⟨S_, .f32⟩
  | .hbm, ⟨57, _⟩ => ⟨S20, .f32⟩
  | .hbm, ⟨58, _⟩ => ⟨S_, .f32⟩
  | .hbm, ⟨59, _⟩ => ⟨S20, .f32⟩
  | .hbm, ⟨60, _⟩ => ⟨S20, .f32⟩
  | .hbm, ⟨61, _⟩ => ⟨S_, .f32⟩
  | .hbm, ⟨62, _⟩ => ⟨S20, .f32⟩
  | .hbm, ⟨63, _⟩ => ⟨S20, .f32⟩
  | .hbm, ⟨64, _⟩ => ⟨S_, .f32⟩
  | .hbm, ⟨65, _⟩ => ⟨S_, .f32⟩
  | .hbm, ⟨66, _⟩ => ⟨S20x1x512, .f32⟩
  | .hbm, ⟨67, _⟩ => ⟨S1x20x512, .f32⟩
  | .hbm, ⟨68, _⟩ => ⟨S20x20x512, .f32⟩
  | .hbm, ⟨69, _⟩ => ⟨S20x20x512, .f32⟩
  | .hbm, ⟨70, _⟩ => ⟨S20x20x512, .f32⟩
  | .hbm, ⟨71, _⟩ => ⟨S20x20x512, .f32⟩
  | .hbm, ⟨72, _⟩ => ⟨S_, .f32⟩
  | .hbm, ⟨73, _⟩ => ⟨S20x20, .f32⟩
  | .hbm, ⟨74, _⟩ => ⟨S_, .i1⟩
  | .hbm, ⟨75, _⟩ => ⟨S20x20, .i1⟩
  | .hbm, ⟨76, _⟩ => ⟨S20x20, .i32⟩
  | .hbm, ⟨77, _⟩ => ⟨S_, .i32⟩
  | .hbm, ⟨78, _⟩ => ⟨S20x20, .i32⟩
  | .hbm, ⟨79, _⟩ => ⟨S20x20, .i32⟩
  | .hbm, ⟨80, _⟩ => ⟨S20x20, .i32⟩
  | .hbm, ⟨81, _⟩ => ⟨S20x20, .i1⟩
  | .hbm, ⟨82, _⟩ => ⟨S_, .i1⟩
  | .hbm, ⟨83, _⟩ => ⟨S20x20, .i1⟩
  | .hbm, ⟨84, _⟩ => ⟨S20x20, .i1⟩
  | .hbm, ⟨85, _⟩ => ⟨S20x1, .i1⟩
  | .hbm, ⟨86, _⟩ => ⟨S20x20, .i1⟩
  | .hbm, ⟨87, _⟩ => ⟨S20x20, .i1⟩
  | .hbm, ⟨88, _⟩ => ⟨S1x20, .i1⟩
  | .hbm, ⟨89, _⟩ => ⟨S20x20, .i1⟩
  | .hbm, ⟨90, _⟩ => ⟨S20x20, .i1⟩
  | .hbm, ⟨91, _⟩ => ⟨S_, .f32⟩
  | .hbm, ⟨92, _⟩ => ⟨S_, .f32⟩
  | .hbm, ⟨93, _⟩ => ⟨S20x20, .f32⟩
  | .hbm, ⟨94, _⟩ => ⟨S20x20, .f32⟩
  | .hbm, ⟨95, _⟩ => ⟨S20x20, .f32⟩
  | .hbm, ⟨96, _⟩ => ⟨S20x20, .f32⟩
  | .hbm, ⟨97, _⟩ => ⟨S20x20, .f32⟩
  | .hbm, ⟨98, _⟩ => ⟨S_, .f32⟩
  | .hbm, ⟨99, _⟩ => ⟨S20x20, .f32⟩
  | .hbm, ⟨100, _⟩ => ⟨S20x20, .f32⟩
  | .hbm, ⟨101, _⟩ => ⟨S_, .f32⟩
  | .hbm, ⟨102, _⟩ => ⟨S_, .f32⟩
  | .hbm, ⟨103, _⟩ => ⟨S_, .f32⟩
  | .hbm, ⟨104, _⟩ => ⟨S_, .f32⟩
  | .hbm, ⟨105, _⟩ => ⟨S_, .f32⟩
  | .hbm, ⟨106, _⟩ => ⟨S_, .f32⟩
  | .hbm, ⟨107, _⟩ => ⟨S_, .f32⟩
  | .hbm, ⟨108, _⟩ => ⟨S_, .f32⟩
  | .hbm, ⟨109, _⟩ => ⟨S_, .f32⟩
  | .hbm, ⟨110, _⟩ => ⟨S_, .f32⟩
  | _, _ => ⟨S262144x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_2 : Ref sig .tc := ⟨.hbm, 16, rfl⟩
abbrev main_v7 : Ref sig .tc := ⟨.hbm, 17, rfl⟩
abbrev main_v8 : Ref sig .tc := ⟨.hbm, 18, rfl⟩
abbrev main_cst_3 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_4 : Ref sig .tc := ⟨.hbm, 27, rfl⟩
abbrev main_v16 : Ref sig .tc := ⟨.hbm, 28, rfl⟩
abbrev main_cst_5 : Ref sig .tc := ⟨.hbm, 29, rfl⟩
abbrev main_v17 : Ref sig .tc := ⟨.hbm, 30, rfl⟩
abbrev main_v18 : Ref sig .tc := ⟨.hbm, 31, rfl⟩
abbrev main_cst_6 : Ref sig .tc := ⟨.hbm, 32, rfl⟩
abbrev main_call0_v0 : Ref sig .tc := ⟨.hbm, 33, rfl⟩
abbrev main_v19 : Ref sig .tc := ⟨.hbm, 34, rfl⟩
abbrev main_cst_7 : Ref sig .tc := ⟨.hbm, 35, rfl⟩
abbrev main_v20 : Ref sig .tc := ⟨.hbm, 36, rfl⟩
abbrev main_cst_8 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_9 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_10 : Ref sig .tc := ⟨.hbm, 45, rfl⟩
abbrev main_v27 : Ref sig .tc := ⟨.hbm, 46, rfl⟩
abbrev main_v28 : Ref sig .tc := ⟨.hbm, 47, rfl⟩
abbrev main_cst_11 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_12 : Ref sig .tc := ⟨.hbm, 56, rfl⟩
abbrev main_v36 : Ref sig .tc := ⟨.hbm, 57, rfl⟩
abbrev main_cst_13 : Ref sig .tc := ⟨.hbm, 58, rfl⟩
abbrev main_v37 : Ref sig .tc := ⟨.hbm, 59, rfl⟩
abbrev main_v38 : Ref sig .tc := ⟨.hbm, 60, rfl⟩
abbrev main_cst_14 : Ref sig .tc := ⟨.hbm, 61, rfl⟩
abbrev main_call1_v0 : Ref sig .tc := ⟨.hbm, 62, rfl⟩
abbrev main_v39 : Ref sig .tc := ⟨.hbm, 63, rfl⟩
abbrev main_cst_15 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_16 : Ref sig .tc := ⟨.hbm, 72, rfl⟩
abbrev main_v47 : Ref sig .tc := ⟨.hbm, 73, rfl⟩
abbrev main_c_17 : Ref sig .tc := ⟨.hbm, 74, rfl⟩
abbrev main_v48 : Ref sig .tc := ⟨.hbm, 75, rfl⟩
abbrev main_call2_v0 : Ref sig .tc := ⟨.hbm, 76, rfl⟩
abbrev main_call2_c : Ref sig .tc := ⟨.hbm, 77, rfl⟩
abbrev main_call2_v1 : Ref sig .tc := ⟨.hbm, 78, rfl⟩
abbrev main_call2_v2 : Ref sig .tc := ⟨.hbm, 79, rfl⟩
abbrev main_call2_v3 : Ref sig .tc := ⟨.hbm, 80, rfl⟩
abbrev main_call2_v4 : Ref sig .tc := ⟨.hbm, 81, rfl⟩
abbrev main_call2_c_0 : Ref sig .tc := ⟨.hbm, 82, rfl⟩
abbrev main_call2_v5 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_cst_18 : Ref sig .tc := ⟨.hbm, 91, rfl⟩
abbrev main_call3_v0 : Ref sig .tc := ⟨.hbm, 92, rfl⟩
abbrev main_call3_v1 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_cst_19 : Ref sig .tc := ⟨.hbm, 98, rfl⟩
abbrev main_call4_v0 : Ref sig .tc := ⟨.hbm, 99, rfl⟩
abbrev main_v60 : Ref sig .tc := ⟨.hbm, 100, rfl⟩
abbrev main_cst_20 : Ref sig .tc := ⟨.hbm, 101, rfl⟩
abbrev main_v61 : Ref sig .tc := ⟨.hbm, 102, rfl⟩
abbrev main_cst_21 : Ref sig .tc := ⟨.hbm, 103, rfl⟩
abbrev main_v62 : Ref sig .tc := ⟨.hbm, 104, rfl⟩
abbrev main_cst_22 : Ref sig .tc := ⟨.hbm, 105, rfl⟩
abbrev main_v63 : Ref sig .tc := ⟨.hbm, 106, rfl⟩
abbrev main_v64 : Ref sig .tc := ⟨.hbm, 107, rfl⟩
abbrev main_cst_23 : Ref sig .tc := ⟨.hbm, 108, rfl⟩
abbrev main_v65 : Ref sig .tc := ⟨.hbm, 109, rfl⟩
abbrev main_v66 : Ref sig .tc := ⟨.hbm, 110, rfl⟩

abbrev nD : Nat := 1
abbrev τ : Topo := Topo.v7x

variable {F : FTy → Type} [FloatOps F]

class Facts₀ : Prop where
  bcast_S_S262144 : S_.BroadcastsInDim S262144 (![] : Fin 0 → Fin S262144.rank)
  bcast_S_S100x512 : S_.BroadcastsInDim S100x512 (![] : Fin 0 → Fin S100x512.rank)
  bcast_S262144_S262144x1_0 : S262144.BroadcastsInDim S262144x1 (![0] : Fin 1 → Fin S262144x1.rank)
  bcast_S_S100 : S_.BroadcastsInDim S100 (![] : Fin 0 → Fin S100.rank)
  bcast_S100_S100x1_0 : S100.BroadcastsInDim S100x1 (![0] : Fin 1 → Fin S100x1.rank)
  bcast_S100x1_S100x512_0_1 : S100x1.BroadcastsInDim S100x512 (![0, 1] : Fin 2 → Fin S100x512.rank)
  reducesTo_S100x512_S100_d1 : S100x512.ReducesTo [1] S100
  h_S_ : 0 < S_.numel
  reducesTo_S100_S_d0 : S100.ReducesTo [0] S_
  bcast_S_S20x512 : S_.BroadcastsInDim S20x512 (![] : Fin 0 → Fin S20x512.rank)
  bcast_S_S20 : S_.BroadcastsInDim S20 (![] : Fin 0 → Fin S20.rank)
  bcast_S20_S20x1_0 : S20.BroadcastsInDim S20x1 (![0] : Fin 1 → Fin S20x1.rank)
  bcast_S20x1_S20x512_0_1 : S20x1.BroadcastsInDim S20x512 (![0, 1] : Fin 2 → Fin S20x512.rank)
  reducesTo_S20x512_S20_d1 : S20x512.ReducesTo [1] S20
  reducesTo_S20_S_d0 : S20.ReducesTo [0] S_
  bcast_S20x512_S20x1x512_0_2 : S20x512.BroadcastsInDim S20x1x512 (![0, 2] : Fin 2 → Fin S20x1x512.rank)
  bcast_S20x512_S1x20x512_1_2 : S20x512.BroadcastsInDim S1x20x512 (![1, 2] : Fin 2 → Fin S1x20x512.rank)
  bcast_S20x1x512_S20x20x512_0_1_2 : S20x1x512.BroadcastsInDim S20x20x512 (![0, 1, 2] : Fin 3 → Fin S20x20x512.rank)
  bcast_S1x20x512_S20x20x512_0_1_2 : S1x20x512.BroadcastsInDim S20x20x512 (![0, 1, 2] : Fin 3 → Fin S20x20x512.rank)
  reducesTo_S20x20x512_S20x20_d2 : S20x20x512.ReducesTo [2] S20x20
  bcast_S_S20x20 : S_.BroadcastsInDim S20x20 (![] : Fin 0 → Fin S20x20.rank)
  bcast_S20x1_S20x20_0_1 : S20x1.BroadcastsInDim S20x20 (![0, 1] : Fin 2 → Fin S20x20.rank)
  bcast_S20_S1x20_1 : S20.BroadcastsInDim S1x20 (![1] : Fin 1 → Fin S1x20.rank)
  bcast_S1x20_S20x20_0_1 : S1x20.BroadcastsInDim S20x20 (![0, 1] : Fin 2 → Fin S20x20.rank)
  reducesTo_S20x20_S_d0_1 : S20x20.ReducesTo [0, 1] S_
  scatter_S100x512_S262144x1_S262144x512_1_0_0_1_wf : ScatterDims.WF S100x512 S262144x1 S262144x512 [1] [0] [0] 1
  scatter_S100_S262144x1_S262144_n_0_0_1_wf : ScatterDims.WF S100 S262144x1 S262144 [] [0] [0] 1
  scatter_S20x512_S100x1_S100x512_1_0_0_1_wf : ScatterDims.WF S20x512 S100x1 S100x512 [1] [0] [0] 1
  scatter_S20_S100x1_S100_n_0_0_1_wf : ScatterDims.WF S20 S100x1 S100 [] [0] [0] 1

variable [Facts₀]

def scatter_S100x512_S262144x1_S262144x512_1_0_0_1 : ScatterDims S100x512 S262144x1 S262144x512 where
  updateWindowDims := [1]
  insertedWindowDims := [0]
  scatterDimsToOperandDims := [0]
  indexVectorDim := 1
  wf := scatter_S100x512_S262144x1_S262144x512_1_0_0_1_wf
def scatter_S100_S262144x1_S262144_n_0_0_1 : ScatterDims S100 S262144x1 S262144 where
  updateWindowDims := []
  insertedWindowDims := [0]
  scatterDimsToOperandDims := [0]
  indexVectorDim := 1
  wf := scatter_S100_S262144x1_S262144_n_0_0_1_wf
def scatter_S20x512_S100x1_S100x512_1_0_0_1 : ScatterDims S20x512 S100x1 S100x512 where
  updateWindowDims := [1]
  insertedWindowDims := [0]
  scatterDimsToOperandDims := [0]
  indexVectorDim := 1
  wf := scatter_S20x512_S100x1_S100x512_1_0_0_1_wf
def scatter_S20_S100x1_S100_n_0_0_1 : ScatterDims S20 S100x1 S100 where
  updateWindowDims := []
  insertedWindowDims := [0]
  scatterDimsToOperandDims := [0]
  indexVectorDim := 1
  wf := scatter_S20_S100x1_S100_n_0_0_1_wf

class Facts : Prop extends Facts₀ where

variable [Facts]
-- ==== Proof.KAround.lean ====
/-
  What @main of the program does around its one kernel region, and the frame claim read off a frame run.

  Before the region one host line reshapes the label vector into a 1 × 262144 row; after it eleven
  stretches of host lines (one hundred in all) turn the region's two result arrays into the scalar
  result. None of those lines writes an argument array, the reshaped labels, or a result array of the
  region, and none allocates; so the region finds the arguments as launched, and the arguments end as
  launched. The grid has 2 × 16 points; at a point whose inner coordinate is 0 the body first clears
  its two accumulator blocks, which in the linear order of the points is "t is a multiple of 16".
-/
import proofs.«409649_j73005854097881_3_alg».proof.Proof.Gen.Kernel.Launch
import proofs.«409649_j73005854097881_3_alg».proof.Proof.Gen.Kernel.Skeleton
import proofs.«409649_j73005854097881_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Around

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines before and after the region -/

/-- The buffers of core c when the region is entered: the launch contents after the one reshape. -/
abbrev entry (c : Dev nD) : Valuation τ sig (Elt F) := StableHlo.after (List.flatten [hostOps0]) (fun b => m (c, b))
/-- The same, read at one buffer of the TensorCore. -/
abbrev entryAt (c : Dev nD) (b : Ref sig .tc) : Buf (Elt F) ((c : Thread nD τ).loc b) := entry m c (Proc.devRef .tc b)

/-- The eleven stretches of host lines that follow the region, in order. -/
abbrev tailOps : List (List (HloOp τ sig (Elt F))) :=
  [hostOps1, hostOps1_1, hostOps1_2, hostOps1_3, hostOps1_4, hostOps1_5, hostOps1_6, hostOps1_7, hostOps1_8, hostOps1_9, hostOps1_10]

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor
theorem hostOps1_8_fresh : (hostOps1_8 : List (HloOp τ sig (Elt F))).Forall fun op => op.fresh = ∅ := by
  simp only [List.Forall]; repeat' constructor
theorem hostOps1_9_fresh : (hostOps1_9 : List (HloOp τ sig (Elt F))).Forall fun op => op.fresh = ∅ := by
  simp only [List.Forall]; repeat' constructor
theorem hostOps1_10_fresh : (hostOps1_10 : List (HloOp τ sig (Elt F))).Forall fun op => op.fresh = ∅ := by
  simp only [List.Forall]; repeat' constructor

/-- The buffers no host line may write: the five arguments, the reshaped labels, the region's two results. -/
abbrev kept : List (Ref sig .tc) := [main_arg0, main_arg1, main_arg2, main_arg3, main_arg4, main_v0, main_v1_0, main_v1_1]

theorem hostOps1_keeps : (hostOps1 : List (HloOp τ sig (Elt F))).Forall fun op => ∀ b ∈ (kept : List (Ref sig .tc)), Proc.devRef .tc b ∉ op.writes := by
  simp only [hostOps1, kept, List.Forall, List.forall_mem_cons, List.not_mem_nil, false_imp_iff, implies_true, and_true, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_1_keeps : (hostOps1_1 : List (HloOp τ sig (Elt F))).Forall fun op => ∀ b ∈ (kept : List (Ref sig .tc)), Proc.devRef .tc b ∉ op.writes := by
  simp only [hostOps1_1, kept, List.Forall, List.forall_mem_cons, List.not_mem_nil, false_imp_iff, implies_true, and_true, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_2_keeps : (hostOps1_2 : List (HloOp τ sig (Elt F))).Forall fun op => ∀ b ∈ (kept : List (Ref sig .tc)), Proc.devRef .tc b ∉ op.writes := by
  simp only [hostOps1_2, kept, List.Forall, List.forall_mem_cons, List.not_mem_nil, false_imp_iff, implies_true, and_true, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_3_keeps : (hostOps1_3 : List (HloOp τ sig (Elt F))).Forall fun op => ∀ b ∈ (kept : List (Ref sig .tc)), Proc.devRef .tc b ∉ op.writes := by
  simp only [hostOps1_3, kept, List.Forall, List.forall_mem_cons, List.not_mem_nil, false_imp_iff, implies_true, and_true, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_4_keeps : (hostOps1_4 : List (HloOp τ sig (Elt F))).Forall fun op => ∀ b ∈ (kept : List (Ref sig .tc)), Proc.devRef .tc b ∉ op.writes := by
  simp only [hostOps1_4, kept, List.Forall, List.forall_mem_cons, List.not_mem_nil, false_imp_iff, implies_true, and_true, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_5_keeps : (hostOps1_5 : List (HloOp τ sig (Elt F))).Forall fun op => ∀ b ∈ (kept : List (Ref sig .tc)), Proc.devRef .tc b ∉ op.writes := by
  simp only [hostOps1_5, kept, List.Forall, List.forall_mem_cons, List.not_mem_nil, false_imp_iff, implies_true, and_true, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_6_keeps : (hostOps1_6 : List (HloOp τ sig (Elt F))).Forall fun op => ∀ b ∈ (kept : List (Ref sig .tc)), Proc.devRef .tc b ∉ op.writes := by
  simp only [hostOps1_6, kept, List.Forall, List.forall_mem_cons, List.not_mem_nil, false_imp_iff, implies_true, and_true, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_7_keeps : (hostOps1_7 : List (HloOp τ sig (Elt F))).Forall fun op => ∀ b ∈ (kept : List (Ref sig .tc)), Proc.devRef .tc b ∉ op.writes := by
  simp only [hostOps1_7, kept, List.Forall, List.forall_mem_cons, List.not_mem_nil, false_imp_iff, implies_true, and_true, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_8_keeps : (hostOps1_8 : List (HloOp τ sig (Elt F))).Forall fun op => ∀ b ∈ (kept : List (Ref sig .tc)), Proc.devRef .tc b ∉ op.writes := by
  simp only [hostOps1_8, kept, List.Forall, List.forall_mem_cons, List.not_mem_nil, false_imp_iff, implies_true, and_true, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_9_keeps : (hostOps1_9 : List (HloOp τ sig (Elt F))).Forall fun op => ∀ b ∈ (kept : List (Ref sig .tc)), Proc.devRef .tc b ∉ op.writes := by
  simp only [hostOps1_9, kept, List.Forall, List.forall_mem_cons, List.not_mem_nil, false_imp_iff, implies_true, and_true, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_10_keeps : (hostOps1_10 : List (HloOp τ sig (Elt F))).Forall fun op => ∀ b ∈ (kept : List (Ref sig .tc)), Proc.devRef .tc b ∉ op.writes := by
  simp only [hostOps1_10, kept, List.Forall, List.forall_mem_cons, List.not_mem_nil, false_imp_iff, implies_true, and_true, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)

/-- Each stretch after the region has the property every one of them was shown to have. -/
theorem forall_tail {p : HloOp τ sig (Elt F) → Prop}
    (h0 : (hostOps1 : List (HloOp τ sig (Elt F))).Forall p)
    (h1 : (hostOps1_1 : List (HloOp τ sig (Elt F))).Forall p)
    (h2 : (hostOps1_2 : List (HloOp τ sig (Elt F))).Forall p)
    (h3 : (hostOps1_3 : List (HloOp τ sig (Elt F))).Forall p)
    (h4 : (hostOps1_4 : List (HloOp τ sig (Elt F))).Forall p)
    (h5 : (hostOps1_5 : List (HloOp τ sig (Elt F))).Forall p)
    (h6 : (hostOps1_6 : List (HloOp τ sig (Elt F))).Forall p)
    (h7 : (hostOps1_7 : List (HloOp τ sig (Elt F))).Forall p)
    (h8 : (hostOps1_8 : List (HloOp τ sig (Elt F))).Forall p)
    (h9 : (hostOps1_9 : List (HloOp τ sig (Elt F))).Forall p)
    (h10 : (hostOps1_10 : List (HloOp τ sig (Elt F))).Forall p) :
    ∀ ops ∈ (tailOps : List (List (HloOp τ sig (Elt F)))), ∀ op ∈ ops, p op := by
  intro ops hops
  simp only [tailOps, List.mem_cons, List.mem_nil_iff, or_false] at hops
  rcases hops with rfl | rfl | rfl | rfl | rfl | rfl | rfl | rfl | rfl | rfl | rfl
  · exact List.forall_iff_forall_mem.mp h0
  · exact List.forall_iff_forall_mem.mp h1
  · exact List.forall_iff_forall_mem.mp h2
  · exact List.forall_iff_forall_mem.mp h3
  · exact List.forall_iff_forall_mem.mp h4
  · exact List.forall_iff_forall_mem.mp h5
  · exact List.forall_iff_forall_mem.mp h6
  · exact List.forall_iff_forall_mem.mp h7
  · exact List.forall_iff_forall_mem.mp h8
  · exact List.forall_iff_forall_mem.mp h9
  · exact List.forall_iff_forall_mem.mp h10

/-- @main is the reshape, the region, then the eleven stretches: it reduces to the region continued by them. -/
theorem main_around (𝒱₀ : Variants) : Pipeline.HMainK (Ix := Unit) (Name := ℕ) (U := UR sig nD τ) (Lvl := ℕ) cfgs 0 defs₀ 𝒱₀ m (main (F := F)) (entryAt m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

/-- The later lines touch only unscoped buffers of the TensorCore: the region's arrays and the buffers that bypass it. -/
theorem tail_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  exact Pipeline.sub_ucRefs op (forall_tail (p := fun op => op.bufs ⊆ StableHlo.tcRefs τ sig)
    hostOps1_sub hostOps1_1_sub hostOps1_2_sub hostOps1_3_sub hostOps1_4_sub hostOps1_5_sub hostOps1_6_sub hostOps1_7_sub hostOps1_8_sub hostOps1_9_sub hostOps1_10_sub ops hops op hop)

/-- They allocate nothing. -/
theorem tail_fresh : ∀ ops ∈ (tailOps : List (List (HloOp τ sig (Elt F)))), ∀ op ∈ ops, op.fresh = ∅ :=
  forall_tail hostOps1_fresh hostOps1_1_fresh hostOps1_2_fresh hostOps1_3_fresh hostOps1_4_fresh hostOps1_5_fresh hostOps1_6_fresh hostOps1_7_fresh hostOps1_8_fresh hostOps1_9_fresh hostOps1_10_fresh

/-- They write none of the kept buffers. -/
theorem tail_keeps_all : ∀ ops ∈ (tailOps : List (List (HloOp τ sig (Elt F)))), ∀ op ∈ ops,
    ∀ b ∈ (kept : List (Ref sig .tc)), Proc.devRef .tc b ∉ op.writes :=
  forall_tail hostOps1_keeps hostOps1_1_keeps hostOps1_2_keeps hostOps1_3_keeps hostOps1_4_keeps hostOps1_5_keeps hostOps1_6_keeps hostOps1_7_keeps hostOps1_8_keeps hostOps1_9_keeps hostOps1_10_keeps

/-- The four arrays the region's windows stage are kept buffers. -/
theorem arr_mem_kept : ∀ w : Fin 4, Pipeline.arrRef spec0 w ∈ (kept : List (Ref sig .tc)) := by decide

/-- So the later lines write no array of the region. -/
theorem tail_keeps : ∀ ops ∈ (tailOps : List (List (HloOp τ sig (Elt F)))), ∀ op ∈ ops,
    ∀ w, Proc.devRef .tc (Pipeline.arrRef spec0 w) ∉ op.writes :=
  fun ops hops op hop w => tail_keeps_all ops hops op hop _ (arr_mem_kept w)

/-- A kept buffer other than the reshaped labels is found by the region as launched. -/
theorem entry_of_kept (c : Dev nD) (b : Ref sig .tc) (hb : b ≠ main_v0) :
    entryAt m c b = m ((c : Thread nD τ).loc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, Finset.mem_singleton]
    exact StableHlo.devRef_ne_of_ne hb))

/-- A kept buffer that is no array of the region ends, after the later lines, as the region found it. -/
theorem exit_of_kept (dats : (p : Fin _) → (c : Dev nD) → Dat τ (Elt F) Unit ℕ (UR sig nD τ) ℕ (cfgs p) c) (c : Dev nD)
    (b : Ref sig .tc) (hb : b ∈ (kept : List (Ref sig .tc))) (hne : ∀ w, Pipeline.arrRef spec0 w ≠ b) :
    Pipeline.afterTail₀ cfgs dats 0 (entry m) tailOps c b = entryAt m c b := by
  unfold Pipeline.afterTail₀
  rw [StableHlo.after_of_forall_not_mem (b := Proc.devRef .tc b) _ _ (fun op hop => by
      obtain ⟨ops, hops, hop'⟩ := List.mem_flatten.mp hop
      exact tail_keeps_all ops hops op hop' b hb),
    Pipeline.withArrays_of_ne _ c (entry m c) _ b hne]

/-! ## The windows' blocks -/

/-- Window w's block at point t, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (entryAt m c (Pipeline.arrRef spec0 w))

/-- The staging buffer of the rows holds the point's block of rows at every point, for any proof data over the entry
    contents whose body leaves that block in place. -/
theorem rows_before_of {c : Dev nD} (dat : Dat τ (Elt F) Unit ℕ (UR sig nD τ) ℕ cfg0 c) (hA : dat.A 0 = entryAt m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- Likewise the staging buffer of the labels holds the point's block of labels. -/
theorem labels_before_of {c : Dev nD} (dat : Dat τ (Elt F) Unit ℕ (UR sig nD τ) ℕ cfg0 c) (hA : dat.A 1 = entryAt m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-! ## The frame claim from a frame run -/

theorem mem_rest (b : Ref sig .tc) (h1 : b.isScoped = false := by decide) (h2 : ∀ w, Pipeline.arrRef spec0 w ≠ b := by decide) :
    b ∈ Pipeline.restRefs sig spec0 := Pipeline.mem_restRefs_of b h1 h2

/-- A run to the frame post, read at the five argument arrays: the rows are a staged input, which the region writes back
    unchanged; the other four bypass the region and no later line writes them. -/
theorem frame_of (dats : (p : Fin 1) → (c : Dev nD) → Dat τ (Elt F) Unit ℕ (UR sig nD τ) ℕ (cfgs p) c)
    (hA : ∀ c w, (dats 0 c).A w = entryAt m c (Pipeline.arrRef spec0 w))
    (h : θ_run defs (onTc (τ := τ) (main (F := F))) (s₀ m ρ) (Pipeline.FramePost cfgs dats 0 (Pipeline.afterTail₀ cfgs dats 0 (entry m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).1 0).trans (((dats 0 c).arrAt_in 0 rfl _).trans ((hA c 0).trans (entry_of_kept m c main_arg0 (by decide)))),
     ((h c).2 main_arg1 (mem_rest main_arg1)).trans ((exit_of_kept m dats c main_arg1 (by decide) (by decide)).trans (entry_of_kept m c main_arg1 (by decide))),
     ((h c).2 main_arg2 (mem_rest main_arg2)).trans ((exit_of_kept m dats c main_arg2 (by decide) (by decide)).trans (entry_of_kept m c main_arg2 (by decide))),
     ((h c).2 main_arg3 (mem_rest main_arg3)).trans ((exit_of_kept m dats c main_arg3 (by decide) (by decide)).trans (entry_of_kept m c main_arg3 (by decide))),
     ((h c).2 main_arg4 (mem_rest main_arg4)).trans ((exit_of_kept m dats c main_arg4 (by decide) (by decide)).trans (entry_of_kept m c main_arg4 (by decide)))⟩) h

/-! ## The body's one branch -/

/-- The condition of the body's conditional, from the grid coordinates: the inner coordinate is 0. -/
abbrev firstStep (i : grid0.Coords) : Prop := (Scalar.cmpi .ne (Scalar.extui (Scalar.cmpi .eq (BitVec.ofNat 32 (i 1).val) 0#32)) 0#32) = 1#1
/-- In the linear order of the 32 points it holds exactly at the multiples of 16. -/
theorem firstStep_iff : ∀ t : Fin cfg0.N, firstStep (grid0.coords t) ↔ t.val % 16 = 0 :=
  (by decide +kernel : ∀ t : Fin grid0.N, firstStep (grid0.coords t) ↔ t.val % 16 = 0)

/-! ## The staging memrefs the body is called with -/

/-- One staging buffer of each result window, through which that window's contents are stated. -/
abbrev sumView : View sig .tc .vmem S1x128x512 .f32 := (Memref.whole cc0_stg2_0 : Memref sig .tc .vmem S1x128x512 .f32).view
abbrev cntView : View sig .tc .vmem S1x128x1 .f32 := (Memref.whole cc0_stg3_0 : Memref sig .tc .vmem S1x128x1 .f32).view

abbrev rowsBuf (t : Fin cfg0.N) : Memref sig .tc .vmem S8192x512 .f32 := win0_0.stage (cfg0.slots t 0)
abbrev rowsBuf_whole (t : Fin cfg0.N) : (rowsBuf t).IsWhole := hstage0_0 ((cfg0.slots t 0).cast nbuf0_0)
abbrev labelsBuf (t : Fin cfg0.N) : Memref sig .tc .vmem S1x8192 .i32 := win0_1.stage (cfg0.slots t 1)
abbrev labelsBuf_whole (t : Fin cfg0.N) : (labelsBuf t).IsWhole := hstage0_1 ((cfg0.slots t 1).cast nbuf0_1)
abbrev sumBuf (t : Fin cfg0.N) : Memref sig .tc .vmem S1x128x512 .f32 := win0_2.stage (cfg0.slots t 2)
abbrev sumBuf_whole (t : Fin cfg0.N) : (sumBuf t).IsWhole := hstage0_2 ((cfg0.slots t 2).cast nbuf0_2)
abbrev cntBuf (t : Fin cfg0.N) : Memref sig .tc .vmem S1x128x1 .f32 := win0_3.stage (cfg0.slots t 3)
abbrev cntBuf_whole (t : Fin cfg0.N) : (cntBuf t).IsWhole := hstage0_3 ((cfg0.slots t 3).cast nbuf0_3)

end Cert.Kernel.Around

end
-- ==== Proof.KRunReset.lean ====
/-
  The kernel body run once, at a grid point whose inner coordinate is 0 (a core's first step).

  On whole staging memrefs, the rows' and the labels' at their contents and the two accumulator blocks at
  anything, the body runs to its end: it overwrites each accumulator block with zeros, reads the eight
  chunks of rows and labels, and stores into each accumulator block what it then holds plus the point's
  contribution. What each accumulator block ends with is recorded as the list of pieces the body's
  stores wrote, last first; the run itself finds those lists.
-/
import proofs.«409649_j73005854097881_3_alg».proof.Proof.KAround

set_option maxRecDepth 16384

noncomputable section

namespace Cert.Kernel.Around

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The pieces the body's stores leave in the two accumulator blocks at a first step, with the proof that the body runs
    to the continuation holding the inputs' buffers as they were and each accumulator block with its pieces written. -/
noncomputable def runReset (c : Dev nD) (i : grid0.Coords)
    (arg2 : Memref sig .tc .vmem S8192x512 .f32) (harg2 : arg2.IsWhole) (arg3 : Memref sig .tc .vmem S1x8192 .i32) (harg3 : arg3.IsWhole)
    (arg4 : Memref sig .tc .vmem S1x128x512 .f32) (harg4 : arg4.IsWhole) (arg5 : Memref sig .tc .vmem S1x128x1 .f32) (harg5 : arg5.IsWhole)
    (hc0 : firstStep i) (x0 : Vec F S8192x512 .f32) (x1 : Vec F S1x8192 .i32) :
    Σ' (Ls : List (View.Piece (Elt F) S1x128x512 .f32)), { Lc : List (View.Piece (Elt F) S1x128x1 .f32) //
      ∀ (E : Set ℕ) (K : PUnit → sProp 𝕄),
        iprop(owns (c : Thread nD τ) arg2 fullShare x0 ∗ owns (c : Thread nD τ) arg3 fullShare x1
            ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f Ls)
                ∗ (∃ f, arg5.view.loc (c : Thread nD τ) ↦[arg5.view.set]{fullShare} arg5.view.writes (Elt F) f Lc)) -∗ K ⟨⟩))
          ⊢ wp frame (wpE (defs₀ (F := F)) Variants.none c none) E (cc0__segment_kernel i arg2 harg2 arg3 harg3 arg4 harg4 arg5 harg5) K } := by
  refine ⟨?_, ?_, fun E K => ?run⟩
  case run =>
    simp only [cc0__segment_kernel_eq_skeleton]; unfold cc0__segment_kernel_skel
    unfold owns
    iintro ⟨⟨%f0, %hf0, H0⟩, ⟨%f1, %hf1, H1⟩, ⟨%d2, %f2, -, H2⟩, ⟨%d3, %f3, -, H3⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; iexact H3

end Cert.Kernel.Around

end
-- ==== Proof.KRunCarry.lean ====
/-
  The kernel body run once, at a grid point whose inner coordinate is not 0 (a later step of a core).

  On whole staging memrefs, the rows' and the labels' at their contents and the two accumulator blocks at the
  contents the step before left, the body runs to its end: it skips the clearing branch, reads the eight
  chunks, and stores into each accumulator block what it held plus the point's contribution. The pieces its
  stores wrote are found by the run.
-/
import proofs.«409649_j73005854097881_3_alg».proof.Proof.KRunReset

set_option maxRecDepth 16384

noncomputable section

namespace Cert.Kernel.Around

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The pieces the body's stores leave in the two accumulator blocks at a later step, over the running contents
    `xs`, `xc` of the two blocks, with the proof that the body runs to the continuation. -/
noncomputable def runCarry (c : Dev nD) (i : grid0.Coords)
    (arg2 : Memref sig .tc .vmem S8192x512 .f32) (harg2 : arg2.IsWhole) (arg3 : Memref sig .tc .vmem S1x8192 .i32) (harg3 : arg3.IsWhole)
    (arg4 : Memref sig .tc .vmem S1x128x512 .f32) (harg4 : arg4.IsWhole) (arg5 : Memref sig .tc .vmem S1x128x1 .f32) (harg5 : arg5.IsWhole)
    (hc0 : ¬firstStep i) (x0 : Vec F S8192x512 .f32) (x1 : Vec F S1x8192 .i32)
    (xs : Vec F S1x128x512 .f32) (xc : Vec F S1x128x1 .f32) :
    Σ' (Ls : List (View.Piece (Elt F) S1x128x512 .f32)), { Lc : List (View.Piece (Elt F) S1x128x1 .f32) //
      ∀ (E : Set ℕ) (K : PUnit → sProp 𝕄),
        iprop(owns (c : Thread nD τ) arg2 fullShare x0 ∗ owns (c : Thread nD τ) arg3 fullShare x1
            ∗ owns (c : Thread nD τ) arg4 fullShare xs ∗ owns (c : Thread nD τ) arg5 fullShare xc
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f Ls)
                ∗ (∃ f, arg5.view.loc (c : Thread nD τ) ↦[arg5.view.set]{fullShare} arg5.view.writes (Elt F) f Lc)) -∗ K ⟨⟩))
          ⊢ wp frame (wpE (defs₀ (F := F)) Variants.none c none) E (cc0__segment_kernel i arg2 harg2 arg3 harg3 arg4 harg4 arg5 harg5) K } := by
  refine ⟨?_, ?_, fun E K => ?run⟩
  case run =>
    simp only [cc0__segment_kernel_eq_skeleton]; unfold cc0__segment_kernel_skel
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1
    obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; iexact H3

end Cert.Kernel.Around

end
-- ==== Proof.KFrame.lean ====
/-
  The frame of the program: every weakly fair execution of @main ends, nothing faults, and the argument
  arrays end as launched — together with what every other buffer holds at the end.

  The kernel's two result windows are accumulators: each core's 16 steps share one block of each, cleared at
  the first step, added to at every step, written back after the last. What the two staging blocks hold after
  the body at point t is therefore defined by recursion on t: at a multiple of 16 what a first step leaves,
  otherwise what a later step leaves over the contents of point t - 1. With that as the proof data, the body
  meets its obligation at every point (by cases on "t is a multiple of 16"), and the launch theorem for a
  region followed by host lines gives the run.
-/
import proofs.«409649_j73005854097881_3_alg».proof.Proof.KRunCarry

set_option maxRecDepth 16384

noncomputable section

namespace Cert.Kernel.Around

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in the two accumulator blocks -/

/-- At a first step the pieces written into the block of sums tile it, so they cover it. -/
theorem coverReset_sum (c : Dev nD) (i : grid0.Coords)
    (arg2 : Memref sig .tc .vmem S8192x512 .f32) (harg2 : arg2.IsWhole) (arg3 : Memref sig .tc .vmem S1x8192 .i32) (harg3 : arg3.IsWhole)
    (arg4 : Memref sig .tc .vmem S1x128x512 .f32) (harg4 : arg4.IsWhole) (arg5 : Memref sig .tc .vmem S1x128x1 .f32) (harg5 : arg5.IsWhole)
    (hc0 : firstStep i) (x0 : Vec F S8192x512 .f32) (x1 : Vec F S1x8192 .i32) (y : S1x128x512.Idx) :
    ∃ pc ∈ (runReset c i arg2 harg2 arg3 harg3 arg4 harg4 arg5 harg5 hc0 x0 x1).1, y ∈ pc.1.set :=
  View.cover_of_tiledL (runReset c i arg2 harg2 arg3 harg3 arg4 harg4 arg5 harg5 hc0 x0 x1).1 S1x128x512.size (by sl_kernel_rfl) y

/-- Likewise the pieces written into the block of counts. -/
theorem coverReset_cnt (c : Dev nD) (i : grid0.Coords)
    (arg2 : Memref sig .tc .vmem S8192x512 .f32) (harg2 : arg2.IsWhole) (arg3 : Memref sig .tc .vmem S1x8192 .i32) (harg3 : arg3.IsWhole)
    (arg4 : Memref sig .tc .vmem S1x128x512 .f32) (harg4 : arg4.IsWhole) (arg5 : Memref sig .tc .vmem S1x128x1 .f32) (harg5 : arg5.IsWhole)
    (hc0 : firstStep i) (x0 : Vec F S8192x512 .f32) (x1 : Vec F S1x8192 .i32) (y : S1x128x1.Idx) :
    ∃ pc ∈ (runReset c i arg2 harg2 arg3 harg3 arg4 harg4 arg5 harg5 hc0 x0 x1).2.1, y ∈ pc.1.set :=
  View.cover_of_tiledL (runReset c i arg2 harg2 arg3 harg3 arg4 harg4 arg5 harg5 hc0 x0 x1).2.1 S1x128x1.size (by sl_kernel_rfl) y

/-- What a first step leaves in the block of sums: its pieces read back. -/
def sumReset (c : Dev nD) (i : grid0.Coords)
    (arg2 : Memref sig .tc .vmem S8192x512 .f32) (harg2 : arg2.IsWhole) (arg3 : Memref sig .tc .vmem S1x8192 .i32) (harg3 : arg3.IsWhole)
    (arg4 : Memref sig .tc .vmem S1x128x512 .f32) (harg4 : arg4.IsWhole) (arg5 : Memref sig .tc .vmem S1x128x1 .f32) (harg5 : arg5.IsWhole)
    (hc0 : firstStep i) (x0 : Vec F S8192x512 .f32) (x1 : Vec F S1x8192 .i32) : Vec F S1x128x512 .f32 :=
  sumView.read (Elt F) (sumView.writes (Elt F) sumView.junk (runReset c i arg2 harg2 arg3 harg3 arg4 harg4 arg5 harg5 hc0 x0 x1).1)

/-- What a first step leaves in the block of counts. -/
def cntReset (c : Dev nD) (i : grid0.Coords)
    (arg2 : Memref sig .tc .vmem S8192x512 .f32) (harg2 : arg2.IsWhole) (arg3 : Memref sig .tc .vmem S1x8192 .i32) (harg3 : arg3.IsWhole)
    (arg4 : Memref sig .tc .vmem S1x128x512 .f32) (harg4 : arg4.IsWhole) (arg5 : Memref sig .tc .vmem S1x128x1 .f32) (harg5 : arg5.IsWhole)
    (hc0 : firstStep i) (x0 : Vec F S8192x512 .f32) (x1 : Vec F S1x8192 .i32) : Vec F S1x128x1 .f32 :=
  cntView.read (Elt F) (cntView.writes (Elt F) cntView.junk (runReset c i arg2 harg2 arg3 harg3 arg4 harg4 arg5 harg5 hc0 x0 x1).2.1)

theorem coverCarry_sum (c : Dev nD) (i : grid0.Coords)
    (arg2 : Memref sig .tc .vmem S8192x512 .f32) (harg2 : arg2.IsWhole) (arg3 : Memref sig .tc .vmem S1x8192 .i32) (harg3 : arg3.IsWhole)
    (arg4 : Memref sig .tc .vmem S1x128x512 .f32) (harg4 : arg4.IsWhole) (arg5 : Memref sig .tc .vmem S1x128x1 .f32) (harg5 : arg5.IsWhole)
    (hc0 : ¬firstStep i) (x0 : Vec F S8192x512 .f32) (x1 : Vec F S1x8192 .i32) (xs : Vec F S1x128x512 .f32) (xc : Vec F S1x128x1 .f32) (y : S1x128x512.Idx) :
    ∃ pc ∈ (runCarry c i arg2 harg2 arg3 harg3 arg4 harg4 arg5 harg5 hc0 x0 x1 xs xc).1, y ∈ pc.1.set :=
  View.cover_of_tiledL (runCarry c i arg2 harg2 arg3 harg3 arg4 harg4 arg5 harg5 hc0 x0 x1 xs xc).1 S1x128x512.size (by sl_kernel_rfl) y

theorem coverCarry_cnt (c : Dev nD) (i : grid0.Coords)
    (arg2 : Memref sig .tc .vmem S8192x512 .f32) (harg2 : arg2.IsWhole) (arg3 : Memref sig .tc .vmem S1x8192 .i32) (harg3 : arg3.IsWhole)
    (arg4 : Memref sig .tc .vmem S1x128x512 .f32) (harg4 : arg4.IsWhole) (arg5 : Memref sig .tc .vmem S1x128x1 .f32) (harg5 : arg5.IsWhole)
    (hc0 : ¬firstStep i) (x0 : Vec F S8192x512 .f32) (x1 : Vec F S1x8192 .i32) (xs : Vec F S1x128x512 .f32) (xc : Vec F S1x128x1 .f32) (y : S1x128x1.Idx) :
    ∃ pc ∈ (runCarry c i arg2 harg2 arg3 harg3 arg4 harg4 arg5 harg5 hc0 x0 x1 xs xc).2.1, y ∈ pc.1.set :=
  View.cover_of_tiledL (runCarry c i arg2 harg2 arg3 harg3 arg4 harg4 arg5 harg5 hc0 x0 x1 xs xc).2.1 S1x128x1.size (by sl_kernel_rfl) y

/-- What a later step leaves in the block of sums, over the running contents. -/
def sumCarry (c : Dev nD) (i : grid0.Coords)
    (arg2 : Memref sig .tc .vmem S8192x512 .f32) (harg2 : arg2.IsWhole) (arg3 : Memref sig .tc .vmem S1x8192 .i32) (harg3 : arg3.IsWhole)
    (arg4 : Memref sig .tc .vmem S1x128x512 .f32) (harg4 : arg4.IsWhole) (arg5 : Memref sig .tc .vmem S1x128x1 .f32) (harg5 : arg5.IsWhole)
    (hc0 : ¬firstStep i) (x0 : Vec F S8192x512 .f32) (x1 : Vec F S1x8192 .i32) (xs : Vec F S1x128x512 .f32) (xc : Vec F S1x128x1 .f32) : Vec F S1x128x512 .f32 :=
  sumView.read (Elt F) (sumView.writes (Elt F) sumView.junk (runCarry c i arg2 harg2 arg3 harg3 arg4 harg4 arg5 harg5 hc0 x0 x1 xs xc).1)

/-- What a later step leaves in the block of counts, over the running contents. -/
def cntCarry (c : Dev nD) (i : grid0.Coords)
    (arg2 : Memref sig .tc .vmem S8192x512 .f32) (harg2 : arg2.IsWhole) (arg3 : Memref sig .tc .vmem S1x8192 .i32) (harg3 : arg3.IsWhole)
    (arg4 : Memref sig .tc .vmem S1x128x512 .f32) (harg4 : arg4.IsWhole) (arg5 : Memref sig .tc .vmem S1x128x1 .f32) (harg5 : arg5.IsWhole)
    (hc0 : ¬firstStep i) (x0 : Vec F S8192x512 .f32) (x1 : Vec F S1x8192 .i32) (xs : Vec F S1x128x512 .f32) (xc : Vec F S1x128x1 .f32) : Vec F S1x128x1 .f32 :=
  cntView.read (Elt F) (cntView.writes (Elt F) cntView.junk (runCarry c i arg2 harg2 arg3 harg3 arg4 harg4 arg5 harg5 hc0 x0 x1 xs xc).2.1)

/-! ## The accumulation, point by point -/

/-- What the two accumulator blocks hold after the body at point n: at a multiple of 16 what a first step leaves of
    the point's blocks of rows and labels; otherwise what a later step leaves over the contents after point n - 1. -/
def accAt (c : Dev nD) : (n : ℕ) → n < cfg0.N → Vec F S1x128x512 .f32 × Vec F S1x128x1 .f32
  | 0, hn =>
    (sumReset c (grid0.coords ⟨0, hn⟩) (rowsBuf ⟨0, hn⟩) (rowsBuf_whole ⟨0, hn⟩) (labelsBuf ⟨0, hn⟩) (labelsBuf_whole ⟨0, hn⟩) (sumBuf ⟨0, hn⟩) (sumBuf_whole ⟨0, hn⟩) (cntBuf ⟨0, hn⟩) (cntBuf_whole ⟨0, hn⟩) ((firstStep_iff ⟨0, hn⟩).mpr (Nat.zero_mod _)) (blockAt m c 0 ⟨0, hn⟩) (blockAt m c 1 ⟨0, hn⟩),
     cntReset c (grid0.coords ⟨0, hn⟩) (rowsBuf ⟨0, hn⟩) (rowsBuf_whole ⟨0, hn⟩) (labelsBuf ⟨0, hn⟩) (labelsBuf_whole ⟨0, hn⟩) (sumBuf ⟨0, hn⟩) (sumBuf_whole ⟨0, hn⟩) (cntBuf ⟨0, hn⟩) (cntBuf_whole ⟨0, hn⟩) ((firstStep_iff ⟨0, hn⟩).mpr (Nat.zero_mod _)) (blockAt m c 0 ⟨0, hn⟩) (blockAt m c 1 ⟨0, hn⟩))
  | n + 1, hn =>
    if h0 : (n + 1) % 16 = 0 then
      (sumReset c (grid0.coords ⟨n + 1, hn⟩) (rowsBuf ⟨n + 1, hn⟩) (rowsBuf_whole ⟨n + 1, hn⟩) (labelsBuf ⟨n + 1, hn⟩) (labelsBuf_whole ⟨n + 1, hn⟩) (sumBuf ⟨n + 1, hn⟩) (sumBuf_whole ⟨n + 1, hn⟩) (cntBuf ⟨n + 1, hn⟩) (cntBuf_whole ⟨n + 1, hn⟩) ((firstStep_iff ⟨n + 1, hn⟩).mpr h0) (blockAt m c 0 ⟨n + 1, hn⟩) (blockAt m c 1 ⟨n + 1, hn⟩),
       cntReset c (grid0.coords ⟨n + 1, hn⟩) (rowsBuf ⟨n + 1, hn⟩) (rowsBuf_whole ⟨n + 1, hn⟩) (labelsBuf ⟨n + 1, hn⟩) (labelsBuf_whole ⟨n + 1, hn⟩) (sumBuf ⟨n + 1, hn⟩) (sumBuf_whole ⟨n + 1, hn⟩) (cntBuf ⟨n + 1, hn⟩) (cntBuf_whole ⟨n + 1, hn⟩) ((firstStep_iff ⟨n + 1, hn⟩).mpr h0) (blockAt m c 0 ⟨n + 1, hn⟩) (blockAt m c 1 ⟨n + 1, hn⟩))
    else
      (sumCarry c (grid0.coords ⟨n + 1, hn⟩) (rowsBuf ⟨n + 1, hn⟩) (rowsBuf_whole ⟨n + 1, hn⟩) (labelsBuf ⟨n + 1, hn⟩) (labelsBuf_whole ⟨n + 1, hn⟩) (sumBuf ⟨n + 1, hn⟩) (sumBuf_whole ⟨n + 1, hn⟩) (cntBuf ⟨n + 1, hn⟩) (cntBuf_whole ⟨n + 1, hn⟩) (fun h => h0 ((firstStep_iff ⟨n + 1, hn⟩).mp h)) (blockAt m c 0 ⟨n + 1, hn⟩) (blockAt m c 1 ⟨n + 1, hn⟩)
          (accAt c n (Nat.lt_of_succ_lt hn)).1 (accAt c n (Nat.lt_of_succ_lt hn)).2,
       cntCarry c (grid0.coords ⟨n + 1, hn⟩) (rowsBuf ⟨n + 1, hn⟩) (rowsBuf_whole ⟨n + 1, hn⟩) (labelsBuf ⟨n + 1, hn⟩) (labelsBuf_whole ⟨n + 1, hn⟩) (sumBuf ⟨n + 1, hn⟩) (sumBuf_whole ⟨n + 1, hn⟩) (cntBuf ⟨n + 1, hn⟩) (cntBuf_whole ⟨n + 1, hn⟩) (fun h => h0 ((firstStep_iff ⟨n + 1, hn⟩).mp h)) (blockAt m c 0 ⟨n + 1, hn⟩) (blockAt m c 1 ⟨n + 1, hn⟩)
          (accAt c n (Nat.lt_of_succ_lt hn)).1 (accAt c n (Nat.lt_of_succ_lt hn)).2)

/-- At a multiple of 16: the first step's contents. -/
theorem accAt_reset (c : Dev nD) (t : Fin cfg0.N) (h0 : t.val % 16 = 0) :
    accAt m c t.val t.isLt =
      (sumReset c (grid0.coords t) (rowsBuf t) (rowsBuf_whole t) (labelsBuf t) (labelsBuf_whole t) (sumBuf t) (sumBuf_whole t) (cntBuf t) (cntBuf_whole t) ((firstStep_iff t).mpr h0) (blockAt m c 0 t) (blockAt m c 1 t),
       cntReset c (grid0.coords t) (rowsBuf t) (rowsBuf_whole t) (labelsBuf t) (labelsBuf_whole t) (sumBuf t) (sumBuf_whole t) (cntBuf t) (cntBuf_whole t) ((firstStep_iff t).mpr h0) (blockAt m c 0 t) (blockAt m c 1 t)) := by
  obtain ⟨n, hn⟩ := t
  cases n with
  | zero => exact rfl
  | succ n => exact (dif_pos h0).trans rfl

/-- Elsewhere: the later step's contents over what the point before left. -/
theorem accAt_carry (c : Dev nD) (t : Fin cfg0.N) (h0 : ¬t.val % 16 = 0) :
    accAt m c t.val t.isLt =
      (sumCarry c (grid0.coords t) (rowsBuf t) (rowsBuf_whole t) (labelsBuf t) (labelsBuf_whole t) (sumBuf t) (sumBuf_whole t) (cntBuf t) (cntBuf_whole t) (fun h => h0 ((firstStep_iff t).mp h)) (blockAt m c 0 t) (blockAt m c 1 t)
          (accAt m c (t.val - 1) (Nat.lt_of_le_of_lt (Nat.sub_le _ _) t.isLt)).1 (accAt m c (t.val - 1) (Nat.lt_of_le_of_lt (Nat.sub_le _ _) t.isLt)).2,
       cntCarry c (grid0.coords t) (rowsBuf t) (rowsBuf_whole t) (labelsBuf t) (labelsBuf_whole t) (sumBuf t) (sumBuf_whole t) (cntBuf t) (cntBuf_whole t) (fun h => h0 ((firstStep_iff t).mp h)) (blockAt m c 0 t) (blockAt m c 1 t)
          (accAt m c (t.val - 1) (Nat.lt_of_le_of_lt (Nat.sub_le _ _) t.isLt)).1 (accAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The proof data -/

/-- On core c: the arrays as the region finds them; after the body at point t the two inputs' staging buffers at their
    blocks and the two accumulator blocks at `accAt`; the class's invariant; nothing owed; full shares. -/
def dats (_ : Fin 1) (c : Dev nD) : Dat τ (Elt F) Unit ℕ (UR sig nD τ) ℕ cfg0 c where
  A w := entryAt m c (Pipeline.arrRef spec0 w)
  after w t := match w with
    | ⟨0, _⟩ => blockAt m c 0 t
    | ⟨1, _⟩ => blockAt m c 1 t
    | ⟨2, _⟩ => (accAt m c t.val t.isLt).1
    | ⟨3, _⟩ => (accAt m c t.val t.isLt).2
  Φ _ := Pipeline.ΦA spec0 c
  q _ := fullShare
  owed _ := 0

theorem A_eq (c : Dev nD) (w : Fin cfg0.W) : (dats m 0 c).A w = entryAt m c (Pipeline.arrRef spec0 w) := by
  dsimp only [dats]

theorem after_rows (c : Dev nD) (t : Fin cfg0.N) : (dats m 0 c).after 0 t = blockAt m c 0 t := by dsimp only [dats]
theorem after_labels (c : Dev nD) (t : Fin cfg0.N) : (dats m 0 c).after 1 t = blockAt m c 1 t := by dsimp only [dats]
theorem after_sum (c : Dev nD) (t : Fin cfg0.N) : (dats m 0 c).after 2 t = (accAt m c t.val t.isLt).1 := by dsimp only [dats]
theorem after_cnt (c : Dev nD) (t : Fin cfg0.N) : (dats m 0 c).after 3 t = (accAt m c t.val t.isLt).2 := by dsimp only [dats]

theorem rows_before (c : Dev nD) (t : Fin cfg0.N) (d) : (dats m 0 c).before 0 t d = blockAt m c 0 t :=
  rows_before_of m (dats m 0 c) (A_eq m c 0) (after_rows m c) t d
theorem labels_before (c : Dev nD) (t : Fin cfg0.N) (d) : (dats m 0 c).before 1 t d = blockAt m c 1 t :=
  labels_before_of m (dats m 0 c) (A_eq m c 1) (after_labels m c) t d

/-- Away from a multiple of 16 the block of sums holds what the body left at the point before: the point is not the
    first, and the block was not written back in between (that happens only after a core's last step). -/
theorem sum_before_carry (c : Dev nD) (t : Fin cfg0.N) (h0 : ¬t.val % 16 = 0) (d) :
    (dats m 0 c).before 2 t d = (accAt m c (t.val - 1) (Nat.lt_of_le_of_lt (Nat.sub_le _ _) t.isLt)).1 := by
  have hN : t.val < 32 := lt_of_lt_of_eq t.isLt (show cfg0.N = 32 from N_0)
  rw [Dat.before_out_kept _ 2 rfl t (by omega) (Bool.eq_false_iff.mpr fun h => by have := (flush0_2 _).mp h; dsimp only at this; omega)
    (fun _ => rfl) (fun _ _ => rfl)]
  dsimp only [dats]

theorem cnt_before_carry (c : Dev nD) (t : Fin cfg0.N) (h0 : ¬t.val % 16 = 0) (d) :
    (dats m 0 c).before 3 t d = (accAt m c (t.val - 1) (Nat.lt_of_le_of_lt (Nat.sub_le _ _) t.isLt)).2 := by
  have hN : t.val < 32 := lt_of_lt_of_eq t.isLt (show cfg0.N = 32 from N_0)
  rw [Dat.before_out_kept _ 3 rfl t (by omega) (Bool.eq_false_iff.mpr fun h => by have := (flush0_3 _).mp h; dsimp only at this; omega)
    (fun _ => rfl) (fun _ _ => rfl)]
  dsimp only [dats]

/-! ## The body obligation -/

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (rowsBuf t) fullShare ((dats m 0 c).before 0 t d))
    ∗ (∃ d, owns (c : Thread nD τ) (labelsBuf t) fullShare ((dats m 0 c).before 1 t d))
    ∗ (∃ d, owns (c : Thread nD τ) (sumBuf t) fullShare ((dats m 0 c).before 2 t d))
    ∗ (∃ d, owns (c : Thread nD τ) (cntBuf t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (rowsBuf t) fullShare ((dats m 0 c).after 0 t)
    ∗ owns (c : Thread nD τ) (labelsBuf t) fullShare ((dats m 0 c).after 1 t)
    ∗ owns (c : Thread nD τ) (sumBuf t) fullShare ((dats m 0 c).after 2 t)
    ∗ owns (c : Thread nD τ) (cntBuf t) fullShare ((dats m 0 c).after 3 t))

set_option maxHeartbeats 1600000 in
/-- The body at any point: the inputs' buffers hold their blocks; by cases on "t is a multiple of 16" the matching run
    applies, an accumulator block holding what the point before left where the run needs it; the invariant passes
    through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [rows_before, labels_before]
  rw [show (dats m 0 c).Φ t.succ = (dats m 0 c).Φ t.castSucc from rfl,
    show (dats m 0 c).owesAt () t.succ = (dats m 0 c).owesAt () t.castSucc from rfl,
    after_rows, after_labels, after_sum, after_cnt]
  have hN : t.val < 32 := lt_of_lt_of_eq t.isLt (show cfg0.N = 32 from N_0)
  by_cases h0 : t.val % 16 = 0
  · rw [accAt_reset m c t h0]
    dsimp only
    unfold sumReset cntReset
    iintro ⟨HΦ, Ho, ⟨%d0, H0⟩, ⟨%d1, H1⟩, ⟨%d2, H2⟩, ⟨%d3, H3⟩⟩
    iapply ((runReset c (grid0.coords t) _ _ _ _ _ _ _ _ ((firstStep_iff t).mpr h0) (blockAt m c 0 t) (blockAt m c 1 t)).2.2 Set.univ _)
    isplitl [H0]; · iexact H0
    isplitl [H1]; · iexact H1
    isplitl [H2]; · iexists _; iexact H2
    isplitl [H3]; · iexists _; iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (coverReset_sum c _ _ _ _ _ _ _ _ _ _ _ _)
    unfold owns; iexists _; isplitr
    swap; · iexact H3
    ipureintro; exact View.read_writes_of_cover _ _ _ _ _ (coverReset_cnt c _ _ _ _ _ _ _ _ _ _ _ _)
  · rw [accAt_carry m c t h0]
    dsimp only
    simp only [sum_before_carry m c t h0, cnt_before_carry m c t h0]
    unfold sumCarry cntCarry
    iintro ⟨HΦ, Ho, ⟨%d0, H0⟩, ⟨%d1, H1⟩, ⟨%d2, H2⟩, ⟨%d3, H3⟩⟩
    iapply ((runCarry c (grid0.coords t) _ _ _ _ _ _ _ _ (fun h => h0 ((firstStep_iff t).mp h)) (blockAt m c 0 t) (blockAt m c 1 t) _ _).2.2 Set.univ _)
    isplitl [H0]; · iexact H0
    isplitl [H1]; · iexact H1
    isplitl [H2]; · iexact H2
    isplitl [H3]; · iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (coverCarry_sum c _ _ _ _ _ _ _ _ _ _ _ _ _ _)
    unfold owns; iexists _; isplitr
    swap; · iexact H3
    ipureintro; exact View.read_writes_of_cover _ _ _ _ _ (coverCarry_cnt c _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main ends, every array of the region at what the
    proof data gives after the last point and every other unscoped buffer as the later host lines leave it. -/
theorem run_main : θ_run defs (onTc (τ := τ) (main (F := F))) (s₀ m ρ)
    (Pipeline.FramePost cfgs (dats m) 0 (Pipeline.afterTail₀ cfgs (dats m) 0 (entry m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := entry m) (opss := tailOps) (hsub := tail_sub) (hfresh := tail_fresh) (hkeep := tail_keeps)
    (hmain := main_around m Variants.none) (hA := A_eq m) (hΦ := fun _ _ => rfl)

/-- The frame claim, at any instance of the floats. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.Kernel.Around

end
-- ==== Proof.KIAround.lean ====
/-
  What @main of the program does around its one kernel region, and the frame claim read off a frame run.

  Before the region one host line reshapes the label vector into a 1 × 262144 row; after it eleven
  stretches of host lines (one hundred in all) turn the region's two result arrays into the scalar
  result. None of those lines writes an argument array, the reshaped labels, or a result array of the
  region, and none allocates; so the region finds the arguments as launched, and the arguments end as
  launched. The grid has 2 × 16 points; at a point whose inner coordinate is 0 the body first clears
  its two accumulator blocks, which in the linear order of the points is "t is a multiple of 16".
-/
import proofs.«409649_j73005854097881_3_alg».proof.Proof.Gen.KernelIdeal.Launch
import proofs.«409649_j73005854097881_3_alg».proof.Proof.Gen.KernelIdeal.Skeleton
import proofs.«409649_j73005854097881_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Around

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines before and after the region -/

/-- The buffers of core c when the region is entered: the launch contents after the one reshape. -/
abbrev entry (c : Dev nD) : Valuation τ sig (Elt F) := StableHlo.after (List.flatten [hostOps0]) (fun b => m (c, b))
/-- The same, read at one buffer of the TensorCore. -/
abbrev entryAt (c : Dev nD) (b : Ref sig .tc) : Buf (Elt F) ((c : Thread nD τ).loc b) := entry m c (Proc.devRef .tc b)

/-- The eleven stretches of host lines that follow the region, in order. -/
abbrev tailOps : List (List (HloOp τ sig (Elt F))) :=
  [hostOps1, hostOps1_1, hostOps1_2, hostOps1_3, hostOps1_4, hostOps1_5, hostOps1_6, hostOps1_7, hostOps1_8, hostOps1_9, hostOps1_10]

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor
theorem hostOps1_8_fresh : (hostOps1_8 : List (HloOp τ sig (Elt F))).Forall fun op => op.fresh = ∅ := by
  simp only [List.Forall]; repeat' constructor
theorem hostOps1_9_fresh : (hostOps1_9 : List (HloOp τ sig (Elt F))).Forall fun op => op.fresh = ∅ := by
  simp only [List.Forall]; repeat' constructor
theorem hostOps1_10_fresh : (hostOps1_10 : List (HloOp τ sig (Elt F))).Forall fun op => op.fresh = ∅ := by
  simp only [List.Forall]; repeat' constructor

/-- The buffers no host line may write: the five arguments, the reshaped labels, the region's two results. -/
abbrev kept : List (Ref sig .tc) := [main_arg0, main_arg1, main_arg2, main_arg3, main_arg4, main_v0, main_v1_0, main_v1_1]

theorem hostOps1_keeps : (hostOps1 : List (HloOp τ sig (Elt F))).Forall fun op => ∀ b ∈ (kept : List (Ref sig .tc)), Proc.devRef .tc b ∉ op.writes := by
  simp only [hostOps1, kept, List.Forall, List.forall_mem_cons, List.not_mem_nil, false_imp_iff, implies_true, and_true, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_1_keeps : (hostOps1_1 : List (HloOp τ sig (Elt F))).Forall fun op => ∀ b ∈ (kept : List (Ref sig .tc)), Proc.devRef .tc b ∉ op.writes := by
  simp only [hostOps1_1, kept, List.Forall, List.forall_mem_cons, List.not_mem_nil, false_imp_iff, implies_true, and_true, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_2_keeps : (hostOps1_2 : List (HloOp τ sig (Elt F))).Forall fun op => ∀ b ∈ (kept : List (Ref sig .tc)), Proc.devRef .tc b ∉ op.writes := by
  simp only [hostOps1_2, kept, List.Forall, List.forall_mem_cons, List.not_mem_nil, false_imp_iff, implies_true, and_true, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_3_keeps : (hostOps1_3 : List (HloOp τ sig (Elt F))).Forall fun op => ∀ b ∈ (kept : List (Ref sig .tc)), Proc.devRef .tc b ∉ op.writes := by
  simp only [hostOps1_3, kept, List.Forall, List.forall_mem_cons, List.not_mem_nil, false_imp_iff, implies_true, and_true, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_4_keeps : (hostOps1_4 : List (HloOp τ sig (Elt F))).Forall fun op => ∀ b ∈ (kept : List (Ref sig .tc)), Proc.devRef .tc b ∉ op.writes := by
  simp only [hostOps1_4, kept, List.Forall, List.forall_mem_cons, List.not_mem_nil, false_imp_iff, implies_true, and_true, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_5_keeps : (hostOps1_5 : List (HloOp τ sig (Elt F))).Forall fun op => ∀ b ∈ (kept : List (Ref sig .tc)), Proc.devRef .tc b ∉ op.writes := by
  simp only [hostOps1_5, kept, List.Forall, List.forall_mem_cons, List.not_mem_nil, false_imp_iff, implies_true, and_true, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_6_keeps : (hostOps1_6 : List (HloOp τ sig (Elt F))).Forall fun op => ∀ b ∈ (kept : List (Ref sig .tc)), Proc.devRef .tc b ∉ op.writes := by
  simp only [hostOps1_6, kept, List.Forall, List.forall_mem_cons, List.not_mem_nil, false_imp_iff, implies_true, and_true, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_7_keeps : (hostOps1_7 : List (HloOp τ sig (Elt F))).Forall fun op => ∀ b ∈ (kept : List (Ref sig .tc)), Proc.devRef .tc b ∉ op.writes := by
  simp only [hostOps1_7, kept, List.Forall, List.forall_mem_cons, List.not_mem_nil, false_imp_iff, implies_true, and_true, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_8_keeps : (hostOps1_8 : List (HloOp τ sig (Elt F))).Forall fun op => ∀ b ∈ (kept : List (Ref sig .tc)), Proc.devRef .tc b ∉ op.writes := by
  simp only [hostOps1_8, kept, List.Forall, List.forall_mem_cons, List.not_mem_nil, false_imp_iff, implies_true, and_true, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_9_keeps : (hostOps1_9 : List (HloOp τ sig (Elt F))).Forall fun op => ∀ b ∈ (kept : List (Ref sig .tc)), Proc.devRef .tc b ∉ op.writes := by
  simp only [hostOps1_9, kept, List.Forall, List.forall_mem_cons, List.not_mem_nil, false_imp_iff, implies_true, and_true, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem hostOps1_10_keeps : (hostOps1_10 : List (HloOp τ sig (Elt F))).Forall fun op => ∀ b ∈ (kept : List (Ref sig .tc)), Proc.devRef .tc b ∉ op.writes := by
  simp only [hostOps1_10, kept, List.Forall, List.forall_mem_cons, List.not_mem_nil, false_imp_iff, implies_true, and_true, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)

/-- Each stretch after the region has the property every one of them was shown to have. -/
theorem forall_tail {p : HloOp τ sig (Elt F) → Prop}
    (h0 : (hostOps1 : List (HloOp τ sig (Elt F))).Forall p)
    (h1 : (hostOps1_1 : List (HloOp τ sig (Elt F))).Forall p)
    (h2 : (hostOps1_2 : List (HloOp τ sig (Elt F))).Forall p)
    (h3 : (hostOps1_3 : List (HloOp τ sig (Elt F))).Forall p)
    (h4 : (hostOps1_4 : List (HloOp τ sig (Elt F))).Forall p)
    (h5 : (hostOps1_5 : List (HloOp τ sig (Elt F))).Forall p)
    (h6 : (hostOps1_6 : List (HloOp τ sig (Elt F))).Forall p)
    (h7 : (hostOps1_7 : List (HloOp τ sig (Elt F))).Forall p)
    (h8 : (hostOps1_8 : List (HloOp τ sig (Elt F))).Forall p)
    (h9 : (hostOps1_9 : List (HloOp τ sig (Elt F))).Forall p)
    (h10 : (hostOps1_10 : List (HloOp τ sig (Elt F))).Forall p) :
    ∀ ops ∈ (tailOps : List (List (HloOp τ sig (Elt F)))), ∀ op ∈ ops, p op := by
  intro ops hops
  simp only [tailOps, List.mem_cons, List.mem_nil_iff, or_false] at hops
  rcases hops with rfl | rfl | rfl | rfl | rfl | rfl | rfl | rfl | rfl | rfl | rfl
  · exact List.forall_iff_forall_mem.mp h0
  · exact List.forall_iff_forall_mem.mp h1
  · exact List.forall_iff_forall_mem.mp h2
  · exact List.forall_iff_forall_mem.mp h3
  · exact List.forall_iff_forall_mem.mp h4
  · exact List.forall_iff_forall_mem.mp h5
  · exact List.forall_iff_forall_mem.mp h6
  · exact List.forall_iff_forall_mem.mp h7
  · exact List.forall_iff_forall_mem.mp h8
  · exact List.forall_iff_forall_mem.mp h9
  · exact List.forall_iff_forall_mem.mp h10

/-- @main is the reshape, the region, then the eleven stretches: it reduces to the region continued by them. -/
theorem main_around (𝒱₀ : Variants) : Pipeline.HMainK (Ix := Unit) (Name := ℕ) (U := UR sig nD τ) (Lvl := ℕ) cfgs 0 defs₀ 𝒱₀ m (main (F := F)) (entryAt m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

/-- The later lines touch only unscoped buffers of the TensorCore: the region's arrays and the buffers that bypass it. -/
theorem tail_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  exact Pipeline.sub_ucRefs op (forall_tail (p := fun op => op.bufs ⊆ StableHlo.tcRefs τ sig)
    hostOps1_sub hostOps1_1_sub hostOps1_2_sub hostOps1_3_sub hostOps1_4_sub hostOps1_5_sub hostOps1_6_sub hostOps1_7_sub hostOps1_8_sub hostOps1_9_sub hostOps1_10_sub ops hops op hop)

/-- They allocate nothing. -/
theorem tail_fresh : ∀ ops ∈ (tailOps : List (List (HloOp τ sig (Elt F)))), ∀ op ∈ ops, op.fresh = ∅ :=
  forall_tail hostOps1_fresh hostOps1_1_fresh hostOps1_2_fresh hostOps1_3_fresh hostOps1_4_fresh hostOps1_5_fresh hostOps1_6_fresh hostOps1_7_fresh hostOps1_8_fresh hostOps1_9_fresh hostOps1_10_fresh

/-- They write none of the kept buffers. -/
theorem tail_keeps_all : ∀ ops ∈ (tailOps : List (List (HloOp τ sig (Elt F)))), ∀ op ∈ ops,
    ∀ b ∈ (kept : List (Ref sig .tc)), Proc.devRef .tc b ∉ op.writes :=
  forall_tail hostOps1_keeps hostOps1_1_keeps hostOps1_2_keeps hostOps1_3_keeps hostOps1_4_keeps hostOps1_5_keeps hostOps1_6_keeps hostOps1_7_keeps hostOps1_8_keeps hostOps1_9_keeps hostOps1_10_keeps

/-- The four arrays the region's windows stage are kept buffers. -/
theorem arr_mem_kept : ∀ w : Fin 4, Pipeline.arrRef spec0 w ∈ (kept : List (Ref sig .tc)) := by decide

/-- So the later lines write no array of the region. -/
theorem tail_keeps : ∀ ops ∈ (tailOps : List (List (HloOp τ sig (Elt F)))), ∀ op ∈ ops,
    ∀ w, Proc.devRef .tc (Pipeline.arrRef spec0 w) ∉ op.writes :=
  fun ops hops op hop w => tail_keeps_all ops hops op hop _ (arr_mem_kept w)

/-- A kept buffer other than the reshaped labels is found by the region as launched. -/
theorem entry_of_kept (c : Dev nD) (b : Ref sig .tc) (hb : b ≠ main_v0) :
    entryAt m c b = m ((c : Thread nD τ).loc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.TRef.nullary, StableHlo.TRef.unary, StableHlo.TRef.binary, StableHlo.TRef.ternary, StableHlo.nullary_writes, StableHlo.unary_writes, StableHlo.binary_writes, StableHlo.ternary_writes, StableHlo.quaternary_writes, StableHlo.reshape_writes, StableHlo.binaryIndexed_writes, Finset.mem_singleton]
    exact StableHlo.devRef_ne_of_ne hb))

/-- A kept buffer that is no array of the region ends, after the later lines, as the region found it. -/
theorem exit_of_kept (dats : (p : Fin _) → (c : Dev nD) → Dat τ (Elt F) Unit ℕ (UR sig nD τ) ℕ (cfgs p) c) (c : Dev nD)
    (b : Ref sig .tc) (hb : b ∈ (kept : List (Ref sig .tc))) (hne : ∀ w, Pipeline.arrRef spec0 w ≠ b) :
    Pipeline.afterTail₀ cfgs dats 0 (entry m) tailOps c b = entryAt m c b := by
  unfold Pipeline.afterTail₀
  rw [StableHlo.after_of_forall_not_mem (b := Proc.devRef .tc b) _ _ (fun op hop => by
      obtain ⟨ops, hops, hop'⟩ := List.mem_flatten.mp hop
      exact tail_keeps_all ops hops op hop' b hb),
    Pipeline.withArrays_of_ne _ c (entry m c) _ b hne]

/-! ## The windows' blocks -/

/-- Window w's block at point t, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (entryAt m c (Pipeline.arrRef spec0 w))

/-- The staging buffer of the rows holds the point's block of rows at every point, for any proof data over the entry
    contents whose body leaves that block in place. -/
theorem rows_before_of {c : Dev nD} (dat : Dat τ (Elt F) Unit ℕ (UR sig nD τ) ℕ cfg0 c) (hA : dat.A 0 = entryAt m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- Likewise the staging buffer of the labels holds the point's block of labels. -/
theorem labels_before_of {c : Dev nD} (dat : Dat τ (Elt F) Unit ℕ (UR sig nD τ) ℕ cfg0 c) (hA : dat.A 1 = entryAt m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-! ## The frame claim from a frame run -/

theorem mem_rest (b : Ref sig .tc) (h1 : b.isScoped = false := by decide) (h2 : ∀ w, Pipeline.arrRef spec0 w ≠ b := by decide) :
    b ∈ Pipeline.restRefs sig spec0 := Pipeline.mem_restRefs_of b h1 h2

/-- A run to the frame post, read at the five argument arrays: the rows are a staged input, which the region writes back
    unchanged; the other four bypass the region and no later line writes them. -/
theorem frame_of (dats : (p : Fin 1) → (c : Dev nD) → Dat τ (Elt F) Unit ℕ (UR sig nD τ) ℕ (cfgs p) c)
    (hA : ∀ c w, (dats 0 c).A w = entryAt m c (Pipeline.arrRef spec0 w))
    (h : θ_run defs (onTc (τ := τ) (main (F := F))) (s₀ m ρ) (Pipeline.FramePost cfgs dats 0 (Pipeline.afterTail₀ cfgs dats 0 (entry m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).1 0).trans (((dats 0 c).arrAt_in 0 rfl _).trans ((hA c 0).trans (entry_of_kept m c main_arg0 (by decide)))),
     ((h c).2 main_arg1 (mem_rest main_arg1)).trans ((exit_of_kept m dats c main_arg1 (by decide) (by decide)).trans (entry_of_kept m c main_arg1 (by decide))),
     ((h c).2 main_arg2 (mem_rest main_arg2)).trans ((exit_of_kept m dats c main_arg2 (by decide) (by decide)).trans (entry_of_kept m c main_arg2 (by decide))),
     ((h c).2 main_arg3 (mem_rest main_arg3)).trans ((exit_of_kept m dats c main_arg3 (by decide) (by decide)).trans (entry_of_kept m c main_arg3 (by decide))),
     ((h c).2 main_arg4 (mem_rest main_arg4)).trans ((exit_of_kept m dats c main_arg4 (by decide) (by decide)).trans (entry_of_kept m c main_arg4 (by decide)))⟩) h

/-! ## The body's one branch -/

/-- The condition of the body's conditional, from the grid coordinates: the inner coordinate is 0. -/
abbrev firstStep (i : grid0.Coords) : Prop := (Scalar.cmpi .ne (Scalar.extui (Scalar.cmpi .eq (BitVec.ofNat 32 (i 1).val) 0#32)) 0#32) = 1#1
/-- In the linear order of the 32 points it holds exactly at the multiples of 16. -/
theorem firstStep_iff : ∀ t : Fin cfg0.N, firstStep (grid0.coords t) ↔ t.val % 16 = 0 :=
  (by decide +kernel : ∀ t : Fin grid0.N, firstStep (grid0.coords t) ↔ t.val % 16 = 0)

/-! ## The staging memrefs the body is called with -/

/-- One staging buffer of each result window, through which that window's contents are stated. -/
abbrev sumView : View sig .tc .vmem S1x128x512 .f32 := (Memref.whole cc0_stg2_0 : Memref sig .tc .vmem S1x128x512 .f32).view
abbrev cntView : View sig .tc .vmem S1x128x1 .f32 := (Memref.whole cc0_stg3_0 : Memref sig .tc .vmem S1x128x1 .f32).view

abbrev rowsBuf (t : Fin cfg0.N) : Memref sig .tc .vmem S8192x512 .f32 := win0_0.stage (cfg0.slots t 0)
abbrev rowsBuf_whole (t : Fin cfg0.N) : (rowsBuf t).IsWhole := hstage0_0 ((cfg0.slots t 0).cast nbuf0_0)
abbrev labelsBuf (t : Fin cfg0.N) : Memref sig .tc .vmem S1x8192 .i32 := win0_1.stage (cfg0.slots t 1)
abbrev labelsBuf_whole (t : Fin cfg0.N) : (labelsBuf t).IsWhole := hstage0_1 ((cfg0.slots t 1).cast nbuf0_1)
abbrev sumBuf (t : Fin cfg0.N) : Memref sig .tc .vmem S1x128x512 .f32 := win0_2.stage (cfg0.slots t 2)
abbrev sumBuf_whole (t : Fin cfg0.N) : (sumBuf t).IsWhole := hstage0_2 ((cfg0.slots t 2).cast nbuf0_2)
abbrev cntBuf (t : Fin cfg0.N) : Memref sig .tc .vmem S1x128x1 .f32 := win0_3.stage (cfg0.slots t 3)
abbrev cntBuf_whole (t : Fin cfg0.N) : (cntBuf t).IsWhole := hstage0_3 ((cfg0.slots t 3).cast nbuf0_3)

end Cert.KernelIdeal.Around

end
-- ==== Proof.KIRunReset.lean ====
/-
  The kernel body run once, at a grid point whose inner coordinate is 0 (a core's first step).

  On whole staging memrefs, the rows' and the labels' at their contents and the two accumulator blocks at
  anything, the body runs to its end: it overwrites each accumulator block with zeros, reads the eight
  chunks of rows and labels, and stores into each accumulator block what it then holds plus the point's
  contribution. What each accumulator block ends with is recorded as the list of pieces the body's
  stores wrote, last first; the run itself finds those lists.
-/
import proofs.«409649_j73005854097881_3_alg».proof.Proof.KIAround

set_option maxRecDepth 16384

noncomputable section

namespace Cert.KernelIdeal.Around

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The pieces the body's stores leave in the two accumulator blocks at a first step, with the proof that the body runs
    to the continuation holding the inputs' buffers as they were and each accumulator block with its pieces written. -/
noncomputable def runReset (c : Dev nD) (i : grid0.Coords)
    (arg2 : Memref sig .tc .vmem S8192x512 .f32) (harg2 : arg2.IsWhole) (arg3 : Memref sig .tc .vmem S1x8192 .i32) (harg3 : arg3.IsWhole)
    (arg4 : Memref sig .tc .vmem S1x128x512 .f32) (harg4 : arg4.IsWhole) (arg5 : Memref sig .tc .vmem S1x128x1 .f32) (harg5 : arg5.IsWhole)
    (hc0 : firstStep i) (x0 : Vec F S8192x512 .f32) (x1 : Vec F S1x8192 .i32) :
    Σ' (Ls : List (View.Piece (Elt F) S1x128x512 .f32)), { Lc : List (View.Piece (Elt F) S1x128x1 .f32) //
      ∀ (E : Set ℕ) (K : PUnit → sProp 𝕄),
        iprop(owns (c : Thread nD τ) arg2 fullShare x0 ∗ owns (c : Thread nD τ) arg3 fullShare x1
            ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f Ls)
                ∗ (∃ f, arg5.view.loc (c : Thread nD τ) ↦[arg5.view.set]{fullShare} arg5.view.writes (Elt F) f Lc)) -∗ K ⟨⟩))
          ⊢ wp frame (wpE (defs₀ (F := F)) Variants.none c none) E (cc0__segment_kernel i arg2 harg2 arg3 harg3 arg4 harg4 arg5 harg5) K } := by
  refine ⟨?_, ?_, fun E K => ?run⟩
  case run =>
    simp only [cc0__segment_kernel_eq_skeleton]; unfold cc0__segment_kernel_skel
    unfold owns
    iintro ⟨⟨%f0, %hf0, H0⟩, ⟨%f1, %hf1, H1⟩, ⟨%d2, %f2, -, H2⟩, ⟨%d3, %f3, -, H3⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; iexact H3

end Cert.KernelIdeal.Around

end
-- ==== Proof.KIRunCarry.lean ====
/-
  The kernel body run once, at a grid point whose inner coordinate is not 0 (a later step of a core).

  On whole staging memrefs, the rows' and the labels' at their contents and the two accumulator blocks at the
  contents the step before left, the body runs to its end: it skips the clearing branch, reads the eight
  chunks, and stores into each accumulator block what it held plus the point's contribution. The pieces its
  stores wrote are found by the run.
-/
import proofs.«409649_j73005854097881_3_alg».proof.Proof.KIRunReset

set_option maxRecDepth 16384

noncomputable section

namespace Cert.KernelIdeal.Around

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The pieces the body's stores leave in the two accumulator blocks at a later step, over the running contents
    `xs`, `xc` of the two blocks, with the proof that the body runs to the continuation. -/
noncomputable def runCarry (c : Dev nD) (i : grid0.Coords)
    (arg2 : Memref sig .tc .vmem S8192x512 .f32) (harg2 : arg2.IsWhole) (arg3 : Memref sig .tc .vmem S1x8192 .i32) (harg3 : arg3.IsWhole)
    (arg4 : Memref sig .tc .vmem S1x128x512 .f32) (harg4 : arg4.IsWhole) (arg5 : Memref sig .tc .vmem S1x128x1 .f32) (harg5 : arg5.IsWhole)
    (hc0 : ¬firstStep i) (x0 : Vec F S8192x512 .f32) (x1 : Vec F S1x8192 .i32)
    (xs : Vec F S1x128x512 .f32) (xc : Vec F S1x128x1 .f32) :
    Σ' (Ls : List (View.Piece (Elt F) S1x128x512 .f32)), { Lc : List (View.Piece (Elt F) S1x128x1 .f32) //
      ∀ (E : Set ℕ) (K : PUnit → sProp 𝕄),
        iprop(owns (c : Thread nD τ) arg2 fullShare x0 ∗ owns (c : Thread nD τ) arg3 fullShare x1
            ∗ owns (c : Thread nD τ) arg4 fullShare xs ∗ owns (c : Thread nD τ) arg5 fullShare xc
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f Ls)
                ∗ (∃ f, arg5.view.loc (c : Thread nD τ) ↦[arg5.view.set]{fullShare} arg5.view.writes (Elt F) f Lc)) -∗ K ⟨⟩))
          ⊢ wp frame (wpE (defs₀ (F := F)) Variants.none c none) E (cc0__segment_kernel i arg2 harg2 arg3 harg3 arg4 harg4 arg5 harg5) K } := by
  refine ⟨?_, ?_, fun E K => ?run⟩
  case run =>
    simp only [cc0__segment_kernel_eq_skeleton]; unfold cc0__segment_kernel_skel
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1
    obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; iexact H3

end Cert.KernelIdeal.Around

end
-- ==== Proof.KIFrame.lean ====
/-
  The frame of the program: every weakly fair execution of @main ends, nothing faults, and the argument
  arrays end as launched — together with what every other buffer holds at the end.

  The kernel's two result windows are accumulators: each core's 16 steps share one block of each, cleared at
  the first step, added to at every step, written back after the last. What the two staging blocks hold after
  the body at point t is therefore defined by recursion on t: at a multiple of 16 what a first step leaves,
  otherwise what a later step leaves over the contents of point t - 1. With that as the proof data, the body
  meets its obligation at every point (by cases on "t is a multiple of 16"), and the launch theorem for a
  region followed by host lines gives the run.
-/
import proofs.«409649_j73005854097881_3_alg».proof.Proof.KIRunCarry

set_option maxRecDepth 16384

noncomputable section

namespace Cert.KernelIdeal.Around

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in the two accumulator blocks -/

/-- At a first step the pieces written into the block of sums tile it, so they cover it. -/
theorem coverReset_sum (c : Dev nD) (i : grid0.Coords)
    (arg2 : Memref sig .tc .vmem S8192x512 .f32) (harg2 : arg2.IsWhole) (arg3 : Memref sig .tc .vmem S1x8192 .i32) (harg3 : arg3.IsWhole)
    (arg4 : Memref sig .tc .vmem S1x128x512 .f32) (harg4 : arg4.IsWhole) (arg5 : Memref sig .tc .vmem S1x128x1 .f32) (harg5 : arg5.IsWhole)
    (hc0 : firstStep i) (x0 : Vec F S8192x512 .f32) (x1 : Vec F S1x8192 .i32) (y : S1x128x512.Idx) :
    ∃ pc ∈ (runReset c i arg2 harg2 arg3 harg3 arg4 harg4 arg5 harg5 hc0 x0 x1).1, y ∈ pc.1.set :=
  View.cover_of_tiledL (runReset c i arg2 harg2 arg3 harg3 arg4 harg4 arg5 harg5 hc0 x0 x1).1 S1x128x512.size (by sl_kernel_rfl) y

/-- Likewise the pieces written into the block of counts. -/
theorem coverReset_cnt (c : Dev nD) (i : grid0.Coords)
    (arg2 : Memref sig .tc .vmem S8192x512 .f32) (harg2 : arg2.IsWhole) (arg3 : Memref sig .tc .vmem S1x8192 .i32) (harg3 : arg3.IsWhole)
    (arg4 : Memref sig .tc .vmem S1x128x512 .f32) (harg4 : arg4.IsWhole) (arg5 : Memref sig .tc .vmem S1x128x1 .f32) (harg5 : arg5.IsWhole)
    (hc0 : firstStep i) (x0 : Vec F S8192x512 .f32) (x1 : Vec F S1x8192 .i32) (y : S1x128x1.Idx) :
    ∃ pc ∈ (runReset c i arg2 harg2 arg3 harg3 arg4 harg4 arg5 harg5 hc0 x0 x1).2.1, y ∈ pc.1.set :=
  View.cover_of_tiledL (runReset c i arg2 harg2 arg3 harg3 arg4 harg4 arg5 harg5 hc0 x0 x1).2.1 S1x128x1.size (by sl_kernel_rfl) y

/-- What a first step leaves in the block of sums: its pieces read back. -/
def sumReset (c : Dev nD) (i : grid0.Coords)
    (arg2 : Memref sig .tc .vmem S8192x512 .f32) (harg2 : arg2.IsWhole) (arg3 : Memref sig .tc .vmem S1x8192 .i32) (harg3 : arg3.IsWhole)
    (arg4 : Memref sig .tc .vmem S1x128x512 .f32) (harg4 : arg4.IsWhole) (arg5 : Memref sig .tc .vmem S1x128x1 .f32) (harg5 : arg5.IsWhole)
    (hc0 : firstStep i) (x0 : Vec F S8192x512 .f32) (x1 : Vec F S1x8192 .i32) : Vec F S1x128x512 .f32 :=
  sumView.read (Elt F) (sumView.writes (Elt F) sumView.junk (runReset c i arg2 harg2 arg3 harg3 arg4 harg4 arg5 harg5 hc0 x0 x1).1)

/-- What a first step leaves in the block of counts. -/
def cntReset (c : Dev nD) (i : grid0.Coords)
    (arg2 : Memref sig .tc .vmem S8192x512 .f32) (harg2 : arg2.IsWhole) (arg3 : Memref sig .tc .vmem S1x8192 .i32) (harg3 : arg3.IsWhole)
    (arg4 : Memref sig .tc .vmem S1x128x512 .f32) (harg4 : arg4.IsWhole) (arg5 : Memref sig .tc .vmem S1x128x1 .f32) (harg5 : arg5.IsWhole)
    (hc0 : firstStep i) (x0 : Vec F S8192x512 .f32) (x1 : Vec F S1x8192 .i32) : Vec F S1x128x1 .f32 :=
  cntView.read (Elt F) (cntView.writes (Elt F) cntView.junk (runReset c i arg2 harg2 arg3 harg3 arg4 harg4 arg5 harg5 hc0 x0 x1).2.1)

theorem coverCarry_sum (c : Dev nD) (i : grid0.Coords)
    (arg2 : Memref sig .tc .vmem S8192x512 .f32) (harg2 : arg2.IsWhole) (arg3 : Memref sig .tc .vmem S1x8192 .i32) (harg3 : arg3.IsWhole)
    (arg4 : Memref sig .tc .vmem S1x128x512 .f32) (harg4 : arg4.IsWhole) (arg5 : Memref sig .tc .vmem S1x128x1 .f32) (harg5 : arg5.IsWhole)
    (hc0 : ¬firstStep i) (x0 : Vec F S8192x512 .f32) (x1 : Vec F S1x8192 .i32) (xs : Vec F S1x128x512 .f32) (xc : Vec F S1x128x1 .f32) (y : S1x128x512.Idx) :
    ∃ pc ∈ (runCarry c i arg2 harg2 arg3 harg3 arg4 harg4 arg5 harg5 hc0 x0 x1 xs xc).1, y ∈ pc.1.set :=
  View.cover_of_tiledL (runCarry c i arg2 harg2 arg3 harg3 arg4 harg4 arg5 harg5 hc0 x0 x1 xs xc).1 S1x128x512.size (by sl_kernel_rfl) y

theorem coverCarry_cnt (c : Dev nD) (i : grid0.Coords)
    (arg2 : Memref sig .tc .vmem S8192x512 .f32) (harg2 : arg2.IsWhole) (arg3 : Memref sig .tc .vmem S1x8192 .i32) (harg3 : arg3.IsWhole)
    (arg4 : Memref sig .tc .vmem S1x128x512 .f32) (harg4 : arg4.IsWhole) (arg5 : Memref sig .tc .vmem S1x128x1 .f32) (harg5 : arg5.IsWhole)
    (hc0 : ¬firstStep i) (x0 : Vec F S8192x512 .f32) (x1 : Vec F S1x8192 .i32) (xs : Vec F S1x128x512 .f32) (xc : Vec F S1x128x1 .f32) (y : S1x128x1.Idx) :
    ∃ pc ∈ (runCarry c i arg2 harg2 arg3 harg3 arg4 harg4 arg5 harg5 hc0 x0 x1 xs xc).2.1, y ∈ pc.1.set :=
  View.cover_of_tiledL (runCarry c i arg2 harg2 arg3 harg3 arg4 harg4 arg5 harg5 hc0 x0 x1 xs xc).2.1 S1x128x1.size (by sl_kernel_rfl) y

/-- What a later step leaves in the block of sums, over the running contents. -/
def sumCarry (c : Dev nD) (i : grid0.Coords)
    (arg2 : Memref sig .tc .vmem S8192x512 .f32) (harg2 : arg2.IsWhole) (arg3 : Memref sig .tc .vmem S1x8192 .i32) (harg3 : arg3.IsWhole)
    (arg4 : Memref sig .tc .vmem S1x128x512 .f32) (harg4 : arg4.IsWhole) (arg5 : Memref sig .tc .vmem S1x128x1 .f32) (harg5 : arg5.IsWhole)
    (hc0 : ¬firstStep i) (x0 : Vec F S8192x512 .f32) (x1 : Vec F S1x8192 .i32) (xs : Vec F S1x128x512 .f32) (xc : Vec F S1x128x1 .f32) : Vec F S1x128x512 .f32 :=
  sumView.read (Elt F) (sumView.writes (Elt F) sumView.junk (runCarry c i arg2 harg2 arg3 harg3 arg4 harg4 arg5 harg5 hc0 x0 x1 xs xc).1)

/-- What a later step leaves in the block of counts, over the running contents. -/
def cntCarry (c : Dev nD) (i : grid0.Coords)
    (arg2 : Memref sig .tc .vmem S8192x512 .f32) (harg2 : arg2.IsWhole) (arg3 : Memref sig .tc .vmem S1x8192 .i32) (harg3 : arg3.IsWhole)
    (arg4 : Memref sig .tc .vmem S1x128x512 .f32) (harg4 : arg4.IsWhole) (arg5 : Memref sig .tc .vmem S1x128x1 .f32) (harg5 : arg5.IsWhole)
    (hc0 : ¬firstStep i) (x0 : Vec F S8192x512 .f32) (x1 : Vec F S1x8192 .i32) (xs : Vec F S1x128x512 .f32) (xc : Vec F S1x128x1 .f32) : Vec F S1x128x1 .f32 :=
  cntView.read (Elt F) (cntView.writes (Elt F) cntView.junk (runCarry c i arg2 harg2 arg3 harg3 arg4 harg4 arg5 harg5 hc0 x0 x1 xs xc).2.1)

/-! ## The accumulation, point by point -/

/-- What the two accumulator blocks hold after the body at point n: at a multiple of 16 what a first step leaves of
    the point's blocks of rows and labels; otherwise what a later step leaves over the contents after point n - 1. -/
def accAt (c : Dev nD) : (n : ℕ) → n < cfg0.N → Vec F S1x128x512 .f32 × Vec F S1x128x1 .f32
  | 0, hn =>
    (sumReset c (grid0.coords ⟨0, hn⟩) (rowsBuf ⟨0, hn⟩) (rowsBuf_whole ⟨0, hn⟩) (labelsBuf ⟨0, hn⟩) (labelsBuf_whole ⟨0, hn⟩) (sumBuf ⟨0, hn⟩) (sumBuf_whole ⟨0, hn⟩) (cntBuf ⟨0, hn⟩) (cntBuf_whole ⟨0, hn⟩) ((firstStep_iff ⟨0, hn⟩).mpr (Nat.zero_mod _)) (blockAt m c 0 ⟨0, hn⟩) (blockAt m c 1 ⟨0, hn⟩),
     cntReset c (grid0.coords ⟨0, hn⟩) (rowsBuf ⟨0, hn⟩) (rowsBuf_whole ⟨0, hn⟩) (labelsBuf ⟨0, hn⟩) (labelsBuf_whole ⟨0, hn⟩) (sumBuf ⟨0, hn⟩) (sumBuf_whole ⟨0, hn⟩) (cntBuf ⟨0, hn⟩) (cntBuf_whole ⟨0, hn⟩) ((firstStep_iff ⟨0, hn⟩).mpr (Nat.zero_mod _)) (blockAt m c 0 ⟨0, hn⟩) (blockAt m c 1 ⟨0, hn⟩))
  | n + 1, hn =>
    if h0 : (n + 1) % 16 = 0 then
      (sumReset c (grid0.coords ⟨n + 1, hn⟩) (rowsBuf ⟨n + 1, hn⟩) (rowsBuf_whole ⟨n + 1, hn⟩) (labelsBuf ⟨n + 1, hn⟩) (labelsBuf_whole ⟨n + 1, hn⟩) (sumBuf ⟨n + 1, hn⟩) (sumBuf_whole ⟨n + 1, hn⟩) (cntBuf ⟨n + 1, hn⟩) (cntBuf_whole ⟨n + 1, hn⟩) ((firstStep_iff ⟨n + 1, hn⟩).mpr h0) (blockAt m c 0 ⟨n + 1, hn⟩) (blockAt m c 1 ⟨n + 1, hn⟩),
       cntReset c (grid0.coords ⟨n + 1, hn⟩) (rowsBuf ⟨n + 1, hn⟩) (rowsBuf_whole ⟨n + 1, hn⟩) (labelsBuf ⟨n + 1, hn⟩) (labelsBuf_whole ⟨n + 1, hn⟩) (sumBuf ⟨n + 1, hn⟩) (sumBuf_whole ⟨n + 1, hn⟩) (cntBuf ⟨n + 1, hn⟩) (cntBuf_whole ⟨n + 1, hn⟩) ((firstStep_iff ⟨n + 1, hn⟩).mpr h0) (blockAt m c 0 ⟨n + 1, hn⟩) (blockAt m c 1 ⟨n + 1, hn⟩))
    else
      (sumCarry c (grid0.coords ⟨n + 1, hn⟩) (rowsBuf ⟨n + 1, hn⟩) (rowsBuf_whole ⟨n + 1, hn⟩) (labelsBuf ⟨n + 1, hn⟩) (labelsBuf_whole ⟨n + 1, hn⟩) (sumBuf ⟨n + 1, hn⟩) (sumBuf_whole ⟨n + 1, hn⟩) (cntBuf ⟨n + 1, hn⟩) (cntBuf_whole ⟨n + 1, hn⟩) (fun h => h0 ((firstStep_iff ⟨n + 1, hn⟩).mp h)) (blockAt m c 0 ⟨n + 1, hn⟩) (blockAt m c 1 ⟨n + 1, hn⟩)
          (accAt c n (Nat.lt_of_succ_lt hn)).1 (accAt c n (Nat.lt_of_succ_lt hn)).2,
       cntCarry c (grid0.coords ⟨n + 1, hn⟩) (rowsBuf ⟨n + 1, hn⟩) (rowsBuf_whole ⟨n + 1, hn⟩) (labelsBuf ⟨n + 1, hn⟩) (labelsBuf_whole ⟨n + 1, hn⟩) (sumBuf ⟨n + 1, hn⟩) (sumBuf_whole ⟨n + 1, hn⟩) (cntBuf ⟨n + 1, hn⟩) (cntBuf_whole ⟨n + 1, hn⟩) (fun h => h0 ((firstStep_iff ⟨n + 1, hn⟩).mp h)) (blockAt m c 0 ⟨n + 1, hn⟩) (blockAt m c 1 ⟨n + 1, hn⟩)
          (accAt c n (Nat.lt_of_succ_lt hn)).1 (accAt c n (Nat.lt_of_succ_lt hn)).2)

/-- At a multiple of 16: the first step's contents. -/
theorem accAt_reset (c : Dev nD) (t : Fin cfg0.N) (h0 : t.val % 16 = 0) :
    accAt m c t.val t.isLt =
      (sumReset c (grid0.coords t) (rowsBuf t) (rowsBuf_whole t) (labelsBuf t) (labelsBuf_whole t) (sumBuf t) (sumBuf_whole t) (cntBuf t) (cntBuf_whole t) ((firstStep_iff t).mpr h0) (blockAt m c 0 t) (blockAt m c 1 t),
       cntReset c (grid0.coords t) (rowsBuf t) (rowsBuf_whole t) (labelsBuf t) (labelsBuf_whole t) (sumBuf t) (sumBuf_whole t) (cntBuf t) (cntBuf_whole t) ((firstStep_iff t).mpr h0) (blockAt m c 0 t) (blockAt m c 1 t)) := by
  obtain ⟨n, hn⟩ := t
  cases n with
  | zero => exact rfl
  | succ n => exact (dif_pos h0).trans rfl

/-- Elsewhere: the later step's contents over what the point before left. -/
theorem accAt_carry (c : Dev nD) (t : Fin cfg0.N) (h0 : ¬t.val % 16 = 0) :
    accAt m c t.val t.isLt =
      (sumCarry c (grid0.coords t) (rowsBuf t) (rowsBuf_whole t) (labelsBuf t) (labelsBuf_whole t) (sumBuf t) (sumBuf_whole t) (cntBuf t) (cntBuf_whole t) (fun h => h0 ((firstStep_iff t).mp h)) (blockAt m c 0 t) (blockAt m c 1 t)
          (accAt m c (t.val - 1) (Nat.lt_of_le_of_lt (Nat.sub_le _ _) t.isLt)).1 (accAt m c (t.val - 1) (Nat.lt_of_le_of_lt (Nat.sub_le _ _) t.isLt)).2,
       cntCarry c (grid0.coords t) (rowsBuf t) (rowsBuf_whole t) (labelsBuf t) (labelsBuf_whole t) (sumBuf t) (sumBuf_whole t) (cntBuf t) (cntBuf_whole t) (fun h => h0 ((firstStep_iff t).mp h)) (blockAt m c 0 t) (blockAt m c 1 t)
          (accAt m c (t.val - 1) (Nat.lt_of_le_of_lt (Nat.sub_le _ _) t.isLt)).1 (accAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The proof data -/

/-- On core c: the arrays as the region finds them; after the body at point t the two inputs' staging buffers at their
    blocks and the two accumulator blocks at `accAt`; the class's invariant; nothing owed; full shares. -/
def dats (_ : Fin 1) (c : Dev nD) : Dat τ (Elt F) Unit ℕ (UR sig nD τ) ℕ cfg0 c where
  A w := entryAt m c (Pipeline.arrRef spec0 w)
  after w t := match w with
    | ⟨0, _⟩ => blockAt m c 0 t
    | ⟨1, _⟩ => blockAt m c 1 t
    | ⟨2, _⟩ => (accAt m c t.val t.isLt).1
    | ⟨3, _⟩ => (accAt m c t.val t.isLt).2
  Φ _ := Pipeline.ΦA spec0 c
  q _ := fullShare
  owed _ := 0

theorem A_eq (c : Dev nD) (w : Fin cfg0.W) : (dats m 0 c).A w = entryAt m c (Pipeline.arrRef spec0 w) := by
  dsimp only [dats]

theorem after_rows (c : Dev nD) (t : Fin cfg0.N) : (dats m 0 c).after 0 t = blockAt m c 0 t := by dsimp only [dats]
theorem after_labels (c : Dev nD) (t : Fin cfg0.N) : (dats m 0 c).after 1 t = blockAt m c 1 t := by dsimp only [dats]
theorem after_sum (c : Dev nD) (t : Fin cfg0.N) : (dats m 0 c).after 2 t = (accAt m c t.val t.isLt).1 := by dsimp only [dats]
theorem after_cnt (c : Dev nD) (t : Fin cfg0.N) : (dats m 0 c).after 3 t = (accAt m c t.val t.isLt).2 := by dsimp only [dats]

theorem rows_before (c : Dev nD) (t : Fin cfg0.N) (d) : (dats m 0 c).before 0 t d = blockAt m c 0 t :=
  rows_before_of m (dats m 0 c) (A_eq m c 0) (after_rows m c) t d
theorem labels_before (c : Dev nD) (t : Fin cfg0.N) (d) : (dats m 0 c).before 1 t d = blockAt m c 1 t :=
  labels_before_of m (dats m 0 c) (A_eq m c 1) (after_labels m c) t d

/-- Away from a multiple of 16 the block of sums holds what the body left at the point before: the point is not the
    first, and the block was not written back in between (that happens only after a core's last step). -/
theorem sum_before_carry (c : Dev nD) (t : Fin cfg0.N) (h0 : ¬t.val % 16 = 0) (d) :
    (dats m 0 c).before 2 t d = (accAt m c (t.val - 1) (Nat.lt_of_le_of_lt (Nat.sub_le _ _) t.isLt)).1 := by
  have hN : t.val < 32 := lt_of_lt_of_eq t.isLt (show cfg0.N = 32 from N_0)
  rw [Dat.before_out_kept _ 2 rfl t (by omega) (Bool.eq_false_iff.mpr fun h => by have := (flush0_2 _).mp h; dsimp only at this; omega)
    (fun _ => rfl) (fun _ _ => rfl)]
  dsimp only [dats]

theorem cnt_before_carry (c : Dev nD) (t : Fin cfg0.N) (h0 : ¬t.val % 16 = 0) (d) :
    (dats m 0 c).before 3 t d = (accAt m c (t.val - 1) (Nat.lt_of_le_of_lt (Nat.sub_le _ _) t.isLt)).2 := by
  have hN : t.val < 32 := lt_of_lt_of_eq t.isLt (show cfg0.N = 32 from N_0)
  rw [Dat.before_out_kept _ 3 rfl t (by omega) (Bool.eq_false_iff.mpr fun h => by have := (flush0_3 _).mp h; dsimp only at this; omega)
    (fun _ => rfl) (fun _ _ => rfl)]
  dsimp only [dats]

/-! ## The body obligation -/

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (rowsBuf t) fullShare ((dats m 0 c).before 0 t d))
    ∗ (∃ d, owns (c : Thread nD τ) (labelsBuf t) fullShare ((dats m 0 c).before 1 t d))
    ∗ (∃ d, owns (c : Thread nD τ) (sumBuf t) fullShare ((dats m 0 c).before 2 t d))
    ∗ (∃ d, owns (c : Thread nD τ) (cntBuf t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (rowsBuf t) fullShare ((dats m 0 c).after 0 t)
    ∗ owns (c : Thread nD τ) (labelsBuf t) fullShare ((dats m 0 c).after 1 t)
    ∗ owns (c : Thread nD τ) (sumBuf t) fullShare ((dats m 0 c).after 2 t)
    ∗ owns (c : Thread nD τ) (cntBuf t) fullShare ((dats m 0 c).after 3 t))

set_option maxHeartbeats 1600000 in
/-- The body at any point: the inputs' buffers hold their blocks; by cases on "t is a multiple of 16" the matching run
    applies, an accumulator block holding what the point before left where the run needs it; the invariant passes
    through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [rows_before, labels_before]
  rw [show (dats m 0 c).Φ t.succ = (dats m 0 c).Φ t.castSucc from rfl,
    show (dats m 0 c).owesAt () t.succ = (dats m 0 c).owesAt () t.castSucc from rfl,
    after_rows, after_labels, after_sum, after_cnt]
  have hN : t.val < 32 := lt_of_lt_of_eq t.isLt (show cfg0.N = 32 from N_0)
  by_cases h0 : t.val % 16 = 0
  · rw [accAt_reset m c t h0]
    dsimp only
    unfold sumReset cntReset
    iintro ⟨HΦ, Ho, ⟨%d0, H0⟩, ⟨%d1, H1⟩, ⟨%d2, H2⟩, ⟨%d3, H3⟩⟩
    iapply ((runReset c (grid0.coords t) _ _ _ _ _ _ _ _ ((firstStep_iff t).mpr h0) (blockAt m c 0 t) (blockAt m c 1 t)).2.2 Set.univ _)
    isplitl [H0]; · iexact H0
    isplitl [H1]; · iexact H1
    isplitl [H2]; · iexists _; iexact H2
    isplitl [H3]; · iexists _; iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (coverReset_sum c _ _ _ _ _ _ _ _ _ _ _ _)
    unfold owns; iexists _; isplitr
    swap; · iexact H3
    ipureintro; exact View.read_writes_of_cover _ _ _ _ _ (coverReset_cnt c _ _ _ _ _ _ _ _ _ _ _ _)
  · rw [accAt_carry m c t h0]
    dsimp only
    simp only [sum_before_carry m c t h0, cnt_before_carry m c t h0]
    unfold sumCarry cntCarry
    iintro ⟨HΦ, Ho, ⟨%d0, H0⟩, ⟨%d1, H1⟩, ⟨%d2, H2⟩, ⟨%d3, H3⟩⟩
    iapply ((runCarry c (grid0.coords t) _ _ _ _ _ _ _ _ (fun h => h0 ((firstStep_iff t).mp h)) (blockAt m c 0 t) (blockAt m c 1 t) _ _).2.2 Set.univ _)
    isplitl [H0]; · iexact H0
    isplitl [H1]; · iexact H1
    isplitl [H2]; · iexact H2
    isplitl [H3]; · iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (coverCarry_sum c _ _ _ _ _ _ _ _ _ _ _ _ _ _)
    unfold owns; iexists _; isplitr
    swap; · iexact H3
    ipureintro; exact View.read_writes_of_cover _ _ _ _ _ (coverCarry_cnt c _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main ends, every array of the region at what the
    proof data gives after the last point and every other unscoped buffer as the later host lines leave it. -/
theorem run_main : θ_run defs (onTc (τ := τ) (main (F := F))) (s₀ m ρ)
    (Pipeline.FramePost cfgs (dats m) 0 (Pipeline.afterTail₀ cfgs (dats m) 0 (entry m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := entry m) (opss := tailOps) (hsub := tail_sub) (hfresh := tail_fresh) (hkeep := tail_keeps)
    (hmain := main_around m Variants.none) (hA := A_eq m) (hΦ := fun _ _ => rfl)

/-- The frame claim, at any instance of the floats. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.KernelIdeal.Around

end
-- ==== Proof.KIPieces.lean ====
/-
  What one run of the kernel body leaves in its two accumulator blocks, as a value.

  The body reads its 8192 × 512 block of rows and its 1 × 8192 block of labels in eight chunks of 1024
  rows; the value it finally stores into the block of sums is one fixed pure function of the eight chunk
  pairs and of what the block held when that store's operand was read (the running contents at a later
  step, the freshly stored zeros at a first step), and likewise for the block of counts. This module
  names those two functions and shows that each case of the frame's recursion leaves exactly them.
-/
import proofs.«409649_j73005854097881_3_alg».proof.Proof.KIFrame
import Idealize.ShloMosaic.Lib.Pipeline.Value

set_option maxRecDepth 16384

noncomputable section

namespace Cert.KernelIdeal.Around

open Idealize.ShloMosaic Idealize.ShloMosaic.TcCoe Idealize.ShloMosaic.Tactic
open Idealize.SL Idealize.SL.Sem
open Idealize.ShloMosaic.Pipeline (Dat)
open Cert.KernelIdeal Cert.KernelIdeal.Gen

variable {F : FTy → Type} [FloatOps F]

theorem zero3 : (![0, 0, 0] : Fin 3 → Nat) = fun _ => 0 := funext fun a => by fin_cases a <;> rfl

/-- The class numbers 0 … 127 down a column: what every one-hot comparison in the body compares the labels with. -/
abbrev classColumn : IVec S128x1 32 := iota .tc S128x1 32 [0] iota_S128x1_d0_w32

/-- Chunk q of a block of rows: its rows 1024·q … 1024·q + 1023. -/
def rowsChunk (x0 : Vec F S8192x512 .f32) (q : Fin 8) : Vec F S1024x512 .f32 :=
  View.ld x0 (Rect.unit (s := S8192x512) ![1024 * q.val, 0] ![1024, 512] (fun a => by
    have := q.isLt
    match a with
    | ⟨0, _⟩ => show 1024 * q.val + 1024 ≤ 8192; omega
    | ⟨1, _⟩ => show 0 + 512 ≤ 512; omega))

/-- Chunk q of a block of labels: its entries 1024·q … 1024·q + 1023. -/
def labelsChunk (x1 : Vec F S1x8192 .i32) (q : Fin 8) : Vec F S1x1024 .i32 :=
  View.ld x1 (Rect.unit (s := S1x8192) ![0, 1024 * q.val] ![1, 1024] (fun a => by
    have := q.isLt
    match a with
    | ⟨0, _⟩ => show 0 + 1 ≤ 1; omega
    | ⟨1, _⟩ => show 1024 * q.val + 1024 ≤ 8192; omega))

/-- The value stored into the block of sums: a function of the eight chunk pairs and of the block's contents `prev`. -/
def pointSum (x : Fin 8 → Vec F S1024x512 .f32) (l : Fin 8 → Vec F S1x1024 .i32) (prev : Vec F S1x128x512 .f32) : Vec F S1x128x512 .f32 :=
  k0_pay22 classColumn (k0_pay16 classColumn (k0_pay12 classColumn (k0_pay5 (x 0) (l 0)) (k0_pay8 (x 1) (l 1)) (x 2) (l 2) (x 3) (l 3))
    (x 4) (l 4) (x 5) (l 5)) (x 6) (k0_pay18 (l 6)) (x 7) (l 7) prev

/-- The value stored into the block of counts: a function of the eight label chunks and of the block's contents `prev`. -/
def pointCnt (l : Fin 8 → Vec F S1x1024 .i32) (prev : Vec F S1x128x1 .f32) : Vec F S1x128x1 .f32 :=
  k0_pay1 (k0_pay21 classColumn (k0_pay17 classColumn (k0_pay13 classColumn (k0_pay6 (l 0)) (k0_pay9 (l 1)) (l 2) (l 3)) (l 4) (l 5))
    (k0_pay18 (l 6)) (l 7)) (k0_pay23 prev)

/-- A later step leaves, in the block of sums holding `xs`, the point's value over `xs`. -/
theorem sumCarry_eq (c : Dev nD) (i : grid0.Coords)
    (arg2 : Memref sig .tc .vmem S8192x512 .f32) (harg2 : arg2.IsWhole) (arg3 : Memref sig .tc .vmem S1x8192 .i32) (harg3 : arg3.IsWhole)
    (arg4 : Memref sig .tc .vmem S1x128x512 .f32) (harg4 : arg4.IsWhole) (arg5 : Memref sig .tc .vmem S1x128x1 .f32) (harg5 : arg5.IsWhole)
    (hc0 : ¬firstStep i) (x0 : Vec F S8192x512 .f32) (x1 : Vec F S1x8192 .i32) (xs : Vec F S1x128x512 .f32) (xc : Vec F S1x128x1 .f32) :
    sumCarry c i arg2 harg2 arg3 harg3 arg4 harg4 arg5 harg5 hc0 x0 x1 xs xc = pointSum (rowsChunk x0) (labelsChunk x1) xs := by
  unfold sumCarry
  rw [View.read_writes_eq_canon _ _ _ (coverCarry_sum c i arg2 harg2 arg3 harg3 arg4 harg4 arg5 harg5 hc0 x0 x1 xs xc)]
  unfold runCarry
  dsimp only
  sl_unfold_words
  rw [View.canon_unit_zero zero3]
  simp only [View.readAt_eq_ld, harg2.read_unread, harg3.read_unread, harg4.read_unread, harg5.read_unread, View.ld_unit_zero (S := S1x128x512) zero3]
  rfl

/-- A later step leaves, in the block of counts holding `xc`, the point's count value over `xc`. -/
theorem cntCarry_eq (c : Dev nD) (i : grid0.Coords)
    (arg2 : Memref sig .tc .vmem S8192x512 .f32) (harg2 : arg2.IsWhole) (arg3 : Memref sig .tc .vmem S1x8192 .i32) (harg3 : arg3.IsWhole)
    (arg4 : Memref sig .tc .vmem S1x128x512 .f32) (harg4 : arg4.IsWhole) (arg5 : Memref sig .tc .vmem S1x128x1 .f32) (harg5 : arg5.IsWhole)
    (hc0 : ¬firstStep i) (x0 : Vec F S8192x512 .f32) (x1 : Vec F S1x8192 .i32) (xs : Vec F S1x128x512 .f32) (xc : Vec F S1x128x1 .f32) :
    cntCarry c i arg2 harg2 arg3 harg3 arg4 harg4 arg5 harg5 hc0 x0 x1 xs xc = pointCnt (labelsChunk x1) xc := by
  unfold cntCarry
  rw [View.read_writes_eq_canon _ _ _ (coverCarry_cnt c i arg2 harg2 arg3 harg3 arg4 harg4 arg5 harg5 hc0 x0 x1 xs xc)]
  unfold runCarry
  dsimp only
  sl_unfold_words
  rw [View.canon_unit_zero zero3]
  simp only [View.readAt_eq_ld, harg2.read_unread, harg3.read_unread, harg4.read_unread, harg5.read_unread, View.ld_unit_zero (S := S1x128x1) zero3]
  rfl

/-- A first step stores zeros, reads them back, and leaves the point's value over the zeros. -/
theorem sumReset_eq (c : Dev nD) (i : grid0.Coords)
    (arg2 : Memref sig .tc .vmem S8192x512 .f32) (harg2 : arg2.IsWhole) (arg3 : Memref sig .tc .vmem S1x8192 .i32) (harg3 : arg3.IsWhole)
    (arg4 : Memref sig .tc .vmem S1x128x512 .f32) (harg4 : arg4.IsWhole) (arg5 : Memref sig .tc .vmem S1x128x1 .f32) (harg5 : arg5.IsWhole)
    (hc0 : firstStep i) (x0 : Vec F S8192x512 .f32) (x1 : Vec F S1x8192 .i32) :
    sumReset c i arg2 harg2 arg3 harg3 arg4 harg4 arg5 harg5 hc0 x0 x1 = pointSum (rowsChunk x0) (labelsChunk x1) k0_pay2 := by
  unfold sumReset
  rw [View.read_writes_eq_canon _ _ _ (coverReset_sum c i arg2 harg2 arg3 harg3 arg4 harg4 arg5 harg5 hc0 x0 x1)]
  unfold runReset
  dsimp only
  sl_unfold_words
  rw [View.canon_cons_unit_zero (S := S1x128x512) zero3, View.readCov_unit_zero (S := S1x128x512) _ zero3]
  simp only [View.readAt_eq_ld, harg2.read_unread, harg3.read_unread]
  rfl

/-- Likewise the block of counts at a first step. -/
theorem cntReset_eq (c : Dev nD) (i : grid0.Coords)
    (arg2 : Memref sig .tc .vmem S8192x512 .f32) (harg2 : arg2.IsWhole) (arg3 : Memref sig .tc .vmem S1x8192 .i32) (harg3 : arg3.IsWhole)
    (arg4 : Memref sig .tc .vmem S1x128x512 .f32) (harg4 : arg4.IsWhole) (arg5 : Memref sig .tc .vmem S1x128x1 .f32) (harg5 : arg5.IsWhole)
    (hc0 : firstStep i) (x0 : Vec F S8192x512 .f32) (x1 : Vec F S1x8192 .i32) :
    cntReset c i arg2 harg2 arg3 harg3 arg4 harg4 arg5 harg5 hc0 x0 x1 = pointCnt (labelsChunk x1) k0_pay3 := by
  unfold cntReset
  rw [View.read_writes_eq_canon _ _ _ (coverReset_cnt c i arg2 harg2 arg3 harg3 arg4 harg4 arg5 harg5 hc0 x0 x1)]
  unfold runReset
  dsimp only
  sl_unfold_words
  rw [View.canon_cons_unit_zero (S := S1x128x1) zero3, View.readCov_unit_zero (S := S1x128x1) _ zero3]
  simp only [View.readAt_eq_ld, harg2.read_unread, harg3.read_unread]
  rfl

end Cert.KernelIdeal.Around

end
-- ==== Proof.KIBlocks.lean ====
/-
  The kernel's input blocks, read at an index, are the argument arrays at row 8192·t + r.

  At the ideal instance. Point t of the 32 points stages rows 8192·t … 8192·t + 8191 of the 262144 × 512
  array of rows, and the same stretch of the labels, which @main first reshapes from a vector into a
  1 × 262144 row without moving any entry. Chunk q of a block is its rows 1024·q … 1024·q + 1023. So entry
  (k, d) of chunk q of point t's block of rows is entry (8192·t + 1024·q + k, d) of the argument array,
  and entry k of chunk q of its block of labels is label 8192·t + 1024·q + k.
-/
import proofs.«409649_j73005854097881_3_alg».proof.Proof.KIPieces
import Idealize.ShloMosaic.Lib.Pipeline.Value
import Idealize.ShloMosaic.Lib.StableHlo.Run
import Idealize.ShloMosaic.Lib.ValueIdx
import Idealize.ShloMosaic.Lib.ValueLayout

set_option maxRecDepth 16384

noncomputable section

namespace Cert.KernelIdeal.Around

open Idealize.ShloMosaic Idealize.ShloMosaic.TcCoe Idealize.ShloMosaic.Tactic
open Idealize.SL Idealize.SL.Sem
open Idealize.ShloMosaic.Pipeline (Dat)
open Cert.KernelIdeal Cert.KernelIdeal.Gen

variable {F : FTy → Type} [FloatOps F]

open Idealize.ShloMosaic.ValueIdx

variable (m : (ℓ : Loc nD τ sig) → Buf (Elt Ideal) ℓ)

/-- The array of rows and the vector of labels as launched, on core c. -/
abbrev rowsArr (c : Dev nD) : Vec Ideal S262144x512 .f32 := m ((c : Thread nD τ).loc main_arg0)
abbrev labelsArr (c : Dev nD) : Vec Ideal S262144 .i32 := m ((c : Thread nD τ).loc main_arg1)

/-- Point t's blocks, named at their literal types. -/
abbrev rowsBlock (c : Dev nD) (t : Fin cfg0.N) : Vec Ideal S8192x512 .f32 := blockAt m c 0 t
abbrev labelsBlock (c : Dev nD) (t : Fin cfg0.N) : Vec Ideal S1x8192 .i32 := blockAt m c 1 t

/-- The index maps over the grid: the rows' block index is (t, 0), the labels' (0, t). -/
theorem rows_index : ∀ t : Fin cfg0.N, win0_0.index t 0 = t.val ∧ win0_0.index t 1 = 0 :=
  (by decide +kernel : ∀ t : Fin grid0.N, win0_0.index t 0 = t.val ∧ win0_0.index t 1 = 0)
theorem labels_index : ∀ t : Fin cfg0.N, win0_1.index t 0 = 0 ∧ win0_1.index t 1 = t.val :=
  (by decide +kernel : ∀ t : Fin grid0.N, win0_1.index t 0 = 0 ∧ win0_1.index t 1 = t.val)

theorem point_lt (t : Fin cfg0.N) : t.val < 32 := lt_of_lt_of_eq t.isLt (show cfg0.N = 32 from N_0)

/-- Entry (r, d) of point t's block of rows is entry (8192·t + r, d) of the array. -/
theorem rowsBlock_apply (c : Dev nD) (t : Fin cfg0.N) (r : Fin 8192) (d : Fin 512) :
    rowsBlock m c t (ix2 r d) = rowsArr m c (ix2 ⟨8192 * t.val + r.val, by have := point_lt t; omega⟩ d) := by
  unfold rowsBlock blockAt
  rw [View.read_apply]
  show entryAt m c main_arg0 _ = _
  rw [entry_of_kept m c main_arg0 (by decide)]
  show m ((c : Thread nD τ).loc main_arg0) _ = m ((c : Thread nD τ).loc main_arg0) _
  congr 1
  funext a
  apply Fin.ext
  match a with
  | ⟨0, _⟩ => show win0_0.index t 0 * 8192 + 1 * r.val = 8192 * t.val + r.val; rw [(rows_index t).1]; omega
  | ⟨1, _⟩ => show win0_0.index t 1 * 512 + 1 * d.val = d.val; rw [(rows_index t).2]; omega

/-- What the region finds in the reshaped labels: the label vector laid out as one row. -/
theorem entry_labels (c : Dev nD) :
    (entryAt m c main_v0 : Vec Ideal S1x262144 .i32) = shapeCast S1x262144 (labelsArr m c) shapeCasts_S262144_S1x262144 := by
  show StableHlo.after hostOps0 (fun b => m (c, b)) (Proc.devRef .tc main_v0) = _
  after_results
  rfl

/-- Entry r of point t's block of labels is label 8192·t + r. -/
theorem labelsBlock_apply (c : Dev nD) (t : Fin cfg0.N) (r : Fin 8192) :
    labelsBlock m c t (ix2 (0 : Fin 1) r) = labelsArr m c (ix1 ⟨8192 * t.val + r.val, by have := point_lt t; omega⟩) := by
  unfold labelsBlock blockAt
  rw [View.read_apply]
  show entryAt m c main_v0 _ = _
  rw [entry_labels m c]
  refine shapeCast_apply _ _ _ _ ?_
  rw [Shape.rowMajor_val_one, Shape.rowMajor_val_two]
  show 8192 * t.val + r.val = (win0_1.index t 0 * 1 + 1 * 0) * 262144 + (win0_1.index t 1 * 8192 + 1 * r.val)
  rw [(labels_index t).1, (labels_index t).2]
  omega

/-- Entry (k, d) of chunk q of a block of rows is the block's entry (1024·q + k, d). -/
theorem rowsChunk_apply (x0 : Vec Ideal S8192x512 .f32) (q : Fin 8) (k : Fin 1024) (d : Fin 512) :
    rowsChunk x0 q (ix2 k d) = x0 (ix2 ⟨1024 * q.val + k.val, by have := q.isLt; omega⟩ d) := by
  unfold rowsChunk
  show x0 _ = x0 _
  congr 1
  funext a
  apply Fin.ext
  match a with
  | ⟨0, _⟩ => show 1024 * q.val + 1 * k.val = 1024 * q.val + k.val; omega
  | ⟨1, _⟩ => show 0 + 1 * d.val = d.val; omega

/-- Entry k of chunk q of a block of labels is the block's entry 1024·q + k. -/
theorem labelsChunk_apply (x1 : Vec Ideal S1x8192 .i32) (q : Fin 8) (k : Fin 1024) :
    labelsChunk x1 q (ix2 (0 : Fin 1) k) = x1 (ix2 (0 : Fin 1) ⟨1024 * q.val + k.val, by have := q.isLt; omega⟩) := by
  unfold labelsChunk
  show x1 _ = x1 _
  congr 1
  funext a
  apply Fin.ext
  match a with
  | ⟨0, _⟩ => show 0 + 1 * 0 = 0; omega
  | ⟨1, _⟩ => show 1024 * q.val + 1 * k.val = 1024 * q.val + k.val; omega

end Cert.KernelIdeal.Around

end
-- ==== Proof.Spec.lean ====
/-
  The mathematics both programs compute, stated once over literal shapes.

  For an array of 262144 rows of 512 extended reals and one 32-bit label per row:
  the CLASS SUM of class j is the sum of the rows whose label is the word j, the CLASS COUNT
  the number of such rows (a sum of ones), for the 100 classes j = 0 … 99; a row whose label
  is no such word contributes to no class. The GROUP SUM adds five consecutive classes
  (class 5·g + q for q = 0 … 4 belongs to group g), giving 20 groups.
  Everything here is a finite sum in the extended reals, where addition is commutative and
  associative without any finiteness assumption.
-/
import Idealize.ShloMosaic.PureOps.Ideal
import Idealize.ShloMosaic.Lib.ValueIdx

noncomputable section

open scoped BigOperators

namespace Cert.Spec

open Idealize.ShloMosaic Idealize.ShloMosaic.ValueIdx

abbrev SRows : Shape := ⟨2, ![262144, 512]⟩
abbrev SLabels : Shape := ⟨1, ![262144]⟩
abbrev SClassRows : Shape := ⟨2, ![100, 512]⟩
abbrev SClasses : Shape := ⟨1, ![100]⟩
abbrev SGroupRows : Shape := ⟨2, ![20, 512]⟩
abbrev SGroups : Shape := ⟨1, ![20]⟩

/-- Row n counts for class j when its label is the 32-bit word of j. -/
abbrev inClass (lab : SLabels.Idx → BitVec 32) (n : Fin 262144) (j : Nat) : Prop :=
  lab (ix1 n) = BitVec.ofNat 32 j

/-- Entry (j, d) of the class sums: the sum over the rows of class j of their entry d. -/
def classSum (x : SRows.Idx → EReal) (lab : SLabels.Idx → BitVec 32) : SClassRows.Idx → EReal :=
  fun i => ∑ n : Fin 262144, if inClass lab n (i 0).val then x (ix2 n (i 1)) else 0

/-- Entry j of the class counts: the number of rows of class j, as a sum of ones. -/
def classCnt (lab : SLabels.Idx → BitVec 32) : SClasses.Idx → EReal :=
  fun i => ∑ n : Fin 262144, if inClass lab n (i 0).val then (1 : EReal) else 0

/-- Class 5·g + q, for g < 20 and q < 5, is one of the 100 classes. -/
theorem group_member_lt (g : Fin 20) (q : Fin 5) : 5 * g.val + q.val < 100 := by omega

/-- Entry (g, d) of the group sums of a 100 × 512 array: its five rows 5·g … 5·g + 4 added. -/
def groupSum (s : SClassRows.Idx → EReal) : SGroupRows.Idx → EReal :=
  fun i => ∑ q : Fin 5, s (ix2 ⟨5 * (i 0).val + q.val, group_member_lt (i 0) q⟩ (i 1))

/-- Entry g of the group sums of a 100-vector: its five entries 5·g … 5·g + 4 added. -/
def groupCnt (n : SClasses.Idx → EReal) : SGroups.Idx → EReal :=
  fun i => ∑ q : Fin 5, n (ix1 ⟨5 * (i 0).val + q.val, group_member_lt (i 0) q⟩)

end Cert.Spec

end
-- ==== Proof.PayloadRead.lean ====
/-
  The arithmetic of one grid point of the segment-sum kernel, read entry by entry in the
  extended reals.

  A grid point sees 8192 rows of 512 numbers and one 32-bit label per row, in eight chunks of
  1024 rows. For each chunk it forms the 128 × 1024 matrix whose entry (j, k) is one when the
  label of row k is the word j and zero otherwise, multiplies that matrix with the chunk's rows,
  and adds the eight products to what the 128 × 512 accumulator held; it also adds the eight
  row sums of those matrices to what the 128 × 1 count accumulator held.

  This module proves what each of these values is at an entry:
    * the zero-one matrix at (j, k) is "1 if label k is the word j, else 0";
    * a product of a 128 × 1024 matrix with 1024 × 512 rows at (j, d) is the sum over k of the
      products of entries (j, k) and (k, d);
    * a row sum at j is the sum over k of the entries (j, k);
    * the value stored into the sum accumulator at (0, j, d) is the previous entry plus, chunk by
      chunk, the sum over the rows k of the chunk whose label is the word j of entry (k, d);
    * the value stored into the count accumulator at (0, j, 0) is the previous entry plus, chunk
      by chunk, the number of rows of the chunk whose label is the word j (a sum of ones);
    * the two values a first visit stores are zero everywhere.
-/
import proofs.«409649_j73005854097881_3_alg».proof.Proof.Gen.KernelIdeal.Skeleton
import proofs.«409649_j73005854097881_3_alg».proof.Proof.Spec
import Idealize.ShloMosaic.Lib.ValueIdx
import Idealize.ShloMosaic.Lib.ValueLayout
import Idealize.ShloMosaic.Lib.Pipeline.Value
import Idealize.ShloMosaic.PureOps.Ideal
import Idealize.ShloMosaic.PureOps.Ideal.Laws

noncomputable section

open scoped BigOperators

namespace Cert.KernelIdeal.PayloadRead

open Idealize.ShloMosaic Idealize.ShloMosaic.ValueIdx Cert.KernelIdeal Cert.KernelIdeal.Gen

/-- The column of row numbers 0 … 127 as 32-bit words. -/
abbrev rowIota : IVec S128x1 32 := iota .tc S128x1 32 [0] iota_S128x1_d0_w32

/-- The column of row numbers read at row j is the word of j. -/
theorem rowIota_apply (j : Fin 128) (u : Fin 1) : rowIota (ix2 j u) = BitVec.ofNat 32 j.val :=
  iota_single_apply .tc S128x1 32 0 iota_S128x1_d0_w32 (ix2 j u)

/-- A column of 128 entries spread over 1024 columns reads, at (j, k), the column's entry j. -/
theorem broadcastTo_a1_ab_apply {α : Type} (v : S128x1.Idx → α) (j : Fin 128) (k : Fin 1024) :
    broadcastTo S128x1024 v broadcasts_S128x1_S128x1024 (ix2 j k) = v (ix2 j (0 : Fin 1)) := by
  refine broadcastTo_apply v broadcasts_S128x1_S128x1024 (ix2 j k) (ix2 j (0 : Fin 1)) fun ax => ?_
  match ax with
  | ⟨0, _⟩ => rfl
  | ⟨1, _⟩ => rfl

/-- The integer 0 or 1 of a comparison bit, as an extended real. -/
theorem sitofp_bit (b : Bool) :
    FloatOps.sitofp (F := Ideal) .f32 ((BitVec.ofBool b).setWidth 32) = if b then (1 : EReal) else 0 := by
  cases b
  · have h0 : ((BitVec.ofBool false).setWidth 32).toInt = 0 := by decide
    show (((((BitVec.ofBool false).setWidth 32).toInt : ℤ) : ℝ) : EReal) = 0
    rw [h0, Int.cast_zero, EReal.coe_zero]
  · have h1 : ((BitVec.ofBool true).setWidth 32).toInt = 1 := by decide
    show (((((BitVec.ofBool true).setWidth 32).toInt : ℤ) : ℝ) : EReal) = 1
    rw [h1, Int.cast_one, EReal.coe_one]

/-- The zero-one matrix of one chunk at (j, k): one when label k is the word j. -/
theorem onehot_core (v3 : IVec S128x1 32) (hv3 : ∀ j : Fin 128, v3 (ix2 j (0 : Fin 1)) = BitVec.ofNat 32 j.val)
    (lab : IVec S1x1024 32) (j : Fin 128) (k : Fin 1024) :
    (sitofp .f32 (extui 32 (cmpi .eq (broadcastTo S128x1024 v3 broadcasts_S128x1_S128x1024)
        (broadcastTo S128x1024 lab broadcasts_S1x1024_S128x1024)) natLt_1_32) : FVec Ideal S128x1024 .f32) (ix2 j k)
      = if lab (ix2 (0 : Fin 1) k) = BitVec.ofNat 32 j.val then (1 : EReal) else 0 := by
  rw [sitofp_apply, extui_apply]
  show FloatOps.sitofp (F := Ideal) .f32
      ((BitVec.ofBool (broadcastTo S128x1024 v3 broadcasts_S128x1_S128x1024 (ix2 j k)
        == broadcastTo S128x1024 lab broadcasts_S1x1024_S128x1024 (ix2 j k))).setWidth 32) = _
  rw [broadcastTo_a1_ab_apply, broadcastTo_1b_ab_apply, hv3, sitofp_bit]
  by_cases h : lab (ix2 (0 : Fin 1) k) = BitVec.ofNat 32 j.val
  · rw [if_pos h, h, if_pos (beq_self_eq_true _)]
  · rw [if_neg h, if_neg]
    intro hb
    exact h (eq_of_beq hb).symm

/-! ## The zero-one matrices the body forms -/

theorem k0_pay4_apply (lab : Vec Ideal S1x1024 .i32) (j : Fin 128) (k : Fin 1024) :
    k0_pay4 (F := Ideal) lab (ix2 j k)
      = if lab (ix2 (0 : Fin 1) k) = BitVec.ofNat 32 j.val then (1 : EReal) else 0 := by
  unfold k0_pay4
  refine (onehot_core rowIota (fun j => rowIota_apply j 0)
    (shapeCast S1x1024 lab shapeCasts_S1x1024_S1x1024) j k).trans ?_
  rw [shapeCast_self]

theorem k0_pay7_apply (lab : Vec Ideal S1x1024 .i32) (j : Fin 128) (k : Fin 1024) :
    k0_pay7 (F := Ideal) lab (ix2 j k)
      = if lab (ix2 (0 : Fin 1) k) = BitVec.ofNat 32 j.val then (1 : EReal) else 0 := by
  unfold k0_pay7
  refine (onehot_core rowIota (fun j => rowIota_apply j 0)
    (shapeCast S1x1024 lab shapeCasts_S1x1024_S1x1024) j k).trans ?_
  rw [shapeCast_self]

theorem k0_pay9_apply (lab : Vec Ideal S1x1024 .i32) (j : Fin 128) (k : Fin 1024) :
    k0_pay9 (F := Ideal) lab (ix2 j k)
      = if lab (ix2 (0 : Fin 1) k) = BitVec.ofNat 32 j.val then (1 : EReal) else 0 :=
  k0_pay7_apply lab j k

theorem k0_pay10_apply (lab : Vec Ideal S1x1024 .i32) (j : Fin 128) (k : Fin 1024) :
    k0_pay10 (F := Ideal) rowIota lab (ix2 j k)
      = if lab (ix2 (0 : Fin 1) k) = BitVec.ofNat 32 j.val then (1 : EReal) else 0 := by
  unfold k0_pay10
  refine (onehot_core rowIota (fun j => rowIota_apply j 0)
    (shapeCast S1x1024 lab shapeCasts_S1x1024_S1x1024) j k).trans ?_
  rw [shapeCast_self]

theorem k0_pay11_apply (lab : Vec Ideal S1x1024 .i32) (j : Fin 128) (k : Fin 1024) :
    k0_pay11 (F := Ideal) rowIota lab (ix2 j k)
      = if lab (ix2 (0 : Fin 1) k) = BitVec.ofNat 32 j.val then (1 : EReal) else 0 := by
  unfold k0_pay11
  refine (onehot_core rowIota (fun j => rowIota_apply j 0)
    (shapeCast S1x1024 lab shapeCasts_S1x1024_S1x1024) j k).trans ?_
  rw [shapeCast_self]

theorem k0_pay14_apply (lab : Vec Ideal S1x1024 .i32) (j : Fin 128) (k : Fin 1024) :
    k0_pay14 (F := Ideal) rowIota lab (ix2 j k)
      = if lab (ix2 (0 : Fin 1) k) = BitVec.ofNat 32 j.val then (1 : EReal) else 0 := by
  unfold k0_pay14
  refine (onehot_core rowIota (fun j => rowIota_apply j 0)
    (shapeCast S1x1024 lab shapeCasts_S1x1024_S1x1024) j k).trans ?_
  rw [shapeCast_self]

theorem k0_pay15_apply (lab : Vec Ideal S1x1024 .i32) (j : Fin 128) (k : Fin 1024) :
    k0_pay15 (F := Ideal) rowIota lab (ix2 j k)
      = if lab (ix2 (0 : Fin 1) k) = BitVec.ofNat 32 j.val then (1 : EReal) else 0 := by
  unfold k0_pay15
  refine (onehot_core rowIota (fun j => rowIota_apply j 0)
    (shapeCast S1x1024 lab shapeCasts_S1x1024_S1x1024) j k).trans ?_
  rw [shapeCast_self]

theorem k0_pay20_apply (lab : Vec Ideal S1x1024 .i32) (j : Fin 128) (k : Fin 1024) :
    k0_pay20 (F := Ideal) rowIota lab (ix2 j k)
      = if lab (ix2 (0 : Fin 1) k) = BitVec.ofNat 32 j.val then (1 : EReal) else 0 := by
  unfold k0_pay20
  refine (onehot_core rowIota (fun j => rowIota_apply j 0)
    (shapeCast S1x1024 lab shapeCasts_S1x1024_S1x1024) j k).trans ?_
  rw [shapeCast_self]

/-- The labels of the seventh chunk pass through a cast to their own shape unchanged. -/
theorem k0_pay18_eq (lab : Vec Ideal S1x1024 .i32) : k0_pay18 (F := Ideal) lab = lab := by
  unfold k0_pay18
  exact shapeCast_self lab shapeCasts_S1x1024_S1x1024

theorem k0_pay19_apply (lab : Vec Ideal S1x1024 .i32) (j : Fin 128) (k : Fin 1024) :
    k0_pay19 (F := Ideal) rowIota (k0_pay18 (F := Ideal) lab) (ix2 j k)
      = if lab (ix2 (0 : Fin 1) k) = BitVec.ofNat 32 j.val then (1 : EReal) else 0 := by
  rw [k0_pay18_eq]
  unfold k0_pay19
  exact onehot_core rowIota (fun j => rowIota_apply j 0) lab j k

/-! ## One chunk's product -/

theorem lhsIdx_0 (i : S128x512.Idx) (c : dot_S128x1024_S1024x512_S128x512_1_0_0_1_n_n.contr.Idx) :
    (dot_S128x1024_S1024x512_S128x512_1_0_0_1_n_n.lhsIdx i c 0).val = (i 0).val := by
  unfold DotDims.lhsIdx
  rw [dif_neg (show ¬ (0 : Fin S128x1024.rank) ∈ dot_S128x1024_S1024x512_S128x512_1_0_0_1_n_n.lhsBatch by decide),
    dif_pos (show (0 : Fin S128x1024.rank) ∈ dot_S128x1024_S1024x512_S128x512_1_0_0_1_n_n.lhsNonContracting by decide)]
  rfl

theorem lhsIdx_1 (i : S128x512.Idx) (c : dot_S128x1024_S1024x512_S128x512_1_0_0_1_n_n.contr.Idx) :
    (dot_S128x1024_S1024x512_S128x512_1_0_0_1_n_n.lhsIdx i c 1).val = (c ⟨0, by decide⟩).val :=
  DotDims.lhsIdx_val_of_single dot_S128x1024_S1024x512_S128x512_1_0_0_1_n_n (cl := 1) rfl i c

theorem rhsIdx_0 (i : S128x512.Idx) (c : dot_S128x1024_S1024x512_S128x512_1_0_0_1_n_n.contr.Idx) :
    (dot_S128x1024_S1024x512_S128x512_1_0_0_1_n_n.rhsIdx i c 0).val = (c ⟨0, by decide⟩).val :=
  DotDims.rhsIdx_val_of_single dot_S128x1024_S1024x512_S128x512_1_0_0_1_n_n (cr := 0) rfl i c

theorem rhsIdx_1 (i : S128x512.Idx) (c : dot_S128x1024_S1024x512_S128x512_1_0_0_1_n_n.contr.Idx) :
    (dot_S128x1024_S1024x512_S128x512_1_0_0_1_n_n.rhsIdx i c 1).val = (i 1).val := by
  unfold DotDims.rhsIdx
  rw [dif_neg (show ¬ (1 : Fin S1024x512.rank) ∈ dot_S128x1024_S1024x512_S128x512_1_0_0_1_n_n.rhsBatch by decide),
    dif_pos (show (1 : Fin S1024x512.rank) ∈ dot_S128x1024_S1024x512_S128x512_1_0_0_1_n_n.rhsNonContracting by decide)]
  rfl

/-- The product of a 128 × 1024 matrix with 1024 × 512 rows, started from zero, at (j, d): the sum
    over k of the products of the entries (j, k) and (k, d). -/
theorem chunk_product (oh : FVec Ideal S128x1024 .f32) (x : Vec Ideal S1024x512 .f32) (j : Fin 128) (d : Fin 512) :
    matmul dot_S128x1024_S1024x512_S128x512_1_0_0_1_n_n none (truncf .bf16 oh bitsLt_bf16_f32)
        (truncf .bf16 x bitsLt_bf16_f32) (constant (F := Ideal) S128x512 .f32 0x00000000#32) (ix2 j d)
      = ∑ k : Fin 1024, oh (ix2 j k) * x (ix2 k d) := by
  show FloatOps.matmul dot_S128x1024_S1024x512_S128x512_1_0_0_1_n_n none _ _
    (constant (F := Ideal) S128x512 .f32 0x00000000#32) (ix2 j d) = _
  rw [Ideal.matmul_constant_zero_apply,
    ← Equiv.sum_comp (contrEquiv1 dot_S128x1024_S1024x512_S128x512_1_0_0_1_n_n 1024 rfl rfl).symm]
  refine Finset.sum_congr rfl fun c _ => ?_
  have hc := contrEquiv1_symm_val dot_S128x1024_S1024x512_S128x512_1_0_0_1_n_n 1024 rfl rfl c
  have hl : dot_S128x1024_S1024x512_S128x512_1_0_0_1_n_n.lhsIdx (ix2 j d)
      ((contrEquiv1 dot_S128x1024_S1024x512_S128x512_1_0_0_1_n_n 1024 rfl rfl).symm c) = ix2 j c := by
    funext ax; apply Fin.ext
    match ax with
    | ⟨0, _⟩ => exact lhsIdx_0 _ _
    | ⟨1, _⟩ => exact (lhsIdx_1 _ _).trans hc
  have hr : dot_S128x1024_S1024x512_S128x512_1_0_0_1_n_n.rhsIdx (ix2 j d)
      ((contrEquiv1 dot_S128x1024_S1024x512_S128x512_1_0_0_1_n_n 1024 rfl rfl).symm c) = ix2 c d := by
    funext ax; apply Fin.ext
    match ax with
    | ⟨0, _⟩ => exact (rhsIdx_0 _ _).trans hc
    | ⟨1, _⟩ => exact rhsIdx_1 _ _
  rw [hl, hr, truncf_apply, truncf_apply]

/-! ## One chunk's row sums -/

/-- The sum of each row of a 128 × 1024 matrix, at row j. -/
theorem rowsum_apply (oh : FVec Ideal S128x1024 .f32) (j : Fin 128) :
    multiReduction (F := Ideal) .add [1] S128 oh 0x00000000#32 reduces_S128x1024_S128 (.inl rfl) rfl (ix1 j)
      = ∑ k : Fin 1024, oh (ix2 j k) := by
  refine (Ideal.multiReduction_add_single oh 0x00000000#32 reduces_S128x1024_S128 (.inl rfl) rfl (ix1 j)).trans ?_
  show ∑ k : Fin 1024, oh (reduces_S128x1024_S128.lift (ix1 j) k) = _
  refine Finset.sum_congr rfl fun k _ => congrArg oh ?_
  funext ax; apply Fin.ext
  match ax with
  | ⟨0, _⟩ => rfl
  | ⟨1, _⟩ => rfl

/-- A vector of 128 entries seen as a column reads, at (j, 0), its entry j. -/
theorem shapeCast_a_a1_apply {α : Type} (v : S128.Idx → α) (j : Fin 128) (u : Fin 1) :
    shapeCast S128x1 v shapeCasts_S128_S128x1 (ix2 j u) = v (ix1 j) :=
  shapeCast_apply v shapeCasts_S128_S128x1 _ _ (by
    have hu : u.val = 0 := by omega
    rw [Shape.rowMajor_val_two, Shape.rowMajor_val_one]
    show j.val = j.val * 1 + u.val
    rw [hu, Nat.mul_one, Nat.add_zero])

/-- The row sums as a column, at (j, 0). -/
theorem rowsum_col_apply (oh : FVec Ideal S128x1024 .f32) (j : Fin 128) (u : Fin 1) :
    shapeCast S128x1 (multiReduction (F := Ideal) .add [1] S128 oh 0x00000000#32 reduces_S128x1024_S128 (.inl rfl) rfl)
        shapeCasts_S128_S128x1 (ix2 j u)
      = ∑ k : Fin 1024, oh (ix2 j k) :=
  (shapeCast_a_a1_apply _ j u).trans (rowsum_apply oh j)

/-! ## The two values a first visit stores -/

theorem k0_pay2_apply (j : Fin 128) (d : Fin 512) : k0_pay2 (F := Ideal) (ix3 (0 : Fin 1) j d) = 0 := by
  unfold k0_pay2
  refine (shapeCast_ab_1ab_apply _ shapeCasts_S128x512_S1x128x512 (0 : Fin 1) j d).trans ?_
  show Ideal.ofBits .f32 0x00000000#32 = 0
  exact Ideal.ofBits_zero_f32

theorem k0_pay3_apply (j : Fin 128) (u : Fin 1) : k0_pay3 (F := Ideal) (ix3 (0 : Fin 1) j u) = 0 := by
  unfold k0_pay3
  refine (shapeCast_ab_1ab_apply _ shapeCasts_S128x1_S1x128x1 (0 : Fin 1) j u).trans ?_
  show Ideal.ofBits .f32 0x00000000#32 = 0
  exact Ideal.ofBits_zero_f32

/-! ## The point's contribution to the sums -/

/-- What one chunk adds to class j in column d: the sum, over the rows of the chunk whose label is
    the word j, of their entry d. -/
abbrev chunkSum (x : Vec Ideal S1024x512 .f32) (l : Vec Ideal S1x1024 .i32) (j : Fin 128) (d : Fin 512) : EReal :=
  ∑ k : Fin 1024, if l (ix2 (0 : Fin 1) k) = BitVec.ofNat 32 j.val then x (ix2 k d) else 0

/-- What one chunk adds to the count of class j: the number of its rows whose label is the word j,
    as a sum of ones. -/
abbrev chunkCnt (l : Vec Ideal S1x1024 .i32) (j : Fin 128) : EReal :=
  ∑ k : Fin 1024, if l (ix2 (0 : Fin 1) k) = BitVec.ofNat 32 j.val then (1 : EReal) else 0

/-- The product of a zero-one matrix of labels with the rows picks the rows of class j. -/
theorem product_of_onehot (oh : FVec Ideal S128x1024 .f32) (x : Vec Ideal S1024x512 .f32)
    (l : Vec Ideal S1x1024 .i32) (j : Fin 128) (d : Fin 512)
    (hoh : ∀ k : Fin 1024, oh (ix2 j k) = if l (ix2 (0 : Fin 1) k) = BitVec.ofNat 32 j.val then (1 : EReal) else 0) :
    matmul dot_S128x1024_S1024x512_S128x512_1_0_0_1_n_n none (truncf .bf16 oh bitsLt_bf16_f32)
        (truncf .bf16 x bitsLt_bf16_f32) (constant (F := Ideal) S128x512 .f32 0x00000000#32) (ix2 j d)
      = chunkSum x l j d := by
  refine (chunk_product oh x j d).trans ?_
  refine Finset.sum_congr rfl fun k _ => ?_
  rw [hoh k]
  by_cases h : l (ix2 (0 : Fin 1) k) = BitVec.ofNat 32 j.val
  · rw [if_pos h, if_pos h, one_mul]
  · rw [if_neg h, if_neg h, zero_mul]

/-- An accumulator plus such a product, at (j, d). -/
theorem addf_product_apply (acc : FVec Ideal S128x512 .f32) (oh : FVec Ideal S128x1024 .f32)
    (x : Vec Ideal S1024x512 .f32) (l : Vec Ideal S1x1024 .i32) (j : Fin 128) (d : Fin 512)
    (hoh : ∀ k : Fin 1024, oh (ix2 j k) = if l (ix2 (0 : Fin 1) k) = BitVec.ofNat 32 j.val then (1 : EReal) else 0) :
    addf acc (matmul dot_S128x1024_S1024x512_S128x512_1_0_0_1_n_n none (truncf .bf16 oh bitsLt_bf16_f32)
        (truncf .bf16 x bitsLt_bf16_f32) (constant (F := Ideal) S128x512 .f32 0x00000000#32)) (ix2 j d)
      = acc (ix2 j d) + chunkSum x l j d :=
  (addf_apply _ _ _).trans (congrArg (acc (ix2 j d) + ·) (product_of_onehot oh x l j d hoh))

theorem k0_pay5_apply (x : Vec Ideal S1024x512 .f32) (l : Vec Ideal S1x1024 .i32) (j : Fin 128) (d : Fin 512) :
    k0_pay5 (F := Ideal) x l (ix2 j d) = chunkSum x l j d := by
  unfold k0_pay5
  refine (addf_product_apply _ (k0_pay4 (F := Ideal) l) x l j d (k0_pay4_apply l j)).trans ?_
  show Ideal.ofBits .f32 0x00000000#32 + chunkSum x l j d = chunkSum x l j d
  rw [Ideal.ofBits_zero_f32, zero_add]

theorem k0_pay8_apply (x : Vec Ideal S1024x512 .f32) (l : Vec Ideal S1x1024 .i32) (j : Fin 128) (d : Fin 512) :
    k0_pay8 (F := Ideal) x l (ix2 j d) = chunkSum x l j d := by
  unfold k0_pay8
  exact product_of_onehot (k0_pay7 (F := Ideal) l) x l j d (k0_pay7_apply l j)

theorem k0_pay12_apply (v24 v40 : FVec Ideal S128x512 .f32) (x2 : Vec Ideal S1024x512 .f32) (l2 : Vec Ideal S1x1024 .i32)
    (x3 : Vec Ideal S1024x512 .f32) (l3 : Vec Ideal S1x1024 .i32) (j : Fin 128) (d : Fin 512) :
    k0_pay12 (F := Ideal) rowIota v24 v40 x2 l2 x3 l3 (ix2 j d)
      = v24 (ix2 j d) + v40 (ix2 j d) + chunkSum x2 l2 j d + chunkSum x3 l3 j d := by
  unfold k0_pay12
  refine (addf_product_apply _ (k0_pay11 (F := Ideal) rowIota l3) x3 l3 j d (k0_pay11_apply l3 j)).trans ?_
  refine congrArg (· + chunkSum x3 l3 j d) ?_
  refine (addf_product_apply _ (k0_pay10 (F := Ideal) rowIota l2) x2 l2 j d (k0_pay10_apply l2 j)).trans ?_
  rfl

theorem k0_pay16_apply (v84 : FVec Ideal S128x512 .f32) (x4 : Vec Ideal S1024x512 .f32) (l4 : Vec Ideal S1x1024 .i32)
    (x5 : Vec Ideal S1024x512 .f32) (l5 : Vec Ideal S1x1024 .i32) (j : Fin 128) (d : Fin 512) :
    k0_pay16 (F := Ideal) rowIota v84 x4 l4 x5 l5 (ix2 j d)
      = v84 (ix2 j d) + chunkSum x4 l4 j d + chunkSum x5 l5 j d := by
  unfold k0_pay16
  refine (addf_product_apply _ (k0_pay15 (F := Ideal) rowIota l5) x5 l5 j d (k0_pay15_apply l5 j)).trans ?_
  refine congrArg (· + chunkSum x5 l5 j d) ?_
  exact addf_product_apply _ (k0_pay14 (F := Ideal) rowIota l4) x4 l4 j d (k0_pay14_apply l4 j)

theorem k0_pay22_apply (v124 : FVec Ideal S128x512 .f32) (x6 : Vec Ideal S1024x512 .f32) (l6 : Vec Ideal S1x1024 .i32)
    (x7 : Vec Ideal S1024x512 .f32) (l7 : Vec Ideal S1x1024 .i32) (prev : Vec Ideal S1x128x512 .f32)
    (j : Fin 128) (d : Fin 512) :
    k0_pay22 (F := Ideal) rowIota v124 x6 (k0_pay18 (F := Ideal) l6) x7 l7 prev (ix3 (0 : Fin 1) j d)
      = prev (ix3 (0 : Fin 1) j d) + (v124 (ix2 j d) + chunkSum x6 l6 j d + chunkSum x7 l7 j d) := by
  unfold k0_pay22
  refine (shapeCast_ab_1ab_apply _ shapeCasts_S128x512_S1x128x512 (0 : Fin 1) j d).trans ?_
  refine (addf_apply _ _ _).trans ?_
  refine congrArg₂ (· + ·) (shapeCast_1ab_ab_apply prev shapeCasts_S1x128x512_S128x512 j d) ?_
  refine (addf_product_apply _ (k0_pay20 (F := Ideal) rowIota l7) x7 l7 j d (k0_pay20_apply l7 j)).trans ?_
  refine congrArg (· + chunkSum x7 l7 j d) ?_
  exact addf_product_apply _ (k0_pay19 (F := Ideal) rowIota (k0_pay18 (F := Ideal) l6)) x6 l6 j d (k0_pay19_apply l6 j)

/-- The value the body stores into the sum accumulator, at (0, j, d): what the accumulator held
    plus the eight chunks' sums for class j and column d, in the body's order of addition. -/
theorem point_sum_apply (x0 x1 x2 x3 x4 x5 x6 x7 : Vec Ideal S1024x512 .f32)
    (l0 l1 l2 l3 l4 l5 l6 l7 : Vec Ideal S1x1024 .i32) (prev : Vec Ideal S1x128x512 .f32)
    (j : Fin 128) (d : Fin 512) :
    k0_pay22 (F := Ideal) rowIota
        (k0_pay16 (F := Ideal) rowIota
          (k0_pay12 (F := Ideal) rowIota (k0_pay5 (F := Ideal) x0 l0) (k0_pay8 (F := Ideal) x1 l1) x2 l2 x3 l3)
          x4 l4 x5 l5)
        x6 (k0_pay18 (F := Ideal) l6) x7 l7 prev (ix3 (0 : Fin 1) j d)
      = prev (ix3 (0 : Fin 1) j d)
        + (chunkSum x0 l0 j d + chunkSum x1 l1 j d + chunkSum x2 l2 j d + chunkSum x3 l3 j d
          + chunkSum x4 l4 j d + chunkSum x5 l5 j d + chunkSum x6 l6 j d + chunkSum x7 l7 j d) := by
  rw [k0_pay22_apply, k0_pay16_apply, k0_pay12_apply, k0_pay5_apply, k0_pay8_apply]

/-! ## The point's contribution to the counts -/

/-- The row sums of a zero-one matrix of labels, as a column, count the rows of class j. -/
theorem rowsum_of_onehot (oh : FVec Ideal S128x1024 .f32) (l : Vec Ideal S1x1024 .i32) (j : Fin 128) (u : Fin 1)
    (hoh : ∀ k : Fin 1024, oh (ix2 j k) = if l (ix2 (0 : Fin 1) k) = BitVec.ofNat 32 j.val then (1 : EReal) else 0) :
    shapeCast S128x1 (multiReduction (F := Ideal) .add [1] S128 oh 0x00000000#32 reduces_S128x1024_S128 (.inl rfl) rfl)
        shapeCasts_S128_S128x1 (ix2 j u)
      = chunkCnt l j :=
  (rowsum_col_apply oh j u).trans (Finset.sum_congr rfl fun k _ => hoh k)

/-- An accumulator column plus such row sums, at (j, 0). -/
theorem addf_rowsum_apply (acc : FVec Ideal S128x1 .f32) (oh : FVec Ideal S128x1024 .f32) (l : Vec Ideal S1x1024 .i32)
    (j : Fin 128) (u : Fin 1)
    (hoh : ∀ k : Fin 1024, oh (ix2 j k) = if l (ix2 (0 : Fin 1) k) = BitVec.ofNat 32 j.val then (1 : EReal) else 0) :
    addf acc (shapeCast S128x1
        (multiReduction (F := Ideal) .add [1] S128 oh 0x00000000#32 reduces_S128x1024_S128 (.inl rfl) rfl)
        shapeCasts_S128_S128x1) (ix2 j u)
      = acc (ix2 j u) + chunkCnt l j :=
  (addf_apply _ _ _).trans (congrArg (acc (ix2 j u) + ·) (rowsum_of_onehot oh l j u hoh))

theorem k0_pay6_apply (l : Vec Ideal S1x1024 .i32) (j : Fin 128) (u : Fin 1) :
    k0_pay6 (F := Ideal) l (ix2 j u) = chunkCnt l j := by
  unfold k0_pay6
  refine (addf_rowsum_apply _ (k0_pay4 (F := Ideal) l) l j u (k0_pay4_apply l j)).trans ?_
  show Ideal.ofBits .f32 0x00000000#32 + chunkCnt l j = chunkCnt l j
  rw [Ideal.ofBits_zero_f32, zero_add]

theorem k0_pay13_apply (v25 : FVec Ideal S128x1 .f32) (l1 l2 l3 : Vec Ideal S1x1024 .i32) (j : Fin 128) (u : Fin 1) :
    k0_pay13 (F := Ideal) rowIota v25 (k0_pay9 (F := Ideal) l1) l2 l3 (ix2 j u)
      = v25 (ix2 j u) + chunkCnt l1 j + chunkCnt l2 j + chunkCnt l3 j := by
  unfold k0_pay13
  refine (addf_rowsum_apply _ (k0_pay11 (F := Ideal) rowIota l3) l3 j u (k0_pay11_apply l3 j)).trans ?_
  refine congrArg (· + chunkCnt l3 j) ?_
  refine (addf_rowsum_apply _ (k0_pay10 (F := Ideal) rowIota l2) l2 j u (k0_pay10_apply l2 j)).trans ?_
  refine congrArg (· + chunkCnt l2 j) ?_
  exact addf_rowsum_apply _ (k0_pay9 (F := Ideal) l1) l1 j u (k0_pay9_apply l1 j)

theorem k0_pay17_apply (v85 : FVec Ideal S128x1 .f32) (l4 l5 : Vec Ideal S1x1024 .i32) (j : Fin 128) (u : Fin 1) :
    k0_pay17 (F := Ideal) rowIota v85 l4 l5 (ix2 j u) = v85 (ix2 j u) + chunkCnt l4 j + chunkCnt l5 j := by
  unfold k0_pay17
  refine (addf_rowsum_apply _ (k0_pay15 (F := Ideal) rowIota l5) l5 j u (k0_pay15_apply l5 j)).trans ?_
  refine congrArg (· + chunkCnt l5 j) ?_
  exact addf_rowsum_apply _ (k0_pay14 (F := Ideal) rowIota l4) l4 j u (k0_pay14_apply l4 j)

theorem k0_pay21_apply (v125 : FVec Ideal S128x1 .f32) (l6 l7 : Vec Ideal S1x1024 .i32) (j : Fin 128) (u : Fin 1) :
    k0_pay21 (F := Ideal) rowIota v125 (k0_pay18 (F := Ideal) l6) l7 (ix2 j u)
      = v125 (ix2 j u) + chunkCnt l6 j + chunkCnt l7 j := by
  unfold k0_pay21
  refine (addf_rowsum_apply _ (k0_pay20 (F := Ideal) rowIota l7) l7 j u (k0_pay20_apply l7 j)).trans ?_
  refine congrArg (· + chunkCnt l7 j) ?_
  exact addf_rowsum_apply _ (k0_pay19 (F := Ideal) rowIota (k0_pay18 (F := Ideal) l6)) l6 j u (k0_pay19_apply l6 j)

/-- The count accumulator's block seen as a column, at (j, 0). -/
theorem k0_pay23_apply (prevc : Vec Ideal S1x128x1 .f32) (j : Fin 128) (u : Fin 1) :
    k0_pay23 (F := Ideal) prevc (ix2 j u) = prevc (ix3 (0 : Fin 1) j u) := by
  unfold k0_pay23
  exact shapeCast_1ab_ab_apply prevc shapeCasts_S1x128x1_S128x1 j u

/-- The last store: the previous column plus the new column, as a block, at (0, j, 0). -/
theorem k0_pay1_apply (v165 v173 : FVec Ideal S128x1 .f32) (j : Fin 128) (u : Fin 1) :
    k0_pay1 (F := Ideal) v165 v173 (ix3 (0 : Fin 1) j u) = v173 (ix2 j u) + v165 (ix2 j u) := by
  unfold k0_pay1
  exact (shapeCast_ab_1ab_apply _ shapeCasts_S128x1_S1x128x1 (0 : Fin 1) j u).trans (addf_apply _ _ _)

/-- The value the body stores into the count accumulator, at (0, j, 0): what the accumulator held
    plus the eight chunks' counts for class j, in the body's order of addition. -/
theorem point_cnt_apply (l0 l1 l2 l3 l4 l5 l6 l7 : Vec Ideal S1x1024 .i32) (prevc : Vec Ideal S1x128x1 .f32)
    (j : Fin 128) (u : Fin 1) :
    k0_pay1 (F := Ideal)
        (k0_pay21 (F := Ideal) rowIota
          (k0_pay17 (F := Ideal) rowIota
            (k0_pay13 (F := Ideal) rowIota (k0_pay6 (F := Ideal) l0) (k0_pay9 (F := Ideal) l1) l2 l3) l4 l5)
          (k0_pay18 (F := Ideal) l6) l7)
        (k0_pay23 (F := Ideal) prevc) (ix3 (0 : Fin 1) j u)
      = prevc (ix3 (0 : Fin 1) j u)
        + (chunkCnt l0 j + chunkCnt l1 j + chunkCnt l2 j + chunkCnt l3 j
          + chunkCnt l4 j + chunkCnt l5 j + chunkCnt l6 j + chunkCnt l7 j) := by
  rw [k0_pay1_apply, k0_pay23_apply, k0_pay21_apply, k0_pay17_apply, k0_pay13_apply, k0_pay6_apply]

/-! ## The same two values with the eight chunks as a family -/

/-- The stored sum entry, with the chunks indexed by q = 0 … 7: what the accumulator held plus the sum
    over the chunks and over the rows of each chunk whose label is the word j of their entry d. -/
theorem point_sum_family (x : Fin 8 → Vec Ideal S1024x512 .f32) (l : Fin 8 → Vec Ideal S1x1024 .i32)
    (prev : Vec Ideal S1x128x512 .f32) (j : Fin 128) (d : Fin 512) :
    k0_pay22 (F := Ideal) rowIota
        (k0_pay16 (F := Ideal) rowIota
          (k0_pay12 (F := Ideal) rowIota (k0_pay5 (F := Ideal) (x 0) (l 0)) (k0_pay8 (F := Ideal) (x 1) (l 1))
            (x 2) (l 2) (x 3) (l 3))
          (x 4) (l 4) (x 5) (l 5))
        (x 6) (k0_pay18 (F := Ideal) (l 6)) (x 7) (l 7) prev (ix3 (0 : Fin 1) j d)
      = prev (ix3 (0 : Fin 1) j d)
        + ∑ q : Fin 8, ∑ k : Fin 1024,
            (if l q (ix2 (0 : Fin 1) k) = BitVec.ofNat 32 j.val then x q (ix2 k d) else 0) :=
  (point_sum_apply (x 0) (x 1) (x 2) (x 3) (x 4) (x 5) (x 6) (x 7) (l 0) (l 1) (l 2) (l 3) (l 4) (l 5) (l 6) (l 7)
      prev j d).trans
    (congrArg (prev (ix3 (0 : Fin 1) j d) + ·)
      (Fin.sum_univ_eight (fun q : Fin 8 => chunkSum (x q) (l q) j d)).symm)

/-- The stored count entry, with the chunks indexed by q = 0 … 7: what the accumulator held plus the
    number of rows, over all chunks, whose label is the word j (a sum of ones). -/
theorem point_cnt_family (l : Fin 8 → Vec Ideal S1x1024 .i32) (prevc : Vec Ideal S1x128x1 .f32)
    (j : Fin 128) (u : Fin 1) :
    k0_pay1 (F := Ideal)
        (k0_pay21 (F := Ideal) rowIota
          (k0_pay17 (F := Ideal) rowIota
            (k0_pay13 (F := Ideal) rowIota (k0_pay6 (F := Ideal) (l 0)) (k0_pay9 (F := Ideal) (l 1)) (l 2) (l 3))
            (l 4) (l 5))
          (k0_pay18 (F := Ideal) (l 6)) (l 7))
        (k0_pay23 (F := Ideal) prevc) (ix3 (0 : Fin 1) j u)
      = prevc (ix3 (0 : Fin 1) j u)
        + ∑ q : Fin 8, ∑ k : Fin 1024,
            (if l q (ix2 (0 : Fin 1) k) = BitVec.ofNat 32 j.val then (1 : EReal) else 0) :=
  (point_cnt_apply (l 0) (l 1) (l 2) (l 3) (l 4) (l 5) (l 6) (l 7) prevc j u).trans
    (congrArg (prevc (ix3 (0 : Fin 1) j u) + ·)
      (Fin.sum_univ_eight (fun q : Fin 8 => chunkCnt (l q) j)).symm)

end Cert.KernelIdeal.PayloadRead

end
-- ==== Proof.KIFold.lean ====
/-
  The accumulation, as a value: what the two accumulator blocks hold after each grid point.

  At the ideal instance. The value point t stores into its core's block of sums is what the block held
  plus the point's ADDEND: at (j, d), over the point's 8 × 1024 rows, the row's entry d when the row's
  label is the word j, and nothing otherwise; for the block of counts the addend is the number of such
  rows. A first step adds its addend to zeros. So, by induction on the point, after point n the blocks
  hold the sums of the addends of the points from the last multiple of 16 up to n.
-/
import proofs.«409649_j73005854097881_3_alg».proof.Proof.KIBlocks
import Idealize.ShloMosaic.Lib.Pipeline.Value
import proofs.«409649_j73005854097881_3_alg».proof.Proof.PayloadRead
import Mathlib.Algebra.BigOperators.Intervals

set_option maxRecDepth 16384

noncomputable section

namespace Cert.KernelIdeal.Around

open Idealize.ShloMosaic Idealize.ShloMosaic.TcCoe Idealize.ShloMosaic.Tactic
open Idealize.SL Idealize.SL.Sem
open Idealize.ShloMosaic.Pipeline (Dat)
open Cert.KernelIdeal Cert.KernelIdeal.Gen

variable {F : FTy → Type} [FloatOps F]

open Idealize.ShloMosaic.ValueIdx
open scoped BigOperators

variable (m : (ℓ : Loc nD τ sig) → Buf (Elt Ideal) ℓ)

theorem row_lt {t q k : Nat} (ht : t < 32) (hq : q < 8) (hk : k < 1024) : 8192 * t + 1024 * q + k < 262144 := by omega

/-- What point t adds to entry (j, d) of its core's block of sums: over its 8 × 1024 rows, the row's entry d when the
    row's label is the word j. (Zero past the grid, so that it is a function of every natural.) -/
def sumAddend (c : Dev nD) (t : Nat) (j : Fin 128) (d : Fin 512) : EReal :=
  if ht : t < 32 then
    ∑ q : Fin 8, ∑ k : Fin 1024,
      (if labelsArr m c (ix1 ⟨8192 * t + 1024 * q.val + k.val, row_lt ht q.isLt k.isLt⟩) = BitVec.ofNat 32 j.val
        then rowsArr m c (ix2 ⟨8192 * t + 1024 * q.val + k.val, row_lt ht q.isLt k.isLt⟩ d) else 0)
  else 0

/-- What point t adds to entry j of its core's block of counts: the number of its rows whose label is the word j. -/
def cntAddend (c : Dev nD) (t : Nat) (j : Fin 128) : EReal :=
  if ht : t < 32 then
    ∑ q : Fin 8, ∑ k : Fin 1024,
      (if labelsArr m c (ix1 ⟨8192 * t + 1024 * q.val + k.val, row_lt ht q.isLt k.isLt⟩) = BitVec.ofNat 32 j.val
        then (1 : EReal) else 0)
  else 0

/-- A label of chunk q of point t's block, as a label of the vector. -/
theorem chunk_label (c : Dev nD) (t : Fin cfg0.N) (q : Fin 8) (k : Fin 1024) :
    labelsChunk (labelsBlock m c t) q (ix2 (0 : Fin 1) k)
      = labelsArr m c (ix1 ⟨8192 * t.val + 1024 * q.val + k.val, row_lt (point_lt t) q.isLt k.isLt⟩) := by
  rw [labelsChunk_apply, labelsBlock_apply]
  congr 2
  apply Fin.ext
  show 8192 * t.val + (1024 * q.val + k.val) = 8192 * t.val + 1024 * q.val + k.val
  omega

/-- A row entry of chunk q of point t's block, as an entry of the array. -/
theorem chunk_row (c : Dev nD) (t : Fin cfg0.N) (q : Fin 8) (k : Fin 1024) (d : Fin 512) :
    rowsChunk (rowsBlock m c t) q (ix2 k d)
      = rowsArr m c (ix2 ⟨8192 * t.val + 1024 * q.val + k.val, row_lt (point_lt t) q.isLt k.isLt⟩ d) := by
  rw [rowsChunk_apply, rowsBlock_apply]
  congr 2
  apply Fin.ext
  show 8192 * t.val + (1024 * q.val + k.val) = 8192 * t.val + 1024 * q.val + k.val
  omega

/-- The value point t stores into the block of sums is what the block held plus the point's addend. -/
theorem pointSum_apply (c : Dev nD) (t : Fin cfg0.N) (prev : Vec Ideal S1x128x512 .f32) (j : Fin 128) (d : Fin 512) :
    pointSum (rowsChunk (rowsBlock m c t)) (labelsChunk (labelsBlock m c t)) prev (ix3 (0 : Fin 1) j d)
      = prev (ix3 (0 : Fin 1) j d) + sumAddend m c t.val j d := by
  refine (Cert.KernelIdeal.PayloadRead.point_sum_family (rowsChunk (rowsBlock m c t)) (labelsChunk (labelsBlock m c t)) prev j d).trans ?_
  congr 1
  unfold sumAddend
  rw [dif_pos (point_lt t)]
  refine Finset.sum_congr rfl fun q _ => Finset.sum_congr rfl fun k _ => ?_
  rw [chunk_label m c t q k, chunk_row m c t q k d]

/-- Likewise the value stored into the block of counts. -/
theorem pointCnt_apply (c : Dev nD) (t : Fin cfg0.N) (prev : Vec Ideal S1x128x1 .f32) (j : Fin 128) (u : Fin 1) :
    pointCnt (labelsChunk (labelsBlock m c t)) prev (ix3 (0 : Fin 1) j u)
      = prev (ix3 (0 : Fin 1) j u) + cntAddend m c t.val j := by
  refine (Cert.KernelIdeal.PayloadRead.point_cnt_family (labelsChunk (labelsBlock m c t)) prev j u).trans ?_
  congr 1
  unfold cntAddend
  rw [dif_pos (point_lt t)]
  refine Finset.sum_congr rfl fun q _ => Finset.sum_congr rfl fun k _ => ?_
  rw [chunk_label m c t q k]

/-- THE ACCUMULATION. After point n the block of sums holds, at (j, d), the sum of the addends of the points from the
    last multiple of 16 up to n; the block of counts likewise. By induction on the point. -/
theorem acc_eq (c : Dev nD) : ∀ (n : Nat) (h : n < cfg0.N) (j : Fin 128),
    (∀ d : Fin 512, (accAt m c n h).1 (ix3 (0 : Fin 1) j d) = ∑ t ∈ Finset.Ico (16 * (n / 16)) (n + 1), sumAddend m c t j d)
    ∧ (∀ u : Fin 1, (accAt m c n h).2 (ix3 (0 : Fin 1) j u) = ∑ t ∈ Finset.Ico (16 * (n / 16)) (n + 1), cntAddend m c t j)
  | 0, h, j => by
    rw [accAt_reset m c ⟨0, h⟩ rfl]
    dsimp only
    constructor
    · intro d
      rw [sumReset_eq]
      refine (pointSum_apply m c ⟨0, h⟩ (k0_pay2 (F := Ideal)) j d).trans ?_
      rw [Cert.KernelIdeal.PayloadRead.k0_pay2_apply, zero_add]
      simp
    · intro u
      rw [cntReset_eq]
      refine (pointCnt_apply m c ⟨0, h⟩ (k0_pay3 (F := Ideal)) j u).trans ?_
      rw [Cert.KernelIdeal.PayloadRead.k0_pay3_apply, zero_add]
      simp
  | n + 1, h, j => by
    by_cases h0 : (n + 1) % 16 = 0
    · rw [accAt_reset m c ⟨n + 1, h⟩ h0]
      dsimp only
      have hb : 16 * ((n + 1) / 16) = n + 1 := by omega
      constructor
      · intro d
        rw [sumReset_eq]
        refine (pointSum_apply m c ⟨n + 1, h⟩ (k0_pay2 (F := Ideal)) j d).trans ?_
        rw [Cert.KernelIdeal.PayloadRead.k0_pay2_apply, zero_add, hb]
        simp
      · intro u
        rw [cntReset_eq]
        refine (pointCnt_apply m c ⟨n + 1, h⟩ (k0_pay3 (F := Ideal)) j u).trans ?_
        rw [Cert.KernelIdeal.PayloadRead.k0_pay3_apply, zero_add, hb]
        simp
    · rw [accAt_carry m c ⟨n + 1, h⟩ h0]
      dsimp only
      have hb : 16 * ((n + 1) / 16) = 16 * (n / 16) := by omega
      have hle : 16 * (n / 16) ≤ n + 1 := by omega
      have ih := acc_eq c n (Nat.lt_of_succ_lt h) j
      constructor
      · intro d
        rw [sumCarry_eq]
        refine (pointSum_apply m c ⟨n + 1, h⟩ _ j d).trans ?_
        show (accAt m c n _).1 (ix3 (0 : Fin 1) j d) + _ = _
        rw [ih.1 d, hb, Finset.sum_Ico_succ_top hle]
      · intro u
        rw [cntCarry_eq]
        refine (pointCnt_apply m c ⟨n + 1, h⟩ _ j u).trans ?_
        show (accAt m c n _).2 (ix3 (0 : Fin 1) j u) + _ = _
        rw [ih.2 u, hb, Finset.sum_Ico_succ_top hle]

end Cert.KernelIdeal.Around

end
-- ==== Proof.KIArrays.lean ====
/-
  The two result arrays after the kernel's grid has run.

  At the ideal instance. The 32 grid points are split between two cores: points 0 … 15 are core 0's,
  points 16 … 31 core 1's. Each core keeps one block of 128 × 512 running sums and one block of 128
  running counts, and writes them into its own slab of the result arrays (slab 0 or slab 1 along the first
  axis) once, after the last of its 16 points, that is at point 15 and at point 31.

  After point n a core's block of sums holds, at (j, d), the sum of the addends of the points from the last
  multiple of 16 up to n. At a point n with n ≡ 15 (mod 16) that stretch is the core's 16 points
  16·(n / 16) … 16·(n / 16) + 15, and the block index along the first axis is n / 16. So what is written
  into slab k is, at (j, d), the sum over the points 16·k … 16·k + 15 of their addends at (j, d); the same
  for the counts. Every entry (k, j, d) of a result array lies in the slab written at point 16·k + 15, so
  the two slabs are the whole array, and the arrays end holding exactly these sums.
-/
import proofs.«409649_j73005854097881_3_alg».proof.Proof.KIFold
import Idealize.ShloMosaic.Lib.Pipeline.Value
import Mathlib.Algebra.BigOperators.Intervals

set_option maxRecDepth 16384

noncomputable section

namespace Cert.KernelIdeal.Around

open Idealize.ShloMosaic Idealize.ShloMosaic.TcCoe Idealize.SL.Sem Idealize.ShloMosaic.ValueIdx
open Idealize.ShloMosaic.Pipeline (Dat)
open Cert.KernelIdeal Cert.KernelIdeal.Gen
open scoped BigOperators

variable (m : (ℓ : Loc nD τ sig) → Buf (Elt Ideal) ℓ)

/-- The block index of the block of sums at point t is (t / 16, 0, 0): the first 16 points are core 0's, the
    last 16 core 1's; and its block is never cut short. -/
theorem sum_index : ∀ t : Fin cfg0.N, win0_2.index t 0 = t.val / 16 ∧ win0_2.index t 1 = 0 ∧ win0_2.index t 2 = 0 :=
  (by decide +kernel : ∀ t : Fin grid0.N, win0_2.index t 0 = t.val / 16 ∧ win0_2.index t 1 = 0 ∧ win0_2.index t 2 = 0)
theorem sum_xsize : ∀ t : Fin cfg0.N, win0_2.xsize (grid0.coords t) 0 = 1 ∧ win0_2.xsize (grid0.coords t) 1 = 128 ∧ win0_2.xsize (grid0.coords t) 2 = 512 :=
  (by decide +kernel : ∀ t : Fin grid0.N, win0_2.xsize (grid0.coords t) 0 = 1 ∧ win0_2.xsize (grid0.coords t) 1 = 128 ∧ win0_2.xsize (grid0.coords t) 2 = 512)
/-- Likewise the block of counts. -/
theorem cnt_index : ∀ t : Fin cfg0.N, win0_3.index t 0 = t.val / 16 ∧ win0_3.index t 1 = 0 ∧ win0_3.index t 2 = 0 :=
  (by decide +kernel : ∀ t : Fin grid0.N, win0_3.index t 0 = t.val / 16 ∧ win0_3.index t 1 = 0 ∧ win0_3.index t 2 = 0)
theorem cnt_xsize : ∀ t : Fin cfg0.N, win0_3.xsize (grid0.coords t) 0 = 1 ∧ win0_3.xsize (grid0.coords t) 1 = 128 ∧ win0_3.xsize (grid0.coords t) 2 = 1 :=
  (by decide +kernel : ∀ t : Fin grid0.N, win0_3.xsize (grid0.coords t) 0 = 1 ∧ win0_3.xsize (grid0.coords t) 1 = 128 ∧ win0_3.xsize (grid0.coords t) 2 = 1)

/-- The array of sums after the run: entry (core, j, d) is the sum of the addends at (j, d) of that core's 16 points. -/
def sumsFinal (c : Dev nD) : Vec Ideal S2x128x512 .f32 :=
  fun i => ∑ t ∈ Finset.Ico (16 * (i 0).val) (16 * (i 0).val + 16),
    sumAddend m c t ⟨(i 1).val, (i 1).isLt⟩ ⟨(i 2).val, (i 2).isLt⟩

/-- The array of counts after the run: entry (core, j, 0) is the sum of the count addends at j of that core's 16 points. -/
def cntsFinal (c : Dev nD) : Vec Ideal S2x128x1 .f32 :=
  fun i => ∑ t ∈ Finset.Ico (16 * (i 0).val) (16 * (i 0).val + 16), cntAddend m c t ⟨(i 1).val, (i 1).isLt⟩

/-- What a point that writes the block of sums back writes is that core's slab of the final array: the point is the
    last of its core's 16, and the block then holds the sum of all 16 addends. -/
theorem sums_flushed (c : Dev nD) (t : Fin cfg0.N) (hf : (cfg0.win 2).flush t = true) :
    (dats m 0 c).flushed 2 t = ((cfg0.win 2).blk t).view.read (Elt Ideal) (sumsFinal m c) := by
  have h15 : t.val % 16 = 15 := (flush0_2 t).mp hf
  have hlt := point_lt t
  show (cfg0.win 2).cut (grid0.coords t) ((dats m 0 c).after 2 t) = _
  rw [after_sum]
  funext y
  rw [View.read_apply]
  have hy0 : (y 0).val < 1 := lt_of_lt_of_eq (y 0).isLt (sum_xsize t).1
  have hy1 : (y 1).val < 128 := lt_of_lt_of_eq (y 1).isLt (sum_xsize t).2.1
  have hy2 : (y 2).val < 512 := lt_of_lt_of_eq (y 2).isLt (sum_xsize t).2.2
  have hj : (cfg0.win 2).xinj (grid0.coords t) y = ix3 (0 : Fin 1) ⟨(y 1).val, hy1⟩ ⟨(y 2).val, hy2⟩ := by
    funext a
    apply Fin.ext
    match a with
    | ⟨0, _⟩ => show (y 0).val = 0; omega
    | ⟨1, _⟩ => rfl
    | ⟨2, _⟩ => rfl
  have he0 : ((((cfg0.win 2).blk t).view.emb y) 0).val = t.val / 16 := by
    show win0_2.index t 0 * 1 + 1 * (y 0).val = t.val / 16
    rw [(sum_index t).1]; omega
  have he1 : ((((cfg0.win 2).blk t).view.emb y) 1).val = (y 1).val := by
    show win0_2.index t 1 * 128 + 1 * (y 1).val = (y 1).val
    rw [(sum_index t).2.1]; omega
  have he2 : ((((cfg0.win 2).blk t).view.emb y) 2).val = (y 2).val := by
    show win0_2.index t 2 * 512 + 1 * (y 2).val = (y 2).val
    rw [(sum_index t).2.2]; omega
  show (accAt m c t.val t.isLt).1 ((cfg0.win 2).xinj (grid0.coords t) y) = sumsFinal m c (((cfg0.win 2).blk t).view.emb y)
  rw [hj, (acc_eq m c t.val t.isLt ⟨(y 1).val, hy1⟩).1 ⟨(y 2).val, hy2⟩]
  generalize ((cfg0.win 2).blk t).view.emb y = e at he0 he1 he2 ⊢
  show _ = ∑ s ∈ Finset.Ico (16 * (e 0).val) (16 * (e 0).val + 16), sumAddend m c s ⟨(e 1).val, (e 1).isLt⟩ ⟨(e 2).val, (e 2).isLt⟩
  rw [show (⟨(e 1).val, (e 1).isLt⟩ : Fin 128) = ⟨(y 1).val, hy1⟩ from Fin.ext he1,
    show (⟨(e 2).val, (e 2).isLt⟩ : Fin 512) = ⟨(y 2).val, hy2⟩ from Fin.ext he2, he0,
    show t.val + 1 = 16 * (t.val / 16) + 16 from by omega]

/-- So the array of sums ends holding, per core, the sum of its 16 points' addends: core 0's slab is written at
    point 15 and core 1's at point 31, and the two slabs are the whole array. -/
theorem sums_final (c : Dev nD) : (dats m 0 c).arrAt 2 cfg0.N = sumsFinal m c :=
  (dats m 0 c).arrAt_eq_of_cover 2 (sumsFinal m c) (sums_flushed m c) fun i => by
    have h0 : (i 0 : Nat) < 2 := (i 0).isLt
    have h1 : (i 1 : Nat) < 128 := (i 1).isLt
    have h2 : (i 2 : Nat) < 512 := (i 2).isLt
    have hN : 16 * (i 0 : Nat) + 15 < cfg0.N := by rw [show cfg0.N = 32 from N_0]; omega
    refine ⟨⟨16 * (i 0 : Nat) + 15, hN⟩, (flush0_2 _).mpr (by show (16 * (i 0 : Nat) + 15) % 16 = 15; omega), ?_⟩
    show i ∈ ((View.whole main_v1_0).slice (win0_2.rect ⟨16 * (i 0 : Nat) + 15, hN⟩)).set
    rw [View.set_slice_whole, Rect.mem_set_unit]
    intro a
    match a with
    | ⟨0, _⟩ =>
      show win0_2.index ⟨16 * (i 0 : Nat) + 15, hN⟩ 0 * 1 ≤ (i 0 : Nat) ∧ (i 0 : Nat) < win0_2.index ⟨16 * (i 0 : Nat) + 15, hN⟩ 0 * 1 + win0_2.xsize (grid0.coords ⟨16 * (i 0 : Nat) + 15, hN⟩) 0
      rw [(sum_index ⟨16 * (i 0 : Nat) + 15, hN⟩).1, (sum_xsize ⟨16 * (i 0 : Nat) + 15, hN⟩).1]
      show (16 * (i 0 : Nat) + 15) / 16 * 1 ≤ (i 0 : Nat) ∧ (i 0 : Nat) < (16 * (i 0 : Nat) + 15) / 16 * 1 + 1
      omega
    | ⟨1, _⟩ =>
      show win0_2.index ⟨16 * (i 0 : Nat) + 15, hN⟩ 1 * 128 ≤ (i 1 : Nat) ∧ (i 1 : Nat) < win0_2.index ⟨16 * (i 0 : Nat) + 15, hN⟩ 1 * 128 + win0_2.xsize (grid0.coords ⟨16 * (i 0 : Nat) + 15, hN⟩) 1
      rw [(sum_index ⟨16 * (i 0 : Nat) + 15, hN⟩).2.1, (sum_xsize ⟨16 * (i 0 : Nat) + 15, hN⟩).2.1]
      omega
    | ⟨2, _⟩ =>
      show win0_2.index ⟨16 * (i 0 : Nat) + 15, hN⟩ 2 * 512 ≤ (i 2 : Nat) ∧ (i 2 : Nat) < win0_2.index ⟨16 * (i 0 : Nat) + 15, hN⟩ 2 * 512 + win0_2.xsize (grid0.coords ⟨16 * (i 0 : Nat) + 15, hN⟩) 2
      rw [(sum_index ⟨16 * (i 0 : Nat) + 15, hN⟩).2.2, (sum_xsize ⟨16 * (i 0 : Nat) + 15, hN⟩).2.2]
      omega

/-- What a point that writes the block of counts back writes is that core's slab of the final array of counts. -/
theorem cnts_flushed (c : Dev nD) (t : Fin cfg0.N) (hf : (cfg0.win 3).flush t = true) :
    (dats m 0 c).flushed 3 t = ((cfg0.win 3).blk t).view.read (Elt Ideal) (cntsFinal m c) := by
  have h15 : t.val % 16 = 15 := (flush0_3 t).mp hf
  have hlt := point_lt t
  show (cfg0.win 3).cut (grid0.coords t) ((dats m 0 c).after 3 t) = _
  rw [after_cnt]
  funext y
  rw [View.read_apply]
  have hy0 : (y 0).val < 1 := lt_of_lt_of_eq (y 0).isLt (cnt_xsize t).1
  have hy1 : (y 1).val < 128 := lt_of_lt_of_eq (y 1).isLt (cnt_xsize t).2.1
  have hy2 : (y 2).val < 1 := lt_of_lt_of_eq (y 2).isLt (cnt_xsize t).2.2
  have hj : (cfg0.win 3).xinj (grid0.coords t) y = ix3 (0 : Fin 1) ⟨(y 1).val, hy1⟩ (0 : Fin 1) := by
    funext a
    apply Fin.ext
    match a with
    | ⟨0, _⟩ => show (y 0).val = 0; omega
    | ⟨1, _⟩ => rfl
    | ⟨2, _⟩ => show (y 2).val = 0; omega
  have he0 : ((((cfg0.win 3).blk t).view.emb y) 0).val = t.val / 16 := by
    show win0_3.index t 0 * 1 + 1 * (y 0).val = t.val / 16
    rw [(cnt_index t).1]; omega
  have he1 : ((((cfg0.win 3).blk t).view.emb y) 1).val = (y 1).val := by
    show win0_3.index t 1 * 128 + 1 * (y 1).val = (y 1).val
    rw [(cnt_index t).2.1]; omega
  show (accAt m c t.val t.isLt).2 ((cfg0.win 3).xinj (grid0.coords t) y) = cntsFinal m c (((cfg0.win 3).blk t).view.emb y)
  rw [hj, (acc_eq m c t.val t.isLt ⟨(y 1).val, hy1⟩).2 (0 : Fin 1)]
  generalize ((cfg0.win 3).blk t).view.emb y = e at he0 he1 ⊢
  show _ = ∑ s ∈ Finset.Ico (16 * (e 0).val) (16 * (e 0).val + 16), cntAddend m c s ⟨(e 1).val, (e 1).isLt⟩
  rw [show (⟨(e 1).val, (e 1).isLt⟩ : Fin 128) = ⟨(y 1).val, hy1⟩ from Fin.ext he1, he0,
    show t.val + 1 = 16 * (t.val / 16) + 16 from by omega]

/-- So the array of counts ends holding, per core, the sum of its 16 points' count addends. -/
theorem cnts_final (c : Dev nD) : (dats m 0 c).arrAt 3 cfg0.N = cntsFinal m c :=
  (dats m 0 c).arrAt_eq_of_cover 3 (cntsFinal m c) (cnts_flushed m c) fun i => by
    have h0 : (i 0 : Nat) < 2 := (i 0).isLt
    have h1 : (i 1 : Nat) < 128 := (i 1).isLt
    have h2 : (i 2 : Nat) < 1 := (i 2).isLt
    have hN : 16 * (i 0 : Nat) + 15 < cfg0.N := by rw [show cfg0.N = 32 from N_0]; omega
    refine ⟨⟨16 * (i 0 : Nat) + 15, hN⟩, (flush0_3 _).mpr (by show (16 * (i 0 : Nat) + 15) % 16 = 15; omega), ?_⟩
    show i ∈ ((View.whole main_v1_1).slice (win0_3.rect ⟨16 * (i 0 : Nat) + 15, hN⟩)).set
    rw [View.set_slice_whole, Rect.mem_set_unit]
    intro a
    match a with
    | ⟨0, _⟩ =>
      show win0_3.index ⟨16 * (i 0 : Nat) + 15, hN⟩ 0 * 1 ≤ (i 0 : Nat) ∧ (i 0 : Nat) < win0_3.index ⟨16 * (i 0 : Nat) + 15, hN⟩ 0 * 1 + win0_3.xsize (grid0.coords ⟨16 * (i 0 : Nat) + 15, hN⟩) 0
      rw [(cnt_index ⟨16 * (i 0 : Nat) + 15, hN⟩).1, (cnt_xsize ⟨16 * (i 0 : Nat) + 15, hN⟩).1]
      show (16 * (i 0 : Nat) + 15) / 16 * 1 ≤ (i 0 : Nat) ∧ (i 0 : Nat) < (16 * (i 0 : Nat) + 15) / 16 * 1 + 1
      omega
    | ⟨1, _⟩ =>
      show win0_3.index ⟨16 * (i 0 : Nat) + 15, hN⟩ 1 * 128 ≤ (i 1 : Nat) ∧ (i 1 : Nat) < win0_3.index ⟨16 * (i 0 : Nat) + 15, hN⟩ 1 * 128 + win0_3.xsize (grid0.coords ⟨16 * (i 0 : Nat) + 15, hN⟩) 1
      rw [(cnt_index ⟨16 * (i 0 : Nat) + 15, hN⟩).2.1, (cnt_xsize ⟨16 * (i 0 : Nat) + 15, hN⟩).2.1]
      omega
    | ⟨2, _⟩ =>
      show win0_3.index ⟨16 * (i 0 : Nat) + 15, hN⟩ 2 * 1 ≤ (i 2 : Nat) ∧ (i 2 : Nat) < win0_3.index ⟨16 * (i 0 : Nat) + 15, hN⟩ 2 * 1 + win0_3.xsize (grid0.coords ⟨16 * (i 0 : Nat) + 15, hN⟩) 2
      rw [(cnt_index ⟨16 * (i 0 : Nat) + 15, hN⟩).2.2, (cnt_xsize ⟨16 * (i 0 : Nat) + 15, hN⟩).2.2]
      omega

end Cert.KernelIdeal.Around

end
-- ==== Proof.Loss.lean ====
/-
  The loss that both programs compute from the class sums and the class counts.

  Inputs: the 100 × 512 array s of class sums, the 100 class counts n, the 20 × 512 array ss of
  group sums, the 20 group counts sn, and three arrays of reference values rf (100 × 512),
  rs (20 × 512), ri (20 × 20).

  A class (a group) is PRESENT when its count is greater than zero. Its CENTROID is its row of
  sums divided, entry by entry, by the larger of its count and one.

  * The class term: over the present classes, the sum of the mean over the 512 entries of the
    squared difference between the class's centroid and its row of rf.
  * The group term: the same over the present groups, with ss, sn and rs.
  * The pair term: over the pairs of present groups (g, h) with g < h, the sum of the squared
    difference between the distance of the two centroids (the square root of the sum over the
    512 entries of the squared difference of the centroids) and the entry (g, h) of ri. Off the
    selected pairs the square root is taken of one, and the term contributes zero.

  The loss is one times the class term, plus one times the group term, plus one times the
  pair term, added in that order.

  Each stage below is written as the composition of the elementwise and reducing operations in
  the order the two programs apply them, so that it is the same function for both.
-/
import Idealize.ShloMosaic.PureOps.Ideal
import Idealize.ShloMosaic.PureOps.Contract
import Idealize.ShloMosaic.PureOps.ShapeOps
import Idealize.ShloMosaic.PureOps.Vector

noncomputable section

namespace Cert.Loss

open Idealize.ShloMosaic

/-! ## The shapes -/

abbrev S_ : Shape := ⟨0, ![]⟩
abbrev S100 : Shape := ⟨1, ![100]⟩
abbrev S100x1 : Shape := ⟨2, ![100, 1]⟩
abbrev S100x512 : Shape := ⟨2, ![100, 512]⟩
abbrev S20 : Shape := ⟨1, ![20]⟩
abbrev S20x1 : Shape := ⟨2, ![20, 1]⟩
abbrev S1x20 : Shape := ⟨2, ![1, 20]⟩
abbrev S20x20 : Shape := ⟨2, ![20, 20]⟩
abbrev S20x512 : Shape := ⟨2, ![20, 512]⟩
abbrev S20x1x512 : Shape := ⟨3, ![20, 1, 512]⟩
abbrev S1x20x512 : Shape := ⟨3, ![1, 20, 512]⟩
abbrev S20x20x512 : Shape := ⟨3, ![20, 20, 512]⟩

/-! ## How the shapes relate: which axis of a larger shape each axis of a smaller one is laid
    along, and which axes a sum removes. -/

theorem h_S_ : 0 < S_.numel := by decide
theorem bcast_S_S100 : S_.BroadcastsInDim S100 (![] : Fin 0 → Fin S100.rank) := by decide
theorem bcast_S100_S100x1_0 : S100.BroadcastsInDim S100x1 (![0] : Fin 1 → Fin S100x1.rank) := by decide
theorem bcast_S100x1_S100x512_0_1 : S100x1.BroadcastsInDim S100x512 (![0, 1] : Fin 2 → Fin S100x512.rank) := by decide
theorem reducesTo_S100x512_S100_d1 : S100x512.ReducesTo [1] S100 := by decide
theorem reducesTo_S100_S_d0 : S100.ReducesTo [0] S_ := by decide
theorem bcast_S_S20 : S_.BroadcastsInDim S20 (![] : Fin 0 → Fin S20.rank) := by decide
theorem bcast_S20_S20x1_0 : S20.BroadcastsInDim S20x1 (![0] : Fin 1 → Fin S20x1.rank) := by decide
theorem bcast_S20x1_S20x512_0_1 : S20x1.BroadcastsInDim S20x512 (![0, 1] : Fin 2 → Fin S20x512.rank) := by decide
theorem reducesTo_S20x512_S20_d1 : S20x512.ReducesTo [1] S20 := by decide
theorem reducesTo_S20_S_d0 : S20.ReducesTo [0] S_ := by decide
theorem bcast_S20x512_S20x1x512_0_2 : S20x512.BroadcastsInDim S20x1x512 (![0, 2] : Fin 2 → Fin S20x1x512.rank) := by decide
theorem bcast_S20x512_S1x20x512_1_2 : S20x512.BroadcastsInDim S1x20x512 (![1, 2] : Fin 2 → Fin S1x20x512.rank) := by decide
theorem bcast_S20x1x512_S20x20x512_0_1_2 : S20x1x512.BroadcastsInDim S20x20x512 (![0, 1, 2] : Fin 3 → Fin S20x20x512.rank) := by decide
theorem bcast_S1x20x512_S20x20x512_0_1_2 : S1x20x512.BroadcastsInDim S20x20x512 (![0, 1, 2] : Fin 3 → Fin S20x20x512.rank) := by decide
theorem reducesTo_S20x20x512_S20x20_d2 : S20x20x512.ReducesTo [2] S20x20 := by decide
theorem bcast_S_S20x20 : S_.BroadcastsInDim S20x20 (![] : Fin 0 → Fin S20x20.rank) := by decide
theorem bcast_S20x1_S20x20_0_1 : S20x1.BroadcastsInDim S20x20 (![0, 1] : Fin 2 → Fin S20x20.rank) := by decide
theorem bcast_S20_S1x20_1 : S20.BroadcastsInDim S1x20 (![1] : Fin 1 → Fin S1x20.rank) := by decide
theorem bcast_S1x20_S20x20_0_1 : S1x20.BroadcastsInDim S20x20 (![0, 1] : Fin 2 → Fin S20x20.rank) := by decide
theorem reducesTo_S20x20_S_d0_1 : S20x20.ReducesTo [0, 1] S_ := by decide

/-! ## The three scalars the stages use: zero, one and 512, as single-entry arrays. -/

/-- The number zero. -/
def zero : FVec Ideal S_ .f32 := constant (F := Ideal) S_ .f32 0x00000000#32
/-- The number one. -/
def one : FVec Ideal S_ .f32 := constant (F := Ideal) S_ .f32 0x3F800000#32
/-- The number 512, the length of a row. -/
def rowLen : FVec Ideal S_ .f32 := constant (F := Ideal) S_ .f32 0x44000000#32

/-! ## The class term -/

/-- Which of the 100 classes are present: the count is greater than zero. -/
def present100 (n : FVec Ideal S100 .f32) : IVec S100 1 :=
  cmpf .ogt n (broadcastInDim S100 ![] bcast_S_S100 zero)

/-- The centroids of the 100 classes: each row of sums over the larger of its count and one. -/
def cent100 (s : FVec Ideal S100x512 .f32) (n : FVec Ideal S100 .f32) : FVec Ideal S100x512 .f32 :=
  Host.divf (F := Ideal) s
    (broadcastInDim S100x512 ![0, 1] bcast_S100x1_S100x512_0_1
      (broadcastInDim S100x1 ![0] bcast_S100_S100x1_0
        (maximumf n (broadcastInDim S100 ![] bcast_S_S100 one))))

/-- Per class, the mean over its 512 entries of the squared difference to the reference row. -/
def meanSq100 (c rf : FVec Ideal S100x512 .f32) : FVec Ideal S100 .f32 :=
  Host.divf (F := Ideal)
    (Host.reduceAdd (F := Ideal) (mulf (subf c rf) (subf c rf)) zero reducesTo_S100x512_S100_d1 h_S_)
    (broadcastInDim S100 ![] bcast_S_S100 rowLen)

/-- The class term: the present classes' mean squared differences, added. -/
def fineLoss (s : FVec Ideal S100x512 .f32) (n : FVec Ideal S100 .f32) (rf : FVec Ideal S100x512 .f32) :
    FVec Ideal S_ .f32 :=
  Host.reduceAdd (F := Ideal)
    (select (present100 n) (meanSq100 (cent100 s n) rf) (broadcastInDim S100 ![] bcast_S_S100 zero))
    zero reducesTo_S100_S_d0 h_S_

/-! ## The group term -/

/-- Which of the 20 groups are present: the count is greater than zero. -/
def present20 (sn : FVec Ideal S20 .f32) : IVec S20 1 :=
  cmpf .ogt sn (broadcastInDim S20 ![] bcast_S_S20 zero)

/-- The centroids of the 20 groups: each row of sums over the larger of its count and one. -/
def cent20 (ss : FVec Ideal S20x512 .f32) (sn : FVec Ideal S20 .f32) : FVec Ideal S20x512 .f32 :=
  Host.divf (F := Ideal) ss
    (broadcastInDim S20x512 ![0, 1] bcast_S20x1_S20x512_0_1
      (broadcastInDim S20x1 ![0] bcast_S20_S20x1_0
        (maximumf sn (broadcastInDim S20 ![] bcast_S_S20 one))))

/-- Per group, the mean over its 512 entries of the squared difference to the reference row. -/
def meanSq20 (c rs : FVec Ideal S20x512 .f32) : FVec Ideal S20 .f32 :=
  Host.divf (F := Ideal)
    (Host.reduceAdd (F := Ideal) (mulf (subf c rs) (subf c rs)) zero reducesTo_S20x512_S20_d1 h_S_)
    (broadcastInDim S20 ![] bcast_S_S20 rowLen)

/-- The group term: the present groups' mean squared differences, added. -/
def superLoss (ss : FVec Ideal S20x512 .f32) (sn : FVec Ideal S20 .f32) (rs : FVec Ideal S20x512 .f32) :
    FVec Ideal S_ .f32 :=
  Host.reduceAdd (F := Ideal)
    (select (present20 sn) (meanSq20 (cent20 ss sn) rs) (broadcastInDim S20 ![] bcast_S_S20 zero))
    zero reducesTo_S20_S_d0 h_S_

/-! ## The pair term -/

/-- Entry (g, h, d): entry d of centroid g minus entry d of centroid h. -/
def pairDiff (c : FVec Ideal S20x512 .f32) : FVec Ideal S20x20x512 .f32 :=
  subf
    (broadcastInDim S20x20x512 ![0, 1, 2] bcast_S20x1x512_S20x20x512_0_1_2
      (broadcastInDim S20x1x512 ![0, 2] bcast_S20x512_S20x1x512_0_2 c))
    (broadcastInDim S20x20x512 ![0, 1, 2] bcast_S1x20x512_S20x20x512_0_1_2
      (broadcastInDim S1x20x512 ![1, 2] bcast_S20x512_S1x20x512_1_2 c))

/-- Entry (g, h): the squared distance of centroids g and h. -/
def pairSq (c : FVec Ideal S20x512 .f32) : FVec Ideal S20x20 .f32 :=
  Host.reduceAdd (F := Ideal) (mulf (pairDiff c) (pairDiff c)) zero reducesTo_S20x20x512_S20x20_d2 h_S_

/-- The strict upper triangle of the 20 × 20 square: entry (g, h) is set exactly when g < h,
    written as "unset where g + 0 ≥ h, set elsewhere". -/
def upper : IVec S20x20 1 :=
  select
    (cmpi .sge
      (addi (iotaInDim S20x20 32 0) (broadcastInDim S20x20 ![] bcast_S_S20x20 (constantI S_ 32 0#32)))
      (iotaInDim S20x20 32 1))
    (broadcastInDim S20x20 ![] bcast_S_S20x20 (constantI S_ 1 0#1))
    (broadcastInDim S20x20 ![] bcast_S_S20x20 (constantI S_ 1 1#1))

/-- The selected pairs: g < h, group g present and group h present. -/
def pairMask (p : IVec S20 1) : IVec S20x20 1 :=
  andi
    (andi upper
      (broadcastInDim S20x20 ![0, 1] bcast_S20x1_S20x20_0_1 (broadcastInDim S20x1 ![0] bcast_S20_S20x1_0 p)))
    (broadcastInDim S20x20 ![0, 1] bcast_S1x20_S20x20_0_1 (broadcastInDim S1x20 ![1] bcast_S20_S1x20_1 p))

/-- Entry (g, h): the distance of centroids g and h on a selected pair, and one elsewhere. -/
def pairDist (m : IVec S20x20 1) (sq : FVec Ideal S20x20 .f32) : FVec Ideal S20x20 .f32 :=
  Host.sqrt (F := Ideal) (select m sq (broadcastInDim S20x20 ![] bcast_S_S20x20 one))

/-- The pair term: over the selected pairs, the squared difference between the centroids'
    distance and the reference distance, added. -/
def interLoss (ss : FVec Ideal S20x512 .f32) (sn : FVec Ideal S20 .f32) (ri : FVec Ideal S20x20 .f32) :
    FVec Ideal S_ .f32 :=
  Host.reduceAdd (F := Ideal)
    (select (pairMask (present20 sn))
      (mulf (subf (pairDist (pairMask (present20 sn)) (pairSq (cent20 ss sn))) ri)
            (subf (pairDist (pairMask (present20 sn)) (pairSq (cent20 ss sn))) ri))
      (broadcastInDim S20x20 ![] bcast_S_S20x20 zero))
    zero reducesTo_S20x20_S_d0_1 h_S_

/-! ## The loss -/

/-- One times the class term, plus one times the group term, plus one times the pair term. -/
def loss (s : FVec Ideal S100x512 .f32) (n : FVec Ideal S100 .f32)
    (ss : FVec Ideal S20x512 .f32) (sn : FVec Ideal S20 .f32)
    (rf : FVec Ideal S100x512 .f32) (rs : FVec Ideal S20x512 .f32) (ri : FVec Ideal S20x20 .f32) :
    FVec Ideal S_ .f32 :=
  addf
    (addf (mulf one (fineLoss s n rf)) (mulf one (superLoss ss sn rs)))
    (mulf one (interLoss ss sn ri))

end Cert.Loss

end
-- ==== Proof.KTail.lean ====
/-
  The kernel program's operations after its accumulation region, read as the shared loss.

  The region leaves two arrays: per core (2 of them) and per padded class (128 of them) a row of
  512 partial sums, and a partial count. The program then
    * adds the two cores' partial sums, and keeps the first 100 of the 128 padded classes:
      these are the class sums;
    * adds the two cores' partial counts, drops the axis of length one, and keeps the first 100:
      these are the class counts;
    * lays the 100 classes out as 20 groups of 5 consecutive classes and adds over the 5:
      these are the group sums and the group counts;
  and from there on applies exactly the operations of the shared loss to those four arrays and to
  the three arrays of reference values. This module names the four arrays as functions of what
  the buffers hold when the region ends, and proves that the program's result is the shared loss
  of them.
-/
import proofs.«409649_j73005854097881_3_alg».proof.Proof.Gen.KernelIdeal.Launch
import proofs.«409649_j73005854097881_3_alg».proof.Proof.Loss
import Idealize.ShloMosaic.Lib.StableHlo.Run
import Idealize.ShloMosaic.PureOps.Ideal

noncomputable section

namespace Cert.KernelIdeal.Tail

open Idealize.ShloMosaic Idealize.SL.Sem
open Cert.KernelIdeal Cert.KernelIdeal.Gen

/-- The class sums: the two cores' partial sums added, the first 100 of the 128 padded classes. -/
def sK (W : Valuation τ sig (Elt Ideal)) : FVec Ideal Cert.Loss.S100x512 .f32 :=
  extractStridedSlice S100x512 ![0, 0]
    (Host.reduceAdd (F := Ideal) (W (Proc.devRef .tc main_v1_0)) (constant (F := Ideal) S_ .f32 0x00000000#32)
      reducesTo_S2x128x512_S128x512_d0 h_S_)
    slices_S128x512_S100x512_0_0

/-- The class counts: the two cores' partial counts added, the axis of length one dropped, the
    first 100 of the 128 padded classes. -/
def nK (W : Valuation τ sig (Elt Ideal)) : FVec Ideal Cert.Loss.S100 .f32 :=
  extractStridedSlice S100 ![0]
    (shapeCast S128
      (Host.reduceAdd (F := Ideal) (W (Proc.devRef .tc main_v1_1)) (constant (F := Ideal) S_ .f32 0x00000000#32)
        reducesTo_S2x128x1_S128x1_d0 h_S_)
      shapeCasts_S128x1_S128)
    slices_S128_S100_0

/-- The group sums: the class sums laid out as 20 groups of 5 classes, added over the 5. -/
def ssK (W : Valuation τ sig (Elt Ideal)) : FVec Ideal Cert.Loss.S20x512 .f32 :=
  Host.reduceAdd (F := Ideal)
    (shapeCast S20x5x512 (sK W) shapeCasts_S100x512_S20x5x512)
    (constant (F := Ideal) S_ .f32 0x00000000#32) reducesTo_S20x5x512_S20x512_d1 h_S_

/-- The group counts: the class counts laid out as 20 groups of 5 classes, added over the 5. -/
def snK (W : Valuation τ sig (Elt Ideal)) : FVec Ideal Cert.Loss.S20 .f32 :=
  Host.reduceAdd (F := Ideal)
    (shapeCast S20x5 (nK W) shapeCasts_S100_S20x5)
    (constant (F := Ideal) S_ .f32 0x00000000#32) reducesTo_S20x5_S20_d1 h_S_

set_option maxHeartbeats 4000000 in
/-- From whatever the buffers hold when the region ends, the program's operations after the region
    leave in its result buffer the shared loss of the class sums, the class counts, the group sums
    and the group counts read off the region's two output arrays, and of the three arrays of
    reference values. -/
theorem tail_eq (W : Valuation τ sig (Elt Ideal)) :
    StableHlo.after (List.flatten [hostOps1 (F := Ideal), hostOps1_1, hostOps1_2, hostOps1_3, hostOps1_4, hostOps1_5,
        hostOps1_6, hostOps1_7, hostOps1_8, hostOps1_9, hostOps1_10]) W (Proc.devRef .tc main_v64)
      = Cert.Loss.loss (sK W) (nK W) (ssK W) (snK W)
          (W (Proc.devRef .tc main_arg2)) (W (Proc.devRef .tc main_arg3)) (W (Proc.devRef .tc main_arg4)) := by
  simp only [hostOps1, hostOps1_1, hostOps1_2, hostOps1_3, hostOps1_4, hostOps1_5, hostOps1_6, hostOps1_7,
    hostOps1_8, hostOps1_9, hostOps1_10, List.flatten_cons, List.flatten_nil, List.append_nil, List.cons_append,
    List.nil_append]
  after_results_simp
  simp only [StableHlo.TRef.ofBuf, StableHlo.TRef.toBuf, cast_eq]
  rfl

end Cert.KernelIdeal.Tail

end
-- ==== Proof.KIHostRead.lean ====
/-
  The first host steps after the kernel region, read entry by entry in the extended reals, for
  arbitrary arrays.

  The region leaves one 128 × 512 block of sums and one 128 × 1 block of counts per core, for two
  cores. The host adds the two cores' blocks (a sum over the leading axis started from zero), views
  the 128 × 1 counts as a vector of 128, and keeps the first 100 rows of each.

  This module proves: entry (j, d) of the kept sums is the first core's entry (j, d) plus the second
  core's, and entry j of the kept counts is the first core's entry (j, 0) plus the second core's,
  for j below 100.
-/
import proofs.«409649_j73005854097881_3_alg».proof.Proof.Gen.KernelIdeal
import Idealize.ShloMosaic.Lib.ValueIdx
import Idealize.ShloMosaic.Lib.ValueLayout
import Idealize.ShloMosaic.Lib.Pipeline.Value
import Idealize.ShloMosaic.PureOps.Ideal
import Idealize.ShloMosaic.PureOps.Ideal.Laws
import Mathlib.Algebra.BigOperators.Fin

noncomputable section

open scoped BigOperators

namespace Cert.KernelIdeal.HostRead

open Idealize.ShloMosaic Idealize.ShloMosaic.ValueIdx Cert.KernelIdeal Cert.KernelIdeal.Gen

/-- A class index below 100 is a row index below 128. -/
theorem row_lt (j : Fin 100) : j.val < 128 := by omega

/-- The sum over the two cores of a 2 × 128 × 512 array, started from zero, at (r, d). -/
theorem reduce_cores_sums_apply (A : Vec Ideal S2x128x512 .f32) (r : Fin 128) (d : Fin 512) :
    Host.reduceAdd (F := Ideal) A (constant (F := Ideal) S_ .f32 0x00000000#32)
        reducesTo_S2x128x512_S128x512_d0 h_S_ (ix2 r d)
      = A (ix3 (0 : Fin 2) r d) + A (ix3 (1 : Fin 2) r d) := by
  have hR : S2x128x512.Reduces [0] S128x512 := by decide
  show Ideal.hostReduceAdd reducesTo_S2x128x512_S128x512_d0 A (Ideal.ofBits .f32 0x00000000#32) (ix2 r d) = _
  rw [Ideal.hostReduceAdd_single reducesTo_S2x128x512_S128x512_d0 hR, Ideal.ofBits_zero_f32, zero_add]
  show ∑ k : Fin 2, A (hR.lift (ix2 r d) k) = _
  rw [Fin.sum_univ_two]
  have e0 : hR.lift (ix2 r d) (0 : Fin 2) = ix3 (0 : Fin 2) r d := by
    funext ax; apply Fin.ext
    match ax with
    | ⟨0, _⟩ => rfl
    | ⟨1, _⟩ => rfl
    | ⟨2, _⟩ => rfl
  have e1 : hR.lift (ix2 r d) (1 : Fin 2) = ix3 (1 : Fin 2) r d := by
    funext ax; apply Fin.ext
    match ax with
    | ⟨0, _⟩ => rfl
    | ⟨1, _⟩ => rfl
    | ⟨2, _⟩ => rfl
  rw [e0, e1]

/-- The sum over the two cores of a 2 × 128 × 1 array, started from zero, at (r, u). -/
theorem reduce_cores_cnts_apply (B : Vec Ideal S2x128x1 .f32) (r : Fin 128) (u : Fin 1) :
    Host.reduceAdd (F := Ideal) B (constant (F := Ideal) S_ .f32 0x00000000#32)
        reducesTo_S2x128x1_S128x1_d0 h_S_ (ix2 r u)
      = B (ix3 (0 : Fin 2) r u) + B (ix3 (1 : Fin 2) r u) := by
  have hR : S2x128x1.Reduces [0] S128x1 := by decide
  show Ideal.hostReduceAdd reducesTo_S2x128x1_S128x1_d0 B (Ideal.ofBits .f32 0x00000000#32) (ix2 r u) = _
  rw [Ideal.hostReduceAdd_single reducesTo_S2x128x1_S128x1_d0 hR, Ideal.ofBits_zero_f32, zero_add]
  show ∑ k : Fin 2, B (hR.lift (ix2 r u) k) = _
  rw [Fin.sum_univ_two]
  have e0 : hR.lift (ix2 r u) (0 : Fin 2) = ix3 (0 : Fin 2) r u := by
    funext ax; apply Fin.ext
    match ax with
    | ⟨0, _⟩ => rfl
    | ⟨1, _⟩ => rfl
    | ⟨2, _⟩ => rfl
  have e1 : hR.lift (ix2 r u) (1 : Fin 2) = ix3 (1 : Fin 2) r u := by
    funext ax; apply Fin.ext
    match ax with
    | ⟨0, _⟩ => rfl
    | ⟨1, _⟩ => rfl
    | ⟨2, _⟩ => rfl
  rw [e0, e1]

/-- The first 100 rows of a 128 × 512 array, at (j, d). -/
theorem slice_rows_apply {α : Type} (X : S128x512.Idx → α) (j : Fin 100) (d : Fin 512) :
    extractStridedSlice S100x512 ![0, 0] X slices_S128x512_S100x512_0_0 (ix2 j d) = X (ix2 ⟨j.val, row_lt j⟩ d) :=
  extractStridedSlice_apply ![0, 0] X slices_S128x512_S100x512_0_0 (ix2 j d) (ix2 ⟨j.val, row_lt j⟩ d) fun ax => by
    match ax with
    | ⟨0, _⟩ => exact (Nat.zero_add _).symm
    | ⟨1, _⟩ => exact (Nat.zero_add _).symm

/-- The first 100 entries of a vector of 128, at j. -/
theorem slice_vec_apply {α : Type} (X : S128.Idx → α) (j : Fin 100) :
    extractStridedSlice S100 ![0] X slices_S128_S100_0 (ix1 j) = X (ix1 ⟨j.val, row_lt j⟩) :=
  extractStridedSlice_apply ![0] X slices_S128_S100_0 (ix1 j) (ix1 ⟨j.val, row_lt j⟩) fun ax => by
    match ax with
    | ⟨0, _⟩ => exact (Nat.zero_add _).symm

/-- A 128 × 1 column seen as a vector of 128 reads, at r, the column's entry (r, 0). -/
theorem shapeCast_a1_a_apply {α : Type} (X : S128x1.Idx → α) (r : Fin 128) :
    shapeCast S128 X shapeCasts_S128x1_S128 (ix1 r) = X (ix2 r (0 : Fin 1)) :=
  shapeCast_apply X shapeCasts_S128x1_S128 _ _ (by
    rw [Shape.rowMajor_val_two, Shape.rowMajor_val_one]
    show r.val * 1 + 0 = r.val
    rw [Nat.mul_one, Nat.add_zero])

/-- The kept sums at (j, d): the two cores' entries (j, d) added. -/
theorem kept_sums_apply (A : Vec Ideal S2x128x512 .f32) (j : Fin 100) (d : Fin 512) :
    extractStridedSlice S100x512 ![0, 0]
        (Host.reduceAdd (F := Ideal) A (constant (F := Ideal) S_ .f32 0x00000000#32)
          reducesTo_S2x128x512_S128x512_d0 h_S_)
        slices_S128x512_S100x512_0_0 (ix2 j d)
      = A (ix3 (0 : Fin 2) ⟨j.val, row_lt j⟩ d) + A (ix3 (1 : Fin 2) ⟨j.val, row_lt j⟩ d) :=
  (slice_rows_apply _ j d).trans (reduce_cores_sums_apply A ⟨j.val, row_lt j⟩ d)

/-- The kept counts at j: the two cores' entries (j, 0) added. -/
theorem kept_cnts_apply (B : Vec Ideal S2x128x1 .f32) (j : Fin 100) :
    extractStridedSlice S100 ![0]
        (shapeCast S128
          (Host.reduceAdd (F := Ideal) B (constant (F := Ideal) S_ .f32 0x00000000#32)
            reducesTo_S2x128x1_S128x1_d0 h_S_)
          shapeCasts_S128x1_S128)
        slices_S128_S100_0 (ix1 j)
      = B (ix3 (0 : Fin 2) ⟨j.val, row_lt j⟩ (0 : Fin 1)) + B (ix3 (1 : Fin 2) ⟨j.val, row_lt j⟩ (0 : Fin 1)) :=
  (slice_vec_apply _ j).trans
    ((shapeCast_a1_a_apply _ ⟨j.val, row_lt j⟩).trans (reduce_cores_cnts_apply B ⟨j.val, row_lt j⟩ (0 : Fin 1)))

/-- The same with the vector view written as the reshaping step writes it: the cast carried along an
    equation between the two (equal) element types. -/
theorem kept_cnts_apply' (he : main_v3.ty.elt = main_v4.ty.elt) (B : Vec Ideal S2x128x1 .f32) (j : Fin 100) :
    extractStridedSlice S100 ![0]
        ((fun i => he ▸
          shapeCast main_v4.ty.shape
            ((Host.reduceAdd (F := Ideal) B (constant (F := Ideal) S_ .f32 0x00000000#32)
              reducesTo_S2x128x1_S128x1_d0 h_S_ : FVec Ideal S128x1 .f32) :
                main_v3.ty.shape.Idx → Elt Ideal main_v3.ty.elt)
            shapeCasts_S128x1_S128 i) : main_v4.ty.shape.Idx → Elt Ideal main_v4.ty.elt)
        slices_S128_S100_0 (ix1 j)
      = B (ix3 (0 : Fin 2) ⟨j.val, row_lt j⟩ (0 : Fin 1)) + B (ix3 (1 : Fin 2) ⟨j.val, row_lt j⟩ (0 : Fin 1)) :=
  kept_cnts_apply B j

end Cert.KernelIdeal.HostRead

end
-- ==== Proof.Regroup.lean ====
/-
  A sum over 262144 consecutive positions, cut into 32 blocks of 8192 positions and each block
  into 8 chunks of 1024 positions, is the sum over the blocks, over the chunks of a block, and
  over the positions of a chunk: position n is t · 8192 + q · 1024 + k for exactly one block t,
  chunk q and offset k. Stated for any commutative additive monoid.
-/
import Mathlib.Algebra.BigOperators.Fin
import Mathlib.Logic.Equiv.Fin.Basic
import Idealize.ShloMosaic.Lib.ValueIdx

open scoped BigOperators

namespace Cert.Regroup

/-- Position t · 8192 + q · 1024 + k lies below 262144. -/
theorem pos_lt (t : Fin 32) (q : Fin 8) (k : Fin 1024) : t.val * 8192 + q.val * 1024 + k.val < 262144 := by
  omega

/-- The sum over all positions, block by block, chunk by chunk, offset by offset. -/
theorem sum_blocks_chunks {M : Type*} [AddCommMonoid M] (f : Fin 262144 → M) :
    ∑ t : Fin 32, ∑ q : Fin 8, ∑ k : Fin 1024, f ⟨t.val * 8192 + q.val * 1024 + k.val, pos_lt t q k⟩
      = ∑ n : Fin 262144, f n := by
  rw [← Equiv.sum_comp (finProdFinEquiv : Fin 32 × Fin 8192 ≃ Fin 262144) f, Fintype.sum_prod_type]
  refine Finset.sum_congr rfl fun t _ => ?_
  rw [← Equiv.sum_comp (finProdFinEquiv : Fin 8 × Fin 1024 ≃ Fin 8192)
    (fun r : Fin 8192 => f ((finProdFinEquiv : Fin 32 × Fin 8192 ≃ Fin 262144) (t, r))), Fintype.sum_prod_type]
  refine Finset.sum_congr rfl fun q _ => Finset.sum_congr rfl fun k _ => congrArg f (Fin.ext ?_)
  show t.val * 8192 + q.val * 1024 + k.val = (k.val + 1024 * q.val) + 8192 * t.val
  omega

end Cert.Regroup
-- ==== Proof.ScatterRead.lean ====
/-
  The host's accumulating scatter, read at an index, and the sums of five consecutive classes.

  An accumulating scatter adds every update element onto the operand element it lands on.  Where the
  update array is a stack of rows (or of single entries), one index word per row, and the word — read as a
  signed integer — names the operand row the update row is added to, the result at row a is the operand's
  row a plus the sum of the update rows whose word is a; a row whose word is no operand row is dropped.
  From this reading the module derives, for arbitrary operands:
    • scattering 262144 rows (and 262144 ones) into zeros by a label array gives, per class j = 0 … 99, the sum
      of the rows labelled j (and their number), a signed word being j exactly when it is the word of j;
    • scattering 100 rows (and 100 entries) into zeros by the table whose entry k is k / 5 adds, per group
      g = 0 … 19, the five rows 5·g … 5·g + 4;
    • the same group sums formed the other way: the 100 rows regrouped as 20 blocks of 5 in row-major order
      and summed over the block axis.
  Every sum is a finite sum of extended reals.
-/
import proofs.«409649_j73005854097881_3_alg».proof.ReferenceIdeal
import proofs.«409649_j73005854097881_3_alg».proof.Proof.Gen.ReferenceIdeal
import proofs.«409649_j73005854097881_3_alg».proof.KernelIdeal
import proofs.«409649_j73005854097881_3_alg».proof.Proof.Gen.KernelIdeal
import proofs.«409649_j73005854097881_3_alg».proof.Proof.Spec
import Idealize.ShloMosaic.PureOps.Ideal.Laws
import Idealize.ShloMosaic.Lib.ValueIdx
import Idealize.ShloMosaic.Lib.ValueIdxRank1
import Idealize.ShloMosaic.Lib.IdealHost
import Idealize.ShloMosaic.Lib.Pipeline.Value

noncomputable section

open scoped BigOperators

namespace Cert.ReferenceIdeal.ScatterRead

open Idealize.ShloMosaic Idealize.ShloMosaic.ValueIdx

/-- An update lands on operand index i exactly when, on every axis, start plus window coordinate is i's coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  constructor
  · intro h a
    split at h
    · rename_i hh
      have h2 := Option.some.inj h
      have h3 := congrArg (fun f => (f a).val) h2
      simp only at h3
      have := hh a
      omega
    · exact absurd h (by simp)
  · intro h
    have hh : ∀ a, 0 ≤ d.start j idx a + d.window j a ∧ d.start j idx a + d.window j a < s.size a := by
      intro a
      have := h a
      have := (i a).isLt
      omega
    rw [dif_pos hh]
    congr 1
    funext a
    apply Fin.ext
    have := h a
    simp only
    omega

section Rows
variable {A N D w : Nat}

/-- Rows scattered into rows: on the row axis the start is the signed index word of the update's row. -/
theorem rows_start0 (d : ScatterDims ⟨2, ![A, D]⟩ ⟨2, ![N, 1]⟩ ⟨2, ![N, D]⟩)
    (hu : d.updateWindowDims = [1]) (hi : d.insertedWindowDims = [0]) (hs : d.scatterDimsToOperandDims = [0])
    (hv : d.indexVectorDim = 1) (j : (⟨2, ![N, D]⟩ : Shape).Idx) (idx : IVec ⟨2, ![N, 1]⟩ w) :
    d.start j idx 0 = (idx (ix2 (j 0) 0)).toInt := by
  obtain ⟨uw, iw, sd, iv, wf⟩ := d
  simp only at hu hi hs hv
  subst hu hi hs hv
  unfold ScatterDims.start
  rw [dif_pos (by simp)]
  congr 2
  funext b
  unfold ScatterDims.siIdx
  match b with
  | ⟨0, _⟩ =>
    rw [dif_neg (by simp)]
    unfold ScatterDims.siCoord
    apply Fin.ext
    simp
    rfl
  | ⟨1, _⟩ =>
    rw [dif_pos (by simp)]
    apply Fin.ext
    simp

/-- On the column axis the start is zero: the index vector names the row axis only. -/
theorem rows_start1 (d : ScatterDims ⟨2, ![A, D]⟩ ⟨2, ![N, 1]⟩ ⟨2, ![N, D]⟩)
    (hs : d.scatterDimsToOperandDims = [0])
    (j : (⟨2, ![N, D]⟩ : Shape).Idx) (idx : IVec ⟨2, ![N, 1]⟩ w) :
    d.start j idx 1 = 0 := by
  obtain ⟨uw, iw, sd, iv, wf⟩ := d
  simp only at hs
  subst hs
  unfold ScatterDims.start
  rw [dif_neg (by simp)]

/-- The row axis is inserted: its window coordinate is zero. -/
theorem rows_window0 (d : ScatterDims ⟨2, ![A, D]⟩ ⟨2, ![N, 1]⟩ ⟨2, ![N, D]⟩)
    (hi : d.insertedWindowDims = [0]) (j : (⟨2, ![N, D]⟩ : Shape).Idx) :
    d.window j 0 = 0 := by
  obtain ⟨uw, iw, sd, iv, wf⟩ := d
  simp only at hi
  subst hi
  unfold ScatterDims.window
  rw [dif_neg (by simp [ScatterDims.sKept, Shape.kept])]

/-- The column axis is the window: its window coordinate is the update's column. -/
theorem rows_window1 (d : ScatterDims ⟨2, ![A, D]⟩ ⟨2, ![N, 1]⟩ ⟨2, ![N, D]⟩)
    (hu : d.updateWindowDims = [1]) (hi : d.insertedWindowDims = [0]) (j : (⟨2, ![N, D]⟩ : Shape).Idx) :
    d.window j 1 = (j 1).val := by
  obtain ⟨uw, iw, sd, iv, wf⟩ := d
  simp only at hu hi
  subst hu hi
  unfold ScatterDims.window
  rw [dif_pos (by simp [ScatterDims.sKept, Shape.kept])]
  rfl

/-- Update (n, c) lands on (a, c') exactly when row n's index word, read signed, is a and c = c'. -/
theorem rows_lands_iff (d : ScatterDims ⟨2, ![A, D]⟩ ⟨2, ![N, 1]⟩ ⟨2, ![N, D]⟩)
    (hu : d.updateWindowDims = [1]) (hi : d.insertedWindowDims = [0]) (hs : d.scatterDimsToOperandDims = [0])
    (hv : d.indexVectorDim = 1) (n : Fin N) (c : Fin D) (idx : IVec ⟨2, ![N, 1]⟩ w)
    (i : (⟨2, ![A, D]⟩ : Shape).Idx) :
    d.resultIdx? (ix2 n c) idx = some i ↔ (idx (ix2 n 0)).toInt = ((i 0).val : Int) ∧ c.val = (i 1).val := by
  have e0 : d.start (ix2 n c) idx 0 = (idx (ix2 n 0)).toInt := rows_start0 d hu hi hs hv (ix2 n c) idx
  have e1 : d.window (ix2 n c) 1 = c.val := rows_window1 d hu hi (ix2 n c)
  rw [resultIdx?_eq_some_iff, Fin.forall_fin_two, e0, rows_start1 d hs, rows_window0 d hi, e1]
  constructor
  · rintro ⟨h0, h1⟩; exact ⟨by omega, by omega⟩
  · rintro ⟨h0, h1⟩; exact ⟨by omega, by omega⟩

/-- The accumulating scatter of rows read at (a, c): the operand's entry plus the entries c of the update rows whose
    signed index word is a. -/
theorem rows_scatterAdd_apply (d : ScatterDims ⟨2, ![A, D]⟩ ⟨2, ![N, 1]⟩ ⟨2, ![N, D]⟩)
    (hu : d.updateWindowDims = [1]) (hi : d.insertedWindowDims = [0]) (hs : d.scatterDimsToOperandDims = [0])
    (hv : d.indexVectorDim = 1) (x : (⟨2, ![A, D]⟩ : Shape).Idx → EReal) (idx : IVec ⟨2, ![N, 1]⟩ w)
    (upd : (⟨2, ![N, D]⟩ : Shape).Idx → EReal) (i : (⟨2, ![A, D]⟩ : Shape).Idx) :
    Ideal.hostScatterAdd d x idx upd i
      = x i + ∑ n : Fin N, if (idx (ix2 n 0)).toInt = ((i 0).val : Int) then upd (ix2 n (i 1)) else 0 := by
  unfold Ideal.hostScatterAdd
  congr 1
  rw [Finset.sum_filter, sum_idx2]
  refine Finset.sum_congr rfl fun n _ => ?_
  simp only [rows_lands_iff d hu hi hs hv]
  by_cases h : (idx (ix2 n 0)).toInt = ((i 0).val : Int)
  · rw [if_pos h]
    refine (Finset.sum_eq_single (i 1 : Fin D) ?_ ?_).trans (if_pos ⟨h, rfl⟩)
    · intro b _ hb
      exact if_neg fun hc => hb (Fin.ext hc.2)
    · intro hn
      exact absurd (Finset.mem_univ _) hn
  · rw [if_neg h]
    refine Finset.sum_eq_zero fun b _ => ?_
    exact if_neg fun hc => h hc.1

end Rows

section Vec
variable {A N w : Nat}

/-- Entries scattered into a vector: the start is the signed index word of the update's position. -/
theorem vec_start0 (d : ScatterDims ⟨1, ![A]⟩ ⟨2, ![N, 1]⟩ ⟨1, ![N]⟩)
    (hu : d.updateWindowDims = []) (hi : d.insertedWindowDims = [0]) (hs : d.scatterDimsToOperandDims = [0])
    (hv : d.indexVectorDim = 1) (j : (⟨1, ![N]⟩ : Shape).Idx) (idx : IVec ⟨2, ![N, 1]⟩ w) :
    d.start j idx 0 = (idx (ix2 (j 0) 0)).toInt := by
  obtain ⟨uw, iw, sd, iv, wf⟩ := d
  simp only at hu hi hs hv
  subst hu hi hs hv
  unfold ScatterDims.start
  rw [dif_pos (by simp)]
  congr 2
  funext b
  unfold ScatterDims.siIdx
  match b with
  | ⟨0, _⟩ =>
    rw [dif_neg (by simp)]
    unfold ScatterDims.siCoord
    apply Fin.ext
    simp
    rfl
  | ⟨1, _⟩ =>
    rw [dif_pos (by simp)]
    apply Fin.ext
    simp

/-- The one operand axis is inserted: its window coordinate is zero. -/
theorem vec_window0 (d : ScatterDims ⟨1, ![A]⟩ ⟨2, ![N, 1]⟩ ⟨1, ![N]⟩)
    (hi : d.insertedWindowDims = [0]) (j : (⟨1, ![N]⟩ : Shape).Idx) :
    d.window j 0 = 0 := by
  obtain ⟨uw, iw, sd, iv, wf⟩ := d
  simp only at hi
  subst hi
  unfold ScatterDims.window
  rw [dif_neg (by simp [ScatterDims.sKept, Shape.kept])]

/-- Update n lands on a exactly when its index word, read signed, is a. -/
theorem vec_lands_iff (d : ScatterDims ⟨1, ![A]⟩ ⟨2, ![N, 1]⟩ ⟨1, ![N]⟩)
    (hu : d.updateWindowDims = []) (hi : d.insertedWindowDims = [0]) (hs : d.scatterDimsToOperandDims = [0])
    (hv : d.indexVectorDim = 1) (n : Fin N) (idx : IVec ⟨2, ![N, 1]⟩ w) (i : (⟨1, ![A]⟩ : Shape).Idx) :
    d.resultIdx? (ix1 n) idx = some i ↔ (idx (ix2 n 0)).toInt = ((i 0).val : Int) := by
  have e0 : d.start (ix1 n) idx 0 = (idx (ix2 n 0)).toInt := vec_start0 d hu hi hs hv (ix1 n) idx
  rw [resultIdx?_eq_some_iff, Fin.forall_fin_one, e0, vec_window0 d hi]
  constructor
  · intro h0; omega
  · intro h0; omega

/-- The accumulating scatter of entries read at a: the operand's entry plus the updates whose signed index word is a. -/
theorem vec_scatterAdd_apply (d : ScatterDims ⟨1, ![A]⟩ ⟨2, ![N, 1]⟩ ⟨1, ![N]⟩)
    (hu : d.updateWindowDims = []) (hi : d.insertedWindowDims = [0]) (hs : d.scatterDimsToOperandDims = [0])
    (hv : d.indexVectorDim = 1) (x : (⟨1, ![A]⟩ : Shape).Idx → EReal) (idx : IVec ⟨2, ![N, 1]⟩ w)
    (upd : (⟨1, ![N]⟩ : Shape).Idx → EReal) (i : (⟨1, ![A]⟩ : Shape).Idx) :
    Ideal.hostScatterAdd d x idx upd i
      = x i + ∑ n : Fin N, if (idx (ix2 n 0)).toInt = ((i 0).val : Int) then upd (ix1 n) else 0 := by
  unfold Ideal.hostScatterAdd
  congr 1
  rw [Finset.sum_filter, ← Equiv.sum_comp (idxEquiv1 (n := N)).symm]
  refine Finset.sum_congr rfl fun n _ => ?_
  show (if d.resultIdx? (ix1 n) idx = some i then upd (ix1 n) else 0) = _
  simp only [vec_lands_iff d hu hi hs hv]

end Vec

/-- A 32-bit word read signed is the natural number k below 2^31 exactly when it is the word of k. -/
theorem toInt_eq_natCast_iff (v : BitVec 32) (k : Nat) (hk : k < 2147483648) :
    v.toInt = (k : Int) ↔ v = BitVec.ofNat 32 k := by
  constructor
  · intro h
    apply BitVec.eq_of_toNat_eq
    rw [BitVec.toNat_ofNat]
    have := v.isLt
    rw [BitVec.toInt_eq_toNat_cond] at h
    split at h <;> omega
  · rintro rfl
    rw [BitVec.toInt_eq_toNat_cond, BitVec.toNat_ofNat]
    have : k % 2 ^ 32 = k := Nat.mod_eq_of_lt (by omega)
    rw [this]
    split <;> omega

section Reference
variable [Cert.ReferenceIdeal.Facts]
open Cert.ReferenceIdeal.Facts₀

/-- The label column read at (n, 0) is row n's label. -/
theorem labelColumn_apply (lab : IVec S262144 32) (n : Fin 262144) :
    broadcastInDim S262144x1 ![0] bcast_S262144_S262144x1_0 lab (ix2 n 0) = lab (ix1 n) :=
  broadcastInDim_apply ![0] bcast_S262144_S262144x1_0 lab (ix2 n 0) (ix1 n) (by
    intro a
    match a with
    | ⟨0, _⟩ => rfl)

/-- Scattering the 262144 rows into 100 zero rows by their labels gives the class sums. -/
theorem scatterAdd_rows_eq_classSum (x : FVec Ideal S262144x512 .f32) (lab : IVec S262144 32) :
    Host.scatterAdd (F := Ideal) scatter_S100x512_S262144x1_S262144x512_1_0_0_1
        (broadcastInDim S100x512 ![] bcast_S_S100x512 (constant (F := Ideal) S_ .f32 0x00000000#32))
        (broadcastInDim S262144x1 ![0] bcast_S262144_S262144x1_0 lab) x
      = Cert.Spec.classSum x lab := by
  funext i
  refine (rows_scatterAdd_apply _ rfl rfl rfl rfl _ _ _ i).trans ?_
  rw [broadcastInDim_scalar_apply, constant_apply, Ideal.ofBits_zero_f32, zero_add]
  unfold Cert.Spec.classSum
  refine Finset.sum_congr rfl fun n _ => ?_
  rw [labelColumn_apply]
  exact if_congr (toInt_eq_natCast_iff _ _ (by have := idx2_lt0 i; omega)) rfl rfl

/-- Scattering 262144 ones into 100 zeros by the labels gives the class counts. -/
theorem scatterAdd_ones_eq_classCnt (lab : IVec S262144 32) :
    Host.scatterAdd (F := Ideal) scatter_S100_S262144x1_S262144_n_0_0_1
        (broadcastInDim S100 ![] bcast_S_S100 (constant (F := Ideal) S_ .f32 0x00000000#32))
        (broadcastInDim S262144x1 ![0] bcast_S262144_S262144x1_0 lab)
        (broadcastInDim S262144 ![] bcast_S_S262144 (constant (F := Ideal) S_ .f32 0x3F800000#32))
      = Cert.Spec.classCnt lab := by
  funext i
  refine (vec_scatterAdd_apply _ rfl rfl rfl rfl _ _ _ i).trans ?_
  rw [broadcastInDim_scalar_apply, constant_apply, Ideal.ofBits_zero_f32, zero_add]
  unfold Cert.Spec.classCnt
  refine Finset.sum_congr rfl fun n _ => ?_
  rw [labelColumn_apply, broadcastInDim_scalar_apply, constant_apply, Ideal.ofBits_one_f32]
  exact if_congr (toInt_eq_natCast_iff _ _ (by have := (i 0).isLt; have h100 : S100.size 0 = 100 := rfl; omega)) rfl rfl

end Reference

/-- Of 100 consecutive entries in groups of five, those of group g are entries 5·g … 5·g + 4. -/
theorem sum_group {M : Type*} [AddCommMonoid M] (f : Fin 100 → M) (g : Nat) (hg : g < 20) :
    ∑ n : Fin 100, (if n.val / 5 = g then f n else 0) = ∑ q : Fin 5, f ⟨5 * g + q.val, by omega⟩ := by
  rw [← Finset.sum_filter]
  symm
  refine Finset.sum_bij (fun (q : Fin 5) _ => (⟨5 * g + q.val, by omega⟩ : Fin 100)) ?_ ?_ ?_ ?_
  · intro q _
    rw [Finset.mem_filter]
    exact ⟨Finset.mem_univ _, by show (5 * g + q.val) / 5 = g; omega⟩
  · intro q _ q' _ h
    have := congrArg Fin.val h
    simp only at this
    exact Fin.ext (by omega)
  · intro n hn
    rw [Finset.mem_filter] at hn
    have h2 := hn.2
    refine ⟨⟨n.val - 5 * g, by omega⟩, Finset.mem_univ _, Fin.ext ?_⟩
    show 5 * g + (n.val - 5 * g) = n.val
    omega
  · intro q _
    rfl

section ReferenceGroups
variable [Cert.ReferenceIdeal.Facts]
open Cert.ReferenceIdeal.Facts₀

set_option maxRecDepth 8192 in
/-- Entry k of the constant index table is the word of k / 5. -/
theorem lit0_eq (k : Fin 100) : lit0 k = BitVec.ofNat 32 (k.val / 5) := by
  revert k
  decide

/-- The constant index column read at (n, 0) is the word of n / 5. -/
theorem groupColumn_apply (n : Fin 100) :
    broadcastInDim S100x1 ![0] bcast_S100_S100x1_0 (fun i => lit0 (S100.rowMajor i)) (ix2 n 0)
      = BitVec.ofNat 32 (n.val / 5) := by
  rw [broadcastInDim_apply ![0] bcast_S100_S100x1_0 (fun i => lit0 (S100.rowMajor i)) (ix2 n 0) (ix1 n) (by
    intro a
    match a with
    | ⟨0, _⟩ => rfl)]
  have e : S100.rowMajor (ix1 n) = n := Fin.ext (Shape.rowMajor_val_one _)
  show lit0 (S100.rowMajor (ix1 n)) = _
  rw [e, lit0_eq]

/-- The word of n / 5 read signed is g exactly when n / 5 = g. -/
theorem groupWord_iff (n : Fin 100) (g : Nat) :
    (BitVec.ofNat 32 (n.val / 5)).toInt = (g : Int) ↔ n.val / 5 = g := by
  rw [(toInt_eq_natCast_iff (BitVec.ofNat 32 (n.val / 5)) (n.val / 5) (by omega)).2 rfl]
  exact Nat.cast_inj

/-- Scattering the 100 class rows into 20 zero rows by the constant table gives the group sums. -/
theorem scatterAdd_rows_eq_groupSum (s : FVec Ideal S100x512 .f32) :
    Host.scatterAdd (F := Ideal) scatter_S20x512_S100x1_S100x512_1_0_0_1
        (broadcastInDim S20x512 ![] bcast_S_S20x512 (constant (F := Ideal) S_ .f32 0x00000000#32))
        (broadcastInDim S100x1 ![0] bcast_S100_S100x1_0 (fun i => lit0 (S100.rowMajor i))) s
      = Cert.Spec.groupSum s := by
  funext i
  refine (rows_scatterAdd_apply _ rfl rfl rfl rfl _ _ _ i).trans ?_
  rw [broadcastInDim_scalar_apply, constant_apply, Ideal.ofBits_zero_f32, zero_add]
  unfold Cert.Spec.groupSum
  refine Eq.trans ?_ (sum_group (fun n => s (ix2 n (i 1))) (i 0).val (idx2_lt0 i))
  refine Finset.sum_congr rfl fun n _ => ?_
  rw [groupColumn_apply]
  exact if_congr (groupWord_iff n _) rfl rfl

/-- Scattering the 100 class counts into 20 zeros by the constant table gives the group counts. -/
theorem scatterAdd_vec_eq_groupCnt (c : FVec Ideal S100 .f32) :
    Host.scatterAdd (F := Ideal) scatter_S20_S100x1_S100_n_0_0_1
        (broadcastInDim S20 ![] bcast_S_S20 (constant (F := Ideal) S_ .f32 0x00000000#32))
        (broadcastInDim S100x1 ![0] bcast_S100_S100x1_0 (fun i => lit0 (S100.rowMajor i))) c
      = Cert.Spec.groupCnt c := by
  funext i
  refine (vec_scatterAdd_apply _ rfl rfl rfl rfl _ _ _ i).trans ?_
  rw [broadcastInDim_scalar_apply, constant_apply, Ideal.ofBits_zero_f32, zero_add]
  unfold Cert.Spec.groupCnt
  refine Eq.trans ?_ (sum_group (fun n => c (ix1 n)) (i 0).val (i 0).isLt)
  refine Finset.sum_congr rfl fun n _ => ?_
  rw [groupColumn_apply]
  exact if_congr (groupWord_iff n _) rfl rfl

end ReferenceGroups

section KernelGroups
variable [Cert.KernelIdeal.Facts]

/-- The 100 class rows regrouped as 20 blocks of five rows and summed over the block axis give the group sums. -/
theorem reshape_reduce_eq_groupSum (s : FVec Ideal Cert.KernelIdeal.S100x512 .f32) :
    Host.reduceAdd (F := Ideal)
        (shapeCast Cert.KernelIdeal.S20x5x512 s Cert.KernelIdeal.Facts₀.shapeCasts_S100x512_S20x5x512)
        (constant (F := Ideal) Cert.KernelIdeal.S_ .f32 0x00000000#32)
        Cert.KernelIdeal.Facts₀.reducesTo_S20x5x512_S20x512_d1 Cert.KernelIdeal.Facts₀.h_S_
      = Cert.Spec.groupSum s := by
  funext i
  have hr : Cert.KernelIdeal.S20x5x512.Reduces [1] Cert.KernelIdeal.S20x512 := by decide
  rw [hostReduceAdd_apply, Ideal.hostReduceAdd_single _ hr, constant_apply, Ideal.ofBits_zero_f32, zero_add]
  unfold Cert.Spec.groupSum
  refine Finset.sum_congr rfl fun q _ => ?_
  refine shapeCast_apply s _ (hr.lift i q)
    (ix2 ⟨5 * (i 0).val + q.val, Cert.Spec.group_member_lt (i 0) q⟩ (i 1)) ?_
  rw [Shape.rowMajor_val_two, Shape.rowMajor_val_three]
  show (5 * (i 0).val + q.val) * 512 + (i 1).val = ((i 0).val * 5 + q.val) * 512 + (i 1).val
  omega

/-- The 100 class counts regrouped as 20 blocks of five and summed over the block axis give the group counts. -/
theorem reshape_reduce_eq_groupCnt (n : FVec Ideal Cert.KernelIdeal.S100 .f32) :
    Host.reduceAdd (F := Ideal)
        (shapeCast Cert.KernelIdeal.S20x5 n Cert.KernelIdeal.Facts₀.shapeCasts_S100_S20x5)
        (constant (F := Ideal) Cert.KernelIdeal.S_ .f32 0x00000000#32)
        Cert.KernelIdeal.Facts₀.reducesTo_S20x5_S20_d1 Cert.KernelIdeal.Facts₀.h_S_
      = Cert.Spec.groupCnt n := by
  funext i
  have hr : Cert.KernelIdeal.S20x5.Reduces [1] Cert.KernelIdeal.S20 := by decide
  rw [hostReduceAdd_apply, Ideal.hostReduceAdd_single _ hr, constant_apply, Ideal.ofBits_zero_f32, zero_add]
  unfold Cert.Spec.groupCnt
  refine Finset.sum_congr rfl fun q _ => ?_
  refine shapeCast_apply n _ (hr.lift i q)
    (ix1 ⟨5 * (i 0).val + q.val, Cert.Spec.group_member_lt (i 0) q⟩) ?_
  rw [Shape.rowMajor_val_one, Shape.rowMajor_val_two]
  show 5 * (i 0).val + q.val = (i 0).val * 5 + q.val
  omega

end KernelGroups

end Cert.ReferenceIdeal.ScatterRead
end
-- ==== Proof.KIResult.lean ====
/-
  The idealized kernel program's result, as a value of its arguments.

  At the ideal instance. After the region the two result arrays hold, for each core, the sums of its 16
  points' addends. The first host lines add the two cores and keep classes 0 … 99: entry (j, d) is then the
  sum over all 32 points of the addends, which, the points' rows being the 262144 rows in order, is the
  class sum of the specification; likewise the counts. The next lines form the group sums by reshaping to
  20 × 5 and adding over the 5. Everything after that is the shared loss function of the class sums, class
  counts, group sums, group counts and the three reference arguments, which the region and the later
  lines leave as launched.
-/
import proofs.«409649_j73005854097881_3_alg».proof.Proof.KIArrays
import Idealize.ShloMosaic.Lib.Pipeline.Value
import proofs.«409649_j73005854097881_3_alg».proof.Proof.KTail
import proofs.«409649_j73005854097881_3_alg».proof.Proof.KIHostRead
import proofs.«409649_j73005854097881_3_alg».proof.Proof.Regroup
import proofs.«409649_j73005854097881_3_alg».proof.Proof.ScatterRead
import proofs.«409649_j73005854097881_3_alg».proof.Proof.Spec

set_option maxRecDepth 16384

noncomputable section

namespace Cert.KernelIdeal.Around

open Idealize.ShloMosaic Idealize.ShloMosaic.TcCoe Idealize.ShloMosaic.Tactic
open Idealize.SL Idealize.SL.Sem
open Idealize.ShloMosaic.Pipeline (Dat)
open Cert.KernelIdeal Cert.KernelIdeal.Gen

variable {F : FTy → Type} [FloatOps F]

open Idealize.ShloMosaic.ValueIdx
open scoped BigOperators

variable (m : (ℓ : Loc nD τ sig) → Buf (Elt Ideal) ℓ) (ρ : Dev nD → PrngReg)

/-- The buffers as the region leaves them: its arrays after the last point, everything else as it found it. -/
abbrev exitVal (c : Dev nD) : Valuation τ sig (Elt Ideal) :=
  Pipeline.withArrays spec0 c (entry m c) fun w => (dats m 0 c).arrAt w cfg0.N

theorem exit_sums (c : Dev nD) : exitVal m c (Proc.devRef .tc main_v1_0) = sumsFinal m c :=
  (Pipeline.withArrays_arr spec0 launch0.win.arr_inj c _ _ 2).trans (sums_final m c)

theorem exit_cnts (c : Dev nD) : exitVal m c (Proc.devRef .tc main_v1_1) = cntsFinal m c :=
  (Pipeline.withArrays_arr spec0 launch0.win.arr_inj c _ _ 3).trans (cnts_final m c)

/-- A buffer that is no array of the region and that no host line writes is, at the region's exit, as launched. -/
theorem exit_kept (c : Dev nD) (b : Ref sig .tc) (hne : ∀ w, Pipeline.arrRef spec0 w ≠ b) (hv0 : b ≠ main_v0) :
    exitVal m c (Proc.devRef .tc b) = m ((c : Thread nD τ).loc b) :=
  (Pipeline.withArrays_of_ne spec0 c (entry m c) _ b hne).trans (entry_of_kept m c b hv0)

/-- The addends of all 32 points, summed, are the class sum: the points' rows are the 262144 rows in order. -/
theorem addends_sum (c : Dev nD) (j : Fin 100) (d : Fin 512) :
    ∑ t ∈ Finset.range 32, sumAddend m c t ⟨j.val, Cert.KernelIdeal.HostRead.row_lt j⟩ d
      = Cert.Spec.classSum (rowsArr m c) (labelsArr m c) (ix2 j d) := by
  rw [← Fin.sum_univ_eq_sum_range (fun t => sumAddend m c t ⟨j.val, Cert.KernelIdeal.HostRead.row_lt j⟩ d) 32]
  unfold Cert.Spec.classSum
  rw [← Cert.Regroup.sum_blocks_chunks]
  refine Finset.sum_congr rfl fun t _ => ?_
  unfold sumAddend
  rw [dif_pos t.isLt]
  refine Finset.sum_congr rfl fun q _ => Finset.sum_congr rfl fun k _ => ?_
  have e : (⟨8192 * t.val + 1024 * q.val + k.val, row_lt t.isLt q.isLt k.isLt⟩ : Fin 262144)
      = ⟨t.val * 8192 + q.val * 1024 + k.val, Cert.Regroup.pos_lt t q k⟩ := Fin.ext (by show 8192 * t.val + 1024 * q.val + k.val = t.val * 8192 + q.val * 1024 + k.val; omega)
  rw [e]

/-- Likewise the count addends are the class count. -/
theorem addends_cnt (c : Dev nD) (j : Fin 100) :
    ∑ t ∈ Finset.range 32, cntAddend m c t ⟨j.val, Cert.KernelIdeal.HostRead.row_lt j⟩
      = Cert.Spec.classCnt (labelsArr m c) (ix1 j) := by
  rw [← Fin.sum_univ_eq_sum_range (fun t => cntAddend m c t ⟨j.val, Cert.KernelIdeal.HostRead.row_lt j⟩) 32]
  unfold Cert.Spec.classCnt
  rw [← Cert.Regroup.sum_blocks_chunks]
  refine Finset.sum_congr rfl fun t _ => ?_
  unfold cntAddend
  rw [dif_pos t.isLt]
  refine Finset.sum_congr rfl fun q _ => Finset.sum_congr rfl fun k _ => ?_
  have e : (⟨8192 * t.val + 1024 * q.val + k.val, row_lt t.isLt q.isLt k.isLt⟩ : Fin 262144)
      = ⟨t.val * 8192 + q.val * 1024 + k.val, Cert.Regroup.pos_lt t q k⟩ := Fin.ext (by show 8192 * t.val + 1024 * q.val + k.val = t.val * 8192 + q.val * 1024 + k.val; omega)
  rw [e]

/-- The two cores' 16 points each are the 32 points. -/
theorem two_cores (f : Nat → EReal) :
    (∑ t ∈ Finset.Ico 0 16, f t) + (∑ t ∈ Finset.Ico 16 32, f t) = ∑ t ∈ Finset.range 32, f t := by
  rw [Finset.range_eq_Ico]
  exact Finset.sum_Ico_consecutive f (by omega) (by omega)

/-- The kernel program's class sums are the specification's. -/
theorem kernel_sums (c : Dev nD) :
    Cert.KernelIdeal.Tail.sK (exitVal m c) = Cert.Spec.classSum (rowsArr m c) (labelsArr m c) := by
  funext i
  obtain ⟨j, d, rfl⟩ : ∃ (j : Fin 100) (d : Fin 512), i = ix2 j d := ⟨i 0, i 1, eq_ix2 i⟩
  unfold Cert.KernelIdeal.Tail.sK
  rw [exit_sums m c]
  refine (Cert.KernelIdeal.HostRead.kept_sums_apply (sumsFinal m c) j d).trans ?_
  rw [← addends_sum m c j d]
  exact two_cores (fun t => sumAddend m c t ⟨j.val, Cert.KernelIdeal.HostRead.row_lt j⟩ d)

/-- The kernel program's class counts are the specification's. -/
theorem kernel_cnts (c : Dev nD) :
    Cert.KernelIdeal.Tail.nK (exitVal m c) = Cert.Spec.classCnt (labelsArr m c) := by
  funext i
  obtain ⟨j, rfl⟩ : ∃ (j : Fin 100), i = ix1 j := ⟨i 0, eq_ix1 i⟩
  unfold Cert.KernelIdeal.Tail.nK
  rw [exit_cnts m c]
  refine (Cert.KernelIdeal.HostRead.kept_cnts_apply (cntsFinal m c) j).trans ?_
  rw [← addends_cnt m c j]
  exact two_cores (fun t => cntAddend m c t ⟨j.val, Cert.KernelIdeal.HostRead.row_lt j⟩)

/-- The specification's loss of the launch contents of core c: what both programs end with. -/
abbrev lossOf (rows : Vec Ideal S262144x512 .f32) (labels : Vec Ideal S262144 .i32)
    (rf : Vec Ideal S100x512 .f32) (rs : Vec Ideal S20x512 .f32) (ri : Vec Ideal S20x20 .f32) : Vec Ideal S_ .f32 :=
  Cert.Loss.loss (Cert.Spec.classSum rows labels) (Cert.Spec.classCnt labels)
    (Cert.Spec.groupSum (Cert.Spec.classSum rows labels)) (Cert.Spec.groupCnt (Cert.Spec.classCnt labels)) rf rs ri

/-- The result buffer after the later lines is the loss of the launch contents. -/
theorem kernel_result (c : Dev nD) :
    Pipeline.afterTail₀ cfgs (dats m) 0 (entry m) tailOps c main_v64
      = lossOf (rowsArr m c) (labelsArr m c) (m ((c : Thread nD τ).loc main_arg2)) (m ((c : Thread nD τ).loc main_arg3))
          (m ((c : Thread nD τ).loc main_arg4)) := by
  unfold Pipeline.afterTail₀
  refine (Cert.KernelIdeal.Tail.tail_eq (exitVal m c)).trans ?_
  have hs := kernel_sums m c
  have hn := kernel_cnts m c
  have hss : Cert.KernelIdeal.Tail.ssK (exitVal m c) = Cert.Spec.groupSum (Cert.Spec.classSum (rowsArr m c) (labelsArr m c)) := by
    unfold Cert.KernelIdeal.Tail.ssK
    rw [hs]
    exact Cert.ReferenceIdeal.ScatterRead.reshape_reduce_eq_groupSum _
  have hsn : Cert.KernelIdeal.Tail.snK (exitVal m c) = Cert.Spec.groupCnt (Cert.Spec.classCnt (labelsArr m c)) := by
    unfold Cert.KernelIdeal.Tail.snK
    rw [hn]
    exact Cert.ReferenceIdeal.ScatterRead.reshape_reduce_eq_groupCnt _
  rw [hs, hn, hss, hsn, exit_kept m c main_arg2 (by decide) (by decide), exit_kept m c main_arg3 (by decide) (by decide),
    exit_kept m c main_arg4 (by decide) (by decide)]

/-- The run of the idealized kernel program, read: the result at the loss of the launch contents, the arguments unchanged. -/
theorem run_result : θ_run defs (onTc (τ := τ) (main (F := Ideal))) ⟨m, fun _ => 0, ρ⟩ (fun r => ∀ c : Dev nD,
      r.2.mem ((c.tc : Thread nD τ).loc main_v64)
        = lossOf (rowsArr m c) (labelsArr m c) (m ((c : Thread nD τ).loc main_arg2)) (m ((c : Thread nD τ).loc main_arg3))
            (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v64 (mem_rest main_v64)).trans (kernel_result m c),
     ((h c).1 0).trans (((dats m 0 c).arrAt_in 0 rfl _).trans ((A_eq m c 0).trans (entry_of_kept m c main_arg0 (by decide)))),
     ((h c).2 main_arg1 (mem_rest main_arg1)).trans ((exit_of_kept m (dats m) c main_arg1 (by decide) (by decide)).trans (entry_of_kept m c main_arg1 (by decide))),
     ((h c).2 main_arg2 (mem_rest main_arg2)).trans ((exit_of_kept m (dats m) c main_arg2 (by decide) (by decide)).trans (entry_of_kept m c main_arg2 (by decide))),
     ((h c).2 main_arg3 (mem_rest main_arg3)).trans ((exit_of_kept m (dats m) c main_arg3 (by decide) (by decide)).trans (entry_of_kept m c main_arg3 (by decide))),
     ((h c).2 main_arg4 (mem_rest main_arg4)).trans ((exit_of_kept m (dats m) c main_arg4 (by decide) (by decide)).trans (entry_of_kept m c main_arg4 (by decide)))⟩)
    (run_main (F := Ideal) m ρ)

end Cert.KernelIdeal.Around

end
-- ==== Proof.RefRun.lean ====
/-
  The reference program's run, read as a list of operations.

  The reference is a straight line of tensor operations with no loop and no kernel: it zero-fills
  accumulators, adds every row of the 262144 x 512 input and a one per row into the class named by
  the row's label (100 classes), adds each class's sum and count into its group of five (20 groups),
  divides sums by counts clamped below by one to get class means and group means, takes three
  mean-squared distances (class means to their targets over the classes that have a row, group
  means to their targets over the groups that have a row, and the square root of each squared
  distance between two distinct present groups, strictly above the diagonal, to its target), and adds the three
  numbers. Five of its steps are written as small functions ("choose one of two arrays entry by
  entry under a mask", four times, and "keep the part strictly above the diagonal"); a function
  call runs the function's own steps on the caller's arrays, so each call is replaced here by
  those steps.

  This module states the program as the LIST of its 106 elementary steps in order, proves the
  program equal to running that list, and concludes: from any starting memory, every fair
  execution terminates; the scalar result then holds what the list's steps compute, one after
  another, from the five argument arrays as they were at the start; and the five argument arrays
  are unchanged, because no step writes to any of them.
-/
import proofs.«409649_j73005854097881_3_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
/-- The program's 106 steps in order. Steps 29-30, 58-59, 72-80, 88-90 and 95-96 are the bodies of the
    five function calls (masked choice at 100 entries, at 20 entries, the strict upper triangle of a
    20 x 20 mask, masked choice at 20 x 20 entries twice), each written over the arrays its call uses. -/
abbrev ops : List (HloOp τ sig (Elt F)) :=
  [ StableHlo.nullary main_c (fun i => lit0 (S100.rowMajor i)),
    StableHlo.nullary main_cst (constant S_ .f32 0x3F800000#32),
    StableHlo.unary main_cst main_v0 (broadcastInDim S262144 ![] bcast_S_S262144 : (⟨S_, .f32⟩ : BufTy).Contents (Elt F) → (⟨S262144, .f32⟩ : BufTy).Contents (Elt F)),
    StableHlo.nullary main_cst_0 (constant S_ .f32 0x00000000#32),
    StableHlo.unary main_cst_0 main_v1 (broadcastInDim S100x512 ![] bcast_S_S100x512 : (⟨S_, .f32⟩ : BufTy).Contents (Elt F) → (⟨S100x512, .f32⟩ : BufTy).Contents (Elt F)),
    StableHlo.unary main_arg1 main_v2 (broadcastInDim S262144x1 ![0] bcast_S262144_S262144x1_0 : (⟨S262144, .i32⟩ : BufTy).Contents (Elt F) → (⟨S262144x1, .i32⟩ : BufTy).Contents (Elt F)),
    StableHlo.ternary main_v1 main_v2 main_arg0 main_v3 ((fun x i u => Host.scatterAdd scatter_S100x512_S262144x1_S262144x512_1_0_0_1 x i u) : (⟨S100x512, .f32⟩ : BufTy).Contents (Elt F) → (⟨S262144x1, .i32⟩ : BufTy).Contents (Elt F) → (⟨S262144x512, .f32⟩ : BufTy).Contents (Elt F) → (⟨S100x512, .f32⟩ : BufTy).Contents (Elt F)),
    StableHlo.nullary main_cst_1 (constant S_ .f32 0x00000000#32),
    StableHlo.unary main_cst_1 main_v4 (broadcastInDim S100 ![] bcast_S_S100 : (⟨S_, .f32⟩ : BufTy).Contents (Elt F) → (⟨S100, .f32⟩ : BufTy).Contents (Elt F)),
    StableHlo.unary main_arg1 main_v5 (broadcastInDim S262144x1 ![0] bcast_S262144_S262144x1_0 : (⟨S262144, .i32⟩ : BufTy).Contents (Elt F) → (⟨S262144x1, .i32⟩ : BufTy).Contents (Elt F)),
    StableHlo.ternary main_v4 main_v5 main_v0 main_v6 ((fun x i u => Host.scatterAdd scatter_S100_S262144x1_S262144_n_0_0_1 x i u) : (⟨S100, .f32⟩ : BufTy).Contents (Elt F) → (⟨S262144x1, .i32⟩ : BufTy).Contents (Elt F) → (⟨S262144, .f32⟩ : BufTy).Contents (Elt F) → (⟨S100, .f32⟩ : BufTy).Contents (Elt F)),
    StableHlo.nullary main_cst_2 (constant S_ .f32 0x00000000#32),
    StableHlo.unary main_cst_2 main_v7 (broadcastInDim S100 ![] bcast_S_S100 : (⟨S_, .f32⟩ : BufTy).Contents (Elt F) → (⟨S100, .f32⟩ : BufTy).Contents (Elt F)),
    StableHlo.binary main_v6 main_v7 main_v8 (cmpf .ogt : (⟨S100, .f32⟩ : BufTy).Contents (Elt F) → (⟨S100, .f32⟩ : BufTy).Contents (Elt F) → (⟨S100, .i1⟩ : BufTy).Contents (Elt F)),
    StableHlo.nullary main_cst_3 (constant S_ .f32 0x3F800000#32),
    StableHlo.unary main_cst_3 main_v9 (broadcastInDim S100 ![] bcast_S_S100 : (⟨S_, .f32⟩ : BufTy).Contents (Elt F) → (⟨S100, .f32⟩ : BufTy).Contents (Elt F)),
    StableHlo.binary main_v6 main_v9 main_v10 (maximumf : (⟨S100, .f32⟩ : BufTy).Contents (Elt F) → (⟨S100, .f32⟩ : BufTy).Contents (Elt F) → (⟨S100, .f32⟩ : BufTy).Contents (Elt F)),
    StableHlo.unary main_v10 main_v11 (broadcastInDim S100x1 ![0] bcast_S100_S100x1_0 : (⟨S100, .f32⟩ : BufTy).Contents (Elt F) → (⟨S100x1, .f32⟩ : BufTy).Contents (Elt F)),
    StableHlo.unary main_v11 main_v12 (broadcastInDim S100x512 ![0, 1] bcast_S100x1_S100x512_0_1 : (⟨S100x1, .f32⟩ : BufTy).Contents (Elt F) → (⟨S100x512, .f32⟩ : BufTy).Contents (Elt F)),
    StableHlo.binary main_v3 main_v12 main_v13 (Host.divf : (⟨S100x512, .f32⟩ : BufTy).Contents (Elt F) → (⟨S100x512, .f32⟩ : BufTy).Contents (Elt F) → (⟨S100x512, .f32⟩ : BufTy).Contents (Elt F)),
    StableHlo.binary main_v13 main_arg2 main_v14 (subf : (⟨S100x512, .f32⟩ : BufTy).Contents (Elt F) → (⟨S100x512, .f32⟩ : BufTy).Contents (Elt F) → (⟨S100x512, .f32⟩ : BufTy).Contents (Elt F)),
    StableHlo.binary main_v14 main_v14 main_v15 (mulf : (⟨S100x512, .f32⟩ : BufTy).Contents (Elt F) → (⟨S100x512, .f32⟩ : BufTy).Contents (Elt F) → (⟨S100x512, .f32⟩ : BufTy).Contents (Elt F)),
    StableHlo.nullary main_cst_4 (constant S_ .f32 0x00000000#32),
    StableHlo.binary main_v15 main_cst_4 main_v16 ((fun x v => Host.reduceAdd x v reducesTo_S100x512_S100_d1 h_S_) : (⟨S100x512, .f32⟩ : BufTy).Contents (Elt F) → (⟨S_, .f32⟩ : BufTy).Contents (Elt F) → (⟨S100, .f32⟩ : BufTy).Contents (Elt F)),
    StableHlo.nullary main_cst_5 (constant S_ .f32 0x44000000#32),
    StableHlo.unary main_cst_5 main_v17 (broadcastInDim S100 ![] bcast_S_S100 : (⟨S_, .f32⟩ : BufTy).Contents (Elt F) → (⟨S100, .f32⟩ : BufTy).Contents (Elt F)),
    StableHlo.binary main_v16 main_v17 main_v18 (Host.divf : (⟨S100, .f32⟩ : BufTy).Contents (Elt F) → (⟨S100, .f32⟩ : BufTy).Contents (Elt F) → (⟨S100, .f32⟩ : BufTy).Contents (Elt F)),
    StableHlo.nullary main_cst_6 (constant S_ .f32 0x00000000#32),
    StableHlo.TRef.unary (TRef.of (T := ⟨S_, .f32⟩) main_cst_6) (TRef.of (T := ⟨S100, .f32⟩) main_call0_v0) (broadcastInDim S100 ![] bcast_S_S100),
    StableHlo.TRef.ternary (TRef.of (T := ⟨S100, .i1⟩) main_v8) (TRef.of (T := ⟨S100, .f32⟩) main_v18) (TRef.of (T := ⟨S100, .f32⟩) main_call0_v0) (TRef.of (T := ⟨S100, .f32⟩) main_v19) select,
    StableHlo.nullary main_cst_7 (constant S_ .f32 0x00000000#32),
    StableHlo.binary main_v19 main_cst_7 main_v20 ((fun x v => Host.reduceAdd x v reducesTo_S100_S_d0 h_S_) : (⟨S100, .f32⟩ : BufTy).Contents (Elt F) → (⟨S_, .f32⟩ : BufTy).Contents (Elt F) → (⟨S_, .f32⟩ : BufTy).Contents (Elt F)),
    StableHlo.nullary main_cst_8 (constant S_ .f32 0x00000000#32),
    StableHlo.unary main_cst_8 main_v21 (broadcastInDim S20x512 ![] bcast_S_S20x512 : (⟨S_, .f32⟩ : BufTy).Contents (Elt F) → (⟨S20x512, .f32⟩ : BufTy).Contents (Elt F)),
    StableHlo.unary main_c main_v22 (broadcastInDim S100x1 ![0] bcast_S100_S100x1_0 : (⟨S100, .i32⟩ : BufTy).Contents (Elt F) → (⟨S100x1, .i32⟩ : BufTy).Contents (Elt F)),
    StableHlo.ternary main_v21 main_v22 main_v3 main_v23 ((fun x i u => Host.scatterAdd scatter_S20x512_S100x1_S100x512_1_0_0_1 x i u) : (⟨S20x512, .f32⟩ : BufTy).Contents (Elt F) → (⟨S100x1, .i32⟩ : BufTy).Contents (Elt F) → (⟨S100x512, .f32⟩ : BufTy).Contents (Elt F) → (⟨S20x512, .f32⟩ : BufTy).Contents (Elt F)),
    StableHlo.nullary main_cst_9 (constant S_ .f32 0x00000000#32),
    StableHlo.unary main_cst_9 main_v24 (broadcastInDim S20 ![] bcast_S_S20 : (⟨S_, .f32⟩ : BufTy).Contents (Elt F) → (⟨S20, .f32⟩ : BufTy).Contents (Elt F)),
    StableHlo.unary main_c main_v25 (broadcastInDim S100x1 ![0] bcast_S100_S100x1_0 : (⟨S100, .i32⟩ : BufTy).Contents (Elt F) → (⟨S100x1, .i32⟩ : BufTy).Contents (Elt F)),
    StableHlo.ternary main_v24 main_v25 main_v6 main_v26 ((fun x i u => Host.scatterAdd scatter_S20_S100x1_S100_n_0_0_1 x i u) : (⟨S20, .f32⟩ : BufTy).Contents (Elt F) → (⟨S100x1, .i32⟩ : BufTy).Contents (Elt F) → (⟨S100, .f32⟩ : BufTy).Contents (Elt F) → (⟨S20, .f32⟩ : BufTy).Contents (Elt F)),
    StableHlo.nullary main_cst_10 (constant S_ .f32 0x00000000#32),
    StableHlo.unary main_cst_10 main_v27 (broadcastInDim S20 ![] bcast_S_S20 : (⟨S_, .f32⟩ : BufTy).Contents (Elt F) → (⟨S20, .f32⟩ : BufTy).Contents (Elt F)),
    StableHlo.binary main_v26 main_v27 main_v28 (cmpf .ogt : (⟨S20, .f32⟩ : BufTy).Contents (Elt F) → (⟨S20, .f32⟩ : BufTy).Contents (Elt F) → (⟨S20, .i1⟩ : BufTy).Contents (Elt F)),
    StableHlo.nullary main_cst_11 (constant S_ .f32 0x3F800000#32),
    StableHlo.unary main_cst_11 main_v29 (broadcastInDim S20 ![] bcast_S_S20 : (⟨S_, .f32⟩ : BufTy).Contents (Elt F) → (⟨S20, .f32⟩ : BufTy).Contents (Elt F)),
    StableHlo.binary main_v26 main_v29 main_v30 (maximumf : (⟨S20, .f32⟩ : BufTy).Contents (Elt F) → (⟨S20, .f32⟩ : BufTy).Contents (Elt F) → (⟨S20, .f32⟩ : BufTy).Contents (Elt F)),
    StableHlo.unary main_v30 main_v31 (broadcastInDim S20x1 ![0] bcast_S20_S20x1_0 : (⟨S20, .f32⟩ : BufTy).Contents (Elt F) → (⟨S20x1, .f32⟩ : BufTy).Contents (Elt F)),
    StableHlo.unary main_v31 main_v32 (broadcastInDim S20x512 ![0, 1] bcast_S20x1_S20x512_0_1 : (⟨S20x1, .f32⟩ : BufTy).Contents (Elt F) → (⟨S20x512, .f32⟩ : BufTy).Contents (Elt F)),
    StableHlo.binary main_v23 main_v32 main_v33 (Host.divf : (⟨S20x512, .f32⟩ : BufTy).Contents (Elt F) → (⟨S20x512, .f32⟩ : BufTy).Contents (Elt F) → (⟨S20x512, .f32⟩ : BufTy).Contents (Elt F)),
    StableHlo.binary main_v33 main_arg3 main_v34 (subf : (⟨S20x512, .f32⟩ : BufTy).Contents (Elt F) → (⟨S20x512, .f32⟩ : BufTy).Contents (Elt F) → (⟨S20x512, .f32⟩ : BufTy).Contents (Elt F)),
    StableHlo.binary main_v34 main_v34 main_v35 (mulf : (⟨S20x512, .f32⟩ : BufTy).Contents (Elt F) → (⟨S20x512, .f32⟩ : BufTy).Contents (Elt F) → (⟨S20x512, .f32⟩ : BufTy).Contents (Elt F)),
    StableHlo.nullary main_cst_12 (constant S_ .f32 0x00000000#32),
    StableHlo.binary main_v35 main_cst_12 main_v36 ((fun x v => Host.reduceAdd x v reducesTo_S20x512_S20_d1 h_S_) : (⟨S20x512, .f32⟩ : BufTy).Contents (Elt F) → (⟨S_, .f32⟩ : BufTy).Contents (Elt F) → (⟨S20, .f32⟩ : BufTy).Contents (Elt F)),
    StableHlo.nullary main_cst_13 (constant S_ .f32 0x44000000#32),
    StableHlo.unary main_cst_13 main_v37 (broadcastInDim S20 ![] bcast_S_S20 : (⟨S_, .f32⟩ : BufTy).Contents (Elt F) → (⟨S20, .f32⟩ : BufTy).Contents (Elt F)),
    StableHlo.binary main_v36 main_v37 main_v38 (Host.divf : (⟨S20, .f32⟩ : BufTy).Contents (Elt F) → (⟨S20, .f32⟩ : BufTy).Contents (Elt F) → (⟨S20, .f32⟩ : BufTy).Contents (Elt F)),
    StableHlo.nullary main_cst_14 (constant S_ .f32 0x00000000#32),
    StableHlo.TRef.unary (TRef.of (T := ⟨S_, .f32⟩) main_cst_14) (TRef.of (T := ⟨S20, .f32⟩) main_call1_v0) (broadcastInDim S20 ![] bcast_S_S20),
    StableHlo.TRef.ternary (TRef.of (T := ⟨S20, .i1⟩) main_v28) (TRef.of (T := ⟨S20, .f32⟩) main_v38) (TRef.of (T := ⟨S20, .f32⟩) main_call1_v0) (TRef.of (T := ⟨S20, .f32⟩) main_v39) select,
    StableHlo.nullary main_cst_15 (constant S_ .f32 0x00000000#32),
    StableHlo.binary main_v39 main_cst_15 main_v40 ((fun x v => Host.reduceAdd x v reducesTo_S20_S_d0 h_S_) : (⟨S20, .f32⟩ : BufTy).Contents (Elt F) → (⟨S_, .f32⟩ : BufTy).Contents (Elt F) → (⟨S_, .f32⟩ : BufTy).Contents (Elt F)),
    StableHlo.unary main_v33 main_v41 (broadcastInDim S20x1x512 ![0, 2] bcast_S20x512_S20x1x512_0_2 : (⟨S20x512, .f32⟩ : BufTy).Contents (Elt F) → (⟨S20x1x512, .f32⟩ : BufTy).Contents (Elt F)),
    StableHlo.unary main_v33 main_v42 (broadcastInDim S1x20x512 ![1, 2] bcast_S20x512_S1x20x512_1_2 : (⟨S20x512, .f32⟩ : BufTy).Contents (Elt F) → (⟨S1x20x512, .f32⟩ : BufTy).Contents (Elt F)),
    StableHlo.unary main_v41 main_v43 (broadcastInDim S20x20x512 ![0, 1, 2] bcast_S20x1x512_S20x20x512_0_1_2 : (⟨S20x1x512, .f32⟩ : BufTy).Contents (Elt F) → (⟨S20x20x512, .f32⟩ : BufTy).Contents (Elt F)),
    StableHlo.unary main_v42 main_v44 (broadcastInDim S20x20x512 ![0, 1, 2] bcast_S1x20x512_S20x20x512_0_1_2 : (⟨S1x20x512, .f32⟩ : BufTy).Contents (Elt F) → (⟨S20x20x512, .f32⟩ : BufTy).Contents (Elt F)),
    StableHlo.binary main_v43 main_v44 main_v45 (subf : (⟨S20x20x512, .f32⟩ : BufTy).Contents (Elt F) → (⟨S20x20x512, .f32⟩ : BufTy).Contents (Elt F) → (⟨S20x20x512, .f32⟩ : BufTy).Contents (Elt F)),
    StableHlo.binary main_v45 main_v45 main_v46 (mulf : (⟨S20x20x512, .f32⟩ : BufTy).Contents (Elt F) → (⟨S20x20x512, .f32⟩ : BufTy).Contents (Elt F) → (⟨S20x20x512, .f32⟩ : BufTy).Contents (Elt F)),
    StableHlo.nullary main_cst_16 (constant S_ .f32 0x00000000#32),
    StableHlo.binary main_v46 main_cst_16 main_v47 ((fun x v => Host.reduceAdd x v reducesTo_S20x20x512_S20x20_d2 h_S_) : (⟨S20x20x512, .f32⟩ : BufTy).Contents (Elt F) → (⟨S_, .f32⟩ : BufTy).Contents (Elt F) → (⟨S20x20, .f32⟩ : BufTy).Contents (Elt F)),
    StableHlo.nullary main_c_17 (constantI S_ 1 1#1),
    StableHlo.unary main_c_17 main_v48 (broadcastInDim S20x20 ![] bcast_S_S20x20 : (⟨S_, .i1⟩ : BufTy).Contents (Elt F) → (⟨S20x20, .i1⟩ : BufTy).Contents (Elt F)),
    StableHlo.TRef.nullary (TRef.of (T := ⟨S20x20, .i32⟩) main_call2_v0) (iotaInDim S20x20 32 0),
    StableHlo.TRef.nullary (TRef.of (T := ⟨S_, .i32⟩) main_call2_c) (constantI S_ 32 0#32),
    StableHlo.TRef.unary (TRef.of (T := ⟨S_, .i32⟩) main_call2_c) (TRef.of (T := ⟨S20x20, .i32⟩) main_call2_v1) (broadcastInDim S20x20 ![] bcast_S_S20x20),
    StableHlo.TRef.binary (TRef.of (T := ⟨S20x20, .i32⟩) main_call2_v0) (TRef.of (T := ⟨S20x20, .i32⟩) main_call2_v1) (TRef.of (T := ⟨S20x20, .i32⟩) main_call2_v2) addi,
    StableHlo.TRef.nullary (TRef.of (T := ⟨S20x20, .i32⟩) main_call2_v3) (iotaInDim S20x20 32 1),
    StableHlo.TRef.binary (TRef.of (T := ⟨S20x20, .i32⟩) main_call2_v2) (TRef.of (T := ⟨S20x20, .i32⟩) main_call2_v3) (TRef.of (T := ⟨S20x20, .i1⟩) main_call2_v4) (cmpi .sge),
    StableHlo.TRef.nullary (TRef.of (T := ⟨S_, .i1⟩) main_call2_c_0) (constantI S_ 1 0#1),
    StableHlo.TRef.unary (TRef.of (T := ⟨S_, .i1⟩) main_call2_c_0) (TRef.of (T := ⟨S20x20, .i1⟩) main_call2_v5) (broadcastInDim S20x20 ![] bcast_S_S20x20),
    StableHlo.TRef.ternary (TRef.of (T := ⟨S20x20, .i1⟩) main_call2_v4) (TRef.of (T := ⟨S20x20, .i1⟩) main_call2_v5) (TRef.of (T := ⟨S20x20, .i1⟩) main_v48) (TRef.of (T := ⟨S20x20, .i1⟩) main_v49) select,
    StableHlo.unary main_v28 main_v50 (broadcastInDim S20x1 ![0] bcast_S20_S20x1_0 : (⟨S20, .i1⟩ : BufTy).Contents (Elt F) → (⟨S20x1, .i1⟩ : BufTy).Contents (Elt F)),
    StableHlo.unary main_v50 main_v51 (broadcastInDim S20x20 ![0, 1] bcast_S20x1_S20x20_0_1 : (⟨S20x1, .i1⟩ : BufTy).Contents (Elt F) → (⟨S20x20, .i1⟩ : BufTy).Contents (Elt F)),
    StableHlo.binary main_v49 main_v51 main_v52 (andi : (⟨S20x20, .i1⟩ : BufTy).Contents (Elt F) → (⟨S20x20, .i1⟩ : BufTy).Contents (Elt F) → (⟨S20x20, .i1⟩ : BufTy).Contents (Elt F)),
    StableHlo.unary main_v28 main_v53 (broadcastInDim S1x20 ![1] bcast_S20_S1x20_1 : (⟨S20, .i1⟩ : BufTy).Contents (Elt F) → (⟨S1x20, .i1⟩ : BufTy).Contents (Elt F)),
    StableHlo.unary main_v53 main_v54 (broadcastInDim S20x20 ![0, 1] bcast_S1x20_S20x20_0_1 : (⟨S1x20, .i1⟩ : BufTy).Contents (Elt F) → (⟨S20x20, .i1⟩ : BufTy).Contents (Elt F)),
    StableHlo.binary main_v52 main_v54 main_v55 (andi : (⟨S20x20, .i1⟩ : BufTy).Contents (Elt F) → (⟨S20x20, .i1⟩ : BufTy).Contents (Elt F) → (⟨S20x20, .i1⟩ : BufTy).Contents (Elt F)),
    StableHlo.nullary main_cst_18 (constant S_ .f32 0x3F800000#32),
    StableHlo.TRef.unary (TRef.of (T := ⟨S_, .f32⟩) main_cst_18) (TRef.of (T := ⟨S_, .f32⟩) main_call3_v0) id,
    StableHlo.TRef.unary (TRef.of (T := ⟨S_, .f32⟩) main_call3_v0) (TRef.of (T := ⟨S20x20, .f32⟩) main_call3_v1) (broadcastInDim S20x20 ![] bcast_S_S20x20),
    StableHlo.TRef.ternary (TRef.of (T := ⟨S20x20, .i1⟩) main_v55) (TRef.of (T := ⟨S20x20, .f32⟩) main_v47) (TRef.of (T := ⟨S20x20, .f32⟩) main_call3_v1) (TRef.of (T := ⟨S20x20, .f32⟩) main_v56) select,
    StableHlo.unary main_v56 main_v57 (Host.sqrt : (⟨S20x20, .f32⟩ : BufTy).Contents (Elt F) → (⟨S20x20, .f32⟩ : BufTy).Contents (Elt F)),
    StableHlo.binary main_v57 main_arg4 main_v58 (subf : (⟨S20x20, .f32⟩ : BufTy).Contents (Elt F) → (⟨S20x20, .f32⟩ : BufTy).Contents (Elt F) → (⟨S20x20, .f32⟩ : BufTy).Contents (Elt F)),
    StableHlo.binary main_v58 main_v58 main_v59 (mulf : (⟨S20x20, .f32⟩ : BufTy).Contents (Elt F) → (⟨S20x20, .f32⟩ : BufTy).Contents (Elt F) → (⟨S20x20, .f32⟩ : BufTy).Contents (Elt F)),
    StableHlo.nullary main_cst_19 (constant S_ .f32 0x00000000#32),
    StableHlo.TRef.unary (TRef.of (T := ⟨S_, .f32⟩) main_cst_19) (TRef.of (T := ⟨S20x20, .f32⟩) main_call4_v0) (broadcastInDim S20x20 ![] bcast_S_S20x20),
    StableHlo.TRef.ternary (TRef.of (T := ⟨S20x20, .i1⟩) main_v55) (TRef.of (T := ⟨S20x20, .f32⟩) main_v59) (TRef.of (T := ⟨S20x20, .f32⟩) main_call4_v0) (TRef.of (T := ⟨S20x20, .f32⟩) main_v60) select,
    StableHlo.nullary main_cst_20 (constant S_ .f32 0x00000000#32),
    StableHlo.binary main_v60 main_cst_20 main_v61 ((fun x v => Host.reduceAdd x v reducesTo_S20x20_S_d0_1 h_S_) : (⟨S20x20, .f32⟩ : BufTy).Contents (Elt F) → (⟨S_, .f32⟩ : BufTy).Contents (Elt F) → (⟨S_, .f32⟩ : BufTy).Contents (Elt F)),
    StableHlo.nullary main_cst_21 (constant S_ .f32 0x3F800000#32),
    StableHlo.binary main_cst_21 main_v20 main_v62 (mulf : (⟨S_, .f32⟩ : BufTy).Contents (Elt F) → (⟨S_, .f32⟩ : BufTy).Contents (Elt F) → (⟨S_, .f32⟩ : BufTy).Contents (Elt F)),
    StableHlo.nullary main_cst_22 (constant S_ .f32 0x3F800000#32),
    StableHlo.binary main_cst_22 main_v40 main_v63 (mulf : (⟨S_, .f32⟩ : BufTy).Contents (Elt F) → (⟨S_, .f32⟩ : BufTy).Contents (Elt F) → (⟨S_, .f32⟩ : BufTy).Contents (Elt F)),
    StableHlo.binary main_v62 main_v63 main_v64 (addf : (⟨S_, .f32⟩ : BufTy).Contents (Elt F) → (⟨S_, .f32⟩ : BufTy).Contents (Elt F) → (⟨S_, .f32⟩ : BufTy).Contents (Elt F)),
    StableHlo.nullary main_cst_23 (constant S_ .f32 0x3F800000#32),
    StableHlo.binary main_cst_23 main_v61 main_v65 (mulf : (⟨S_, .f32⟩ : BufTy).Contents (Elt F) → (⟨S_, .f32⟩ : BufTy).Contents (Elt F) → (⟨S_, .f32⟩ : BufTy).Contents (Elt F)),
    StableHlo.binary main_v64 main_v65 main_v66 (addf : (⟨S_, .f32⟩ : BufTy).Contents (Elt F) → (⟨S_, .f32⟩ : BufTy).Contents (Elt F) → (⟨S_, .f32⟩ : BufTy).Contents (Elt F)) ]

set_option maxRecDepth 8192 in
set_option maxHeartbeats 4000000 in
/-- The program is exactly its list of steps run one after another: its two halves and the five
    function bodies unfold to the same chain of steps. -/
theorem main_eq (c : Dev nD) : main (F := F) c = seq ops := rfl

/-- No array of the program is a temporary of a kernel region: there is no kernel. -/
theorem scopedRefs_eq : (Finset.univ.filter fun b : Ref sig .tc => b.isScoped) = ∅ := by decide
/-- Nor is any counter: there is none. -/
theorem scopedSems_eq : (Finset.univ.filter fun sm : SemLoc sig => sm.isScoped .tc) = ∅ := by decide

set_option maxRecDepth 8192 in
/-- Every step reads and writes arrays of the program only. -/
theorem ops_sub : (ops : List (HloOp τ sig (Elt F))).Forall fun op => op.bufs ⊆ tcRefs τ sig :=
  ⟨nullary_bufs_sub .., nullary_bufs_sub .., unary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., unary_bufs_sub .., binary_bufs_sub .., binary_bufs_sub .., binary_bufs_sub .., nullary_bufs_sub .., binary_bufs_sub .., nullary_bufs_sub .., unary_bufs_sub .., binary_bufs_sub .., nullary_bufs_sub .., unary_bufs_sub .., ternary_bufs_sub .., nullary_bufs_sub .., binary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., unary_bufs_sub .., binary_bufs_sub .., binary_bufs_sub .., binary_bufs_sub .., nullary_bufs_sub .., binary_bufs_sub .., nullary_bufs_sub .., unary_bufs_sub .., binary_bufs_sub .., nullary_bufs_sub .., unary_bufs_sub .., ternary_bufs_sub .., nullary_bufs_sub .., binary_bufs_sub .., unary_bufs_sub .., unary_bufs_sub .., unary_bufs_sub .., unary_bufs_sub .., binary_bufs_sub .., binary_bufs_sub .., nullary_bufs_sub .., binary_bufs_sub .., nullary_bufs_sub .., unary_bufs_sub .., nullary_bufs_sub .., nullary_bufs_sub .., unary_bufs_sub .., binary_bufs_sub .., nullary_bufs_sub .., binary_bufs_sub .., nullary_bufs_sub .., unary_bufs_sub .., ternary_bufs_sub .., unary_bufs_sub .., unary_bufs_sub .., binary_bufs_sub .., unary_bufs_sub .., unary_bufs_sub .., binary_bufs_sub .., nullary_bufs_sub .., unary_bufs_sub .., unary_bufs_sub .., ternary_bufs_sub .., unary_bufs_sub .., binary_bufs_sub .., binary_bufs_sub .., nullary_bufs_sub .., unary_bufs_sub .., ternary_bufs_sub .., nullary_bufs_sub .., binary_bufs_sub .., nullary_bufs_sub .., binary_bufs_sub .., nullary_bufs_sub .., binary_bufs_sub .., binary_bufs_sub .., nullary_bufs_sub .., binary_bufs_sub .., binary_bufs_sub ..⟩

set_option maxRecDepth 8192 in
set_option maxHeartbeats 4000000 in
/-- No step writes the first argument array: each step writes one array, and it is another one. -/
theorem arg0_kept (V : Valuation τ sig (Elt F)) :
    after ops V (Proc.devRef .tc main_arg0) = V (Proc.devRef .tc main_arg0) :=
  after_of_forall_not_mem (b := Proc.devRef .tc main_arg0) _ _ (List.forall_iff_forall_mem.mp (by
    simp only [ops, List.Forall, StableHlo.nullary_writes, StableHlo.unary_writes, StableHlo.binary_writes, StableHlo.ternary_writes, Finset.mem_singleton]
    repeat' apply And.intro
    all_goals exact devRef_ne_of_ne (by decide)))

set_option maxRecDepth 8192 in
set_option maxHeartbeats 4000000 in
/-- No step writes the second argument array: each step writes one array, and it is another one. -/
theorem arg1_kept (V : Valuation τ sig (Elt F)) :
    after ops V (Proc.devRef .tc main_arg1) = V (Proc.devRef .tc main_arg1) :=
  after_of_forall_not_mem (b := Proc.devRef .tc main_arg1) _ _ (List.forall_iff_forall_mem.mp (by
    simp only [ops, List.Forall, StableHlo.nullary_writes, StableHlo.unary_writes, StableHlo.binary_writes, StableHlo.ternary_writes, Finset.mem_singleton]
    repeat' apply And.intro
    all_goals exact devRef_ne_of_ne (by decide)))

set_option maxRecDepth 8192 in
set_option maxHeartbeats 4000000 in
/-- No step writes the third argument array: each step writes one array, and it is another one. -/
theorem arg2_kept (V : Valuation τ sig (Elt F)) :
    after ops V (Proc.devRef .tc main_arg2) = V (Proc.devRef .tc main_arg2) :=
  after_of_forall_not_mem (b := Proc.devRef .tc main_arg2) _ _ (List.forall_iff_forall_mem.mp (by
    simp only [ops, List.Forall, StableHlo.nullary_writes, StableHlo.unary_writes, StableHlo.binary_writes, StableHlo.ternary_writes, Finset.mem_singleton]
    repeat' apply And.intro
    all_goals exact devRef_ne_of_ne (by decide)))

set_option maxRecDepth 8192 in
set_option maxHeartbeats 4000000 in
/-- No step writes the fourth argument array: each step writes one array, and it is another one. -/
theorem arg3_kept (V : Valuation τ sig (Elt F)) :
    after ops V (Proc.devRef .tc main_arg3) = V (Proc.devRef .tc main_arg3) :=
  after_of_forall_not_mem (b := Proc.devRef .tc main_arg3) _ _ (List.forall_iff_forall_mem.mp (by
    simp only [ops, List.Forall, StableHlo.nullary_writes, StableHlo.unary_writes, StableHlo.binary_writes, StableHlo.ternary_writes, Finset.mem_singleton]
    repeat' apply And.intro
    all_goals exact devRef_ne_of_ne (by decide)))

set_option maxRecDepth 8192 in
set_option maxHeartbeats 4000000 in
/-- No step writes the fifth argument array: each step writes one array, and it is another one. -/
theorem arg4_kept (V : Valuation τ sig (Elt F)) :
    after ops V (Proc.devRef .tc main_arg4) = V (Proc.devRef .tc main_arg4) :=
  after_of_forall_not_mem (b := Proc.devRef .tc main_arg4) _ _ (List.forall_iff_forall_mem.mp (by
    simp only [ops, List.Forall, StableHlo.nullary_writes, StableHlo.unary_writes, StableHlo.binary_writes, StableHlo.ternary_writes, Finset.mem_singleton]
    repeat' apply And.intro
    all_goals exact devRef_ne_of_ne (by decide)))

set_option maxRecDepth 8192 in
set_option maxHeartbeats 4000000 in
/-- From any starting memory with all counters at zero, for any reading of the float operations: every fair
    execution of the program terminates; then the scalar result holds what the 106 steps, applied in order to
    the starting contents, leave in it, and the five argument arrays hold what they held at the start. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v66) = after ops (launchContents m c) (Proc.devRef .tc main_v66)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨h c main_v66,
      (h c main_arg0).trans (arg0_kept _),
      (h c main_arg1).trans (arg1_kept _),
      (h c main_arg2).trans (arg2_kept _),
      (h c main_arg3).trans (arg3_kept _),
      (h c main_arg4).trans (arg4_kept _)⟩)
    (run_seq scopedRefs_eq scopedSems_eq defs main (fun _ => ops) main_eq (fun _ => ops_sub) m ρ)

end Cert.ReferenceIdeal.Hand

end
-- ==== Proof.RTail.lean ====
/-
  What the reference program's 106 steps leave in its scalar result, as one formula.

  Run from any contents W of the arrays, the program first forms four arrays by adding into zeros:
  the class sums (every row of the first argument added into the row of the class its label, in the
  second argument, names), the class counts (a one per row added at its class), the group sums
  (every class's row of sums added into the row of its group, class j belonging to group j div 5 by
  a fixed table) and the group counts (every class's count added at its group). Everything after
  that is entry-by-entry arithmetic, comparisons, masks and sums along axes of those four arrays and
  of the three target arrays (the third, fourth and fifth arguments).

  This module names the four arrays as the program writes them and proves that the scalar result
  after all the steps is the loss function of the shared loss module applied to those four arrays and the three
  targets: one times the class term plus one times the group term plus one times the pair term.
  The proof follows the data through the list of steps: each step's result is its operation
  applied to what earlier steps left in the arrays it reads, and a step leaves every other array
  as it was; composed from the last step backwards this gives exactly the stages of the loss
  function, operation for operation.
-/
import proofs.«409649_j73005854097881_3_alg».proof.Proof.RefRun
import proofs.«409649_j73005854097881_3_alg».proof.Proof.Loss

noncomputable section

namespace Cert.ReferenceIdeal.Tail

open Cert.ReferenceIdeal Cert.ReferenceIdeal.Gen Cert.ReferenceIdeal.Hand Idealize.ShloMosaic Idealize.ShloMosaic.TcCoe Idealize.SL.Sem Idealize.ShloMosaic.StableHlo

/-- The class sums as the program forms them: zeros, plus every row added into the row its label names. -/
abbrev sR (W : Valuation τ sig (Elt Ideal)) : FVec Ideal S100x512 .f32 :=
  Host.scatterAdd (F := Ideal) scatter_S100x512_S262144x1_S262144x512_1_0_0_1
    (broadcastInDim S100x512 ![] bcast_S_S100x512 (constant (F := Ideal) S_ .f32 0x00000000#32))
    (broadcastInDim S262144x1 ![0] bcast_S262144_S262144x1_0 (W (Proc.devRef .tc main_arg1)))
    (W (Proc.devRef .tc main_arg0))

/-- The class counts as the program forms them: zeros, plus a one per row added at the entry its label names. -/
abbrev nR (W : Valuation τ sig (Elt Ideal)) : FVec Ideal S100 .f32 :=
  Host.scatterAdd (F := Ideal) scatter_S100_S262144x1_S262144_n_0_0_1
    (broadcastInDim S100 ![] bcast_S_S100 (constant (F := Ideal) S_ .f32 0x00000000#32))
    (broadcastInDim S262144x1 ![0] bcast_S262144_S262144x1_0 (W (Proc.devRef .tc main_arg1)))
    (broadcastInDim S262144 ![] bcast_S_S262144 (constant (F := Ideal) S_ .f32 0x3F800000#32))

/-- The group sums as the program forms them: zeros, plus every class's row of sums added into its group's row. -/
abbrev ssR (W : Valuation τ sig (Elt Ideal)) : FVec Ideal S20x512 .f32 :=
  Host.scatterAdd (F := Ideal) scatter_S20x512_S100x1_S100x512_1_0_0_1
    (broadcastInDim S20x512 ![] bcast_S_S20x512 (constant (F := Ideal) S_ .f32 0x00000000#32))
    (broadcastInDim S100x1 ![0] bcast_S100_S100x1_0 (fun i => lit0 (S100.rowMajor i)))
    (sR W)

/-- The group counts as the program forms them: zeros, plus every class's count added at its group's entry. -/
abbrev snR (W : Valuation τ sig (Elt Ideal)) : FVec Ideal S20 .f32 :=
  Host.scatterAdd (F := Ideal) scatter_S20_S100x1_S100_n_0_0_1
    (broadcastInDim S20 ![] bcast_S_S20 (constant (F := Ideal) S_ .f32 0x00000000#32))
    (broadcastInDim S100x1 ![0] bcast_S100_S100x1_0 (fun i => lit0 (S100.rowMajor i)))
    (nR W)

attribute [local irreducible] Host.scatterAdd Host.reduceAdd in
set_option maxRecDepth 100000 in
set_option maxHeartbeats 2000000 in
/-- After the 106 steps, from any contents W, the scalar result is the loss of the class sums, class
    counts, group sums and group counts the program formed from W and of W's three target arrays.
    The two adding operations (adding rows into named rows, and summing along axes) are kept closed
    while the two sides are compared: the comparison only needs that they are applied to equal arguments. -/
theorem result_eq_loss (W : Valuation τ sig (Elt Ideal)) :
    after ops W (Proc.devRef .tc main_v66)
      = Cert.Loss.loss (sR W) (nR W) (ssR W) (snR W) (W (Proc.devRef .tc main_arg2)) (W (Proc.devRef .tc main_arg3)) (W (Proc.devRef .tc main_arg4)) := by
  simp only [after_cons, after_nil]
  rfl

end Cert.ReferenceIdeal.Tail

end
-- ==== Proof.RefResult.lean ====
/-
  The reference program's result, stated as the loss of the class sums and class counts of its
  first two arguments.

  For rows x (262144 × 512) with labels lab, and three arrays of reference values, the scalar the
  reference program leaves is the loss function applied to: the class sums of x by lab, the class
  counts of lab, the group sums of those class sums, the group counts of those class counts, and
  the three reference arrays. This is the same formula the kernel program's result is shown to
  equal, so the two results can be compared term for term.

  The module also restates the reference program's run with this formula: every fair execution
  from any starting memory terminates, the scalar result then holds that loss of the arguments as
  they were at the start, and the five arguments are unchanged.
-/
import proofs.«409649_j73005854097881_3_alg».proof.Proof.RefRun
import proofs.«409649_j73005854097881_3_alg».proof.Proof.RTail
import proofs.«409649_j73005854097881_3_alg».proof.Proof.ScatterRead
import proofs.«409649_j73005854097881_3_alg».proof.Proof.Loss
import proofs.«409649_j73005854097881_3_alg».proof.Proof.Spec

noncomputable section

namespace Cert.ReferenceIdeal.Result

open Cert.ReferenceIdeal Cert.ReferenceIdeal.Gen Cert.ReferenceIdeal.Hand Idealize.ShloMosaic Idealize.ShloMosaic.TcCoe Idealize.SL.Sem Idealize.ShloMosaic.StableHlo

/-- The loss of the class sums, class counts, group sums and group counts of the rows and their labels,
    against the three arrays of reference values. -/
abbrev lossOf (rows : Vec Ideal S262144x512 .f32) (labels : Vec Ideal S262144 .i32) (rf : Vec Ideal S100x512 .f32)
    (rs : Vec Ideal S20x512 .f32) (ri : Vec Ideal S20x20 .f32) : Vec Ideal S_ .f32 :=
  Cert.Loss.loss (Cert.Spec.classSum rows labels) (Cert.Spec.classCnt labels)
    (Cert.Spec.groupSum (Cert.Spec.classSum rows labels)) (Cert.Spec.groupCnt (Cert.Spec.classCnt labels)) rf rs ri

variable (m : (ℓ : Loc nD τ sig) → Buf (Elt Ideal) ℓ) (ρ : Dev nD → PrngReg)

/-- What the reference program's steps leave in the scalar result, from the starting contents of a
    device's arrays: the loss of the class and group sums and counts of the first two arguments. -/
theorem ref_result (c : Dev nD) :
    after (ops (F := Ideal)) (launchContents m c) (Proc.devRef .tc main_v66)
      = lossOf (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) := by
  refine (Cert.ReferenceIdeal.Tail.result_eq_loss (launchContents m c)).trans ?_
  have hs : Cert.ReferenceIdeal.Tail.sR (launchContents m c)
      = Cert.Spec.classSum (m ((c.tc : Thread nD τ).loc main_arg0)) (m ((c.tc : Thread nD τ).loc main_arg1)) :=
    Cert.ReferenceIdeal.ScatterRead.scatterAdd_rows_eq_classSum _ _
  have hn : Cert.ReferenceIdeal.Tail.nR (launchContents m c) = Cert.Spec.classCnt (m ((c.tc : Thread nD τ).loc main_arg1)) :=
    Cert.ReferenceIdeal.ScatterRead.scatterAdd_ones_eq_classCnt _
  have hss : Cert.ReferenceIdeal.Tail.ssR (launchContents m c) = Cert.Spec.groupSum (Cert.ReferenceIdeal.Tail.sR (launchContents m c)) :=
    Cert.ReferenceIdeal.ScatterRead.scatterAdd_rows_eq_groupSum _
  have hsn : Cert.ReferenceIdeal.Tail.snR (launchContents m c) = Cert.Spec.groupCnt (Cert.ReferenceIdeal.Tail.nR (launchContents m c)) :=
    Cert.ReferenceIdeal.ScatterRead.scatterAdd_vec_eq_groupCnt _
  rw [hss, hsn, hs, hn]

/-- The reference program's run: every fair execution from any starting memory terminates; the scalar
    result then holds the loss of the class and group sums and counts of the first two arguments as they
    were at the start, and the five arguments hold what they held. -/
theorem run_result :
    θ_run defs (onTc (τ := τ) (main (F := Ideal))) ⟨m, fun _ => 0, ρ⟩ fun r => ∀ c : Dev nD,
      r.2.mem ((c.tc : Thread nD τ).loc main_v66)
          = lossOf (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans (ref_result m c), (h c).2⟩) (Hand.run (F := Ideal) m ρ)

end Cert.ReferenceIdeal.Result

end
-- ==== Proof.lean ====
/-
  The certificate: a Pallas kernel that computes per-class sums and counts of 262144 labelled rows on a 2 × 16
  grid, followed by a loss over class and group centroids, against the same loss computed with scatter-adds.

  Both programs take an array of 262144 rows of 512 numbers, one 32-bit label per row, and three reference
  arrays. For each of 100 classes they need the sum of the rows whose label is that class and the number of such
  rows; a row whose label is no class contributes nothing. The reference gets both by an accumulating scatter
  over the labels. The kernel walks the rows in 32 blocks of 8192, two cores taking 16 blocks each; per block it
  multiplies a one-hot matrix of the labels (class j against label k) with the rows, 1024 rows at a time, and
  sums each one-hot row for the counts; each core adds its blocks' results into one accumulator block, cleared at
  its first block; the host then adds the two cores and keeps classes 0 … 99. Over the extended reals a product
  with a one-hot entry is the row entry or zero, and a sum may be regrouped freely, so both give the class sums
  and class counts of the specification. The 20 group sums (five consecutive classes each) are formed by a
  constant-index scatter in the reference and by a reshape to 20 × 5 and a sum in the kernel program: the same
  five-term sums. From there on the two programs apply the same operations, stated once as one loss function.

  The three frame claims are runs: the kernel programs' by the launch theorem for a region followed by host
  lines, over proof data that follows the two accumulator blocks point by point; the reference's is its
  straight line of host operations. The eight rounding round-trips the idealization removed are the rule's own
  statement at their shape.
-/
import proofs.«409649_j73005854097881_3_alg».proof.Defs
import proofs.«409649_j73005854097881_3_alg».proof.Proof.Gen.Kernel
import proofs.«409649_j73005854097881_3_alg».proof.Proof.Gen.KernelIdeal
import proofs.«409649_j73005854097881_3_alg».proof.Proof.Gen.ReferenceIdeal
import proofs.«409649_j73005854097881_3_alg».proof.Proof.Gen.Pre_finite_inputs
import proofs.«409649_j73005854097881_3_alg».proof.Proof.KFrame
import proofs.«409649_j73005854097881_3_alg».proof.Proof.KIResult
import proofs.«409649_j73005854097881_3_alg».proof.Proof.RefResult
import Idealize.ShloMosaic.Adequacy
import Idealize.ShloMosaic.Init

noncomputable section

namespace Cert.Proof

open Idealize.ShloMosaic Idealize.SL.Sem

/-- The word-level kernel program runs to the end and leaves its arguments as launched. -/
theorem frame_kernel : Cert.frame_Kernel := fun m ρ _ => Cert.Kernel.Around.frame m ρ

/-- So does its idealization. -/
theorem frame_kernel_ideal : Cert.frame_KernelIdeal := fun m ρ _ => Cert.KernelIdeal.Around.frame m ρ

/-- So does the reference: its run, with the result dropped. -/
theorem frame_reference : Cert.frame_ReferenceIdeal := fun m ρ _ =>
  (θ_run Cert.ReferenceIdeal.defs _ _).mono (fun _ h c => (h c).2) (Cert.ReferenceIdeal.Hand.run (F := Ideal) m ρ)

/-- One removed round trip through the narrower format, at the one-hot matrix's shape: the rule's statement. -/
theorem one_site : IdealRules.truncf_extf.Statement Cert.KernelIdeal.S128x1024 .f32 .bf16 :=
  IdealRules.truncf_extf.statement _ .f32 .bf16

/-- The idealization removed eight such round trips, one per chunk. -/
theorem preserves : Cert.preserves_Kernel_KernelIdeal :=
  ⟨one_site, one_site, one_site, one_site, one_site, one_site, one_site, one_site⟩

/-- From memories agreeing on the arguments both idealized programs run, and both end at the specification's loss of the
    launch contents: the kernel program by its run read as a value, the reference by its own, the arguments identified. -/
theorem algebraic : Cert.algebraic_KernelIdeal_ReferenceIdeal := by
  intro m ρ m' ρ' _ hagree
  refine ⟨fun c => Cert.KernelIdeal.Around.lossOf
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    Cert.KernelIdeal.Around.run_result m ρ, ?_⟩
  refine (θ_run Cert.ReferenceIdeal.defs _ _).mono (fun _ h c => ⟨(h c).1.trans ?_, (h c).2⟩)
    (Cert.ReferenceIdeal.Result.run_result m' ρ')
  rw [(hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
